-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x1200000 : Shape := ⟨2, ![2, 1200000]⟩
abbrev S1200000 : Shape := ⟨1, ![1200000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S22x64 : S_.BroadcastsInDim S22x64 (![] : Fin 0 → Fin S22x64.rank)
  reducesTo_S22x64_S_d0_1 : S22x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S64 .f32) (main_arg10 : FVec F S64x3 .f32) (main_arg11 : FVec F S3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x3 .f32 := Host.absf main_arg10
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x22 .f32) (main_arg1 : IVec S2x1200000 32) (main_arg2 : FVec F S1200000 .f32) (main_arg3 : IVec S100000 32) (main_arg4 : FVec F S22x64 .f32) (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S22x64 .f32 := Host.absf main_arg4
  let main_cst_2 : FVec F S_ .f32 := constant S_ .f32 0x7F800000#32
  let main_v10 : FVec F S22x64 .f32 := broadcastInDim S22x64 ![] bcast_S_S22x64 main_cst_2
  let main_v11 : IVec S22x64 1 := cmpf .olt main_v9 main_v10
  let main_c_3 : IVec S_ 1 := constantI S_ 1 1#1
  let main_v12 : IVec S_ 1 := (fun x v => Host.reduce IntOp.andi x v reducesTo_S22x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x22 : Shape := ⟨2, ![100000, 22]⟩
abbrev S2x1200000 : Shape := ⟨2, ![2, 1200000]⟩
abbrev S1200000 : Shape := ⟨1, ![1200000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S10000x22 : Shape := ⟨2, ![10000, 22]⟩
abbrev S10000x64 : Shape := ⟨2, ![10000, 64]⟩
abbrev S1300000x64 : Shape := ⟨2, ![1300000, 64]⟩
abbrev S1x64 : Shape := ⟨2, ![1, 64]⟩
abbrev S256 : Shape := ⟨1, ![256]⟩
abbrev S100000x1 : Shape := ⟨2, ![100000, 1]⟩
abbrev S256x1 : Shape := ⟨2, ![256, 1]⟩
abbrev S1x3 : Shape := ⟨2, ![1, 3]⟩
abbrev S256x3 : Shape := ⟨2, ![256, 3]⟩
abbrev S10000x1 : Shape := ⟨2, ![10000, 1]⟩
abbrev S256x64 : Shape := ⟨2, ![256, 64]⟩
abbrev S1x256 : Shape := ⟨2, ![1, 256]⟩
abbrev S10000x256 : Shape := ⟨2, ![10000, 256]⟩

abbrev nBuf : Space → Nat
  | .hbm => 121
  | .vmem => 21
  | .smem => 0
  | _ => 0

abbrev bufTy : (tb : Table) → Fin (tcTables nBuf tb) → BufTy
  | .hbm, ⟨0, _⟩ => ⟨S100000x22, .f32⟩
  | .hbm, ⟨1, _⟩ => ⟨S2x1200000, .i32⟩
  | .hbm, ⟨2, _⟩ => ⟨S1200000, .f32⟩
  | .hbm, ⟨3, _⟩ => ⟨S100000, .i32⟩
  | .hbm, ⟨4, _⟩ => ⟨S22x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S100000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S1x1200000, .i32⟩
  | .hbm, ⟨17, _⟩ => ⟨S1200000, .i32⟩
  | .hbm, ⟨18, _⟩ => ⟨S1300000, .i32⟩
  | .hbm, ⟨19, _⟩ => ⟨S_, .f32⟩
  | .hbm, ⟨20, _⟩ => ⟨S100000, .f32⟩
  | .hbm, ⟨21, _⟩ => ⟨S1300000, .f32⟩
  | .hbm, ⟨22, _⟩ => ⟨S_, .f32⟩
  | .hbm, ⟨23, _⟩ => ⟨S100000, .f32⟩
  | .hbm, ⟨24, _⟩ => ⟨S1300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S_, .i32⟩
  | .hbm, ⟨52, _⟩ => ⟨S1300000, .i32⟩
  | .hbm, ⟨53, _⟩ => ⟨S1300000, .i1⟩
  | .hbm, ⟨54, _⟩ => ⟨S_, .i32⟩
  | .hbm, ⟨55, _⟩ => ⟨S1300000, .i32⟩
  | .hbm, ⟨56, _⟩ => ⟨S1300000, .i32⟩
  | .hbm, ⟨57, _⟩ => ⟨S1300000, .i32⟩
  | .hbm, ⟨58, _⟩ => ⟨S1300000x1, .i32⟩
  | .hbm, ⟨59, _⟩ => ⟨S1300000, .f32⟩
  | .hbm, ⟨60, _⟩ => ⟨S1300000, .f32⟩
  | .hbm, ⟨61, _⟩ => ⟨S100000x64, .f32⟩
  | .hbm, ⟨62, _⟩ => ⟨S1300000x1, .f32⟩
  | .hbm, ⟨63, _⟩ => ⟨S_, .i32⟩
  | .hbm, ⟨64, _⟩ => ⟨S1300000, .i32⟩
  | .hbm, ⟨65, _⟩ => ⟨S1300000, .i1⟩
  | .hbm, ⟨66, _⟩ => ⟨S_, .i32⟩
  | .hbm, ⟨67, _⟩ => ⟨S1300000, .i32⟩
  | .hbm, ⟨68, _⟩ => ⟨S1300000, .i32⟩
  | .hbm, ⟨69, _⟩ => ⟨S1300000, .i32⟩
  | .hbm, ⟨70, _⟩ => ⟨S1300000x1, .i32⟩
  | .hbm, ⟨71, _⟩ => ⟨S1300000x64, .f32⟩
  | .hbm, ⟨72, _⟩ => ⟨S1300000x64, .f32⟩
  | .hbm, ⟨73, _⟩ => ⟨S1300000x64, .f32⟩
  | .hbm, ⟨74, _⟩ => ⟨S_, .f32⟩
  | .hbm, ⟨75, _⟩ => ⟨S100000x64, .f32⟩
  | .hbm, ⟨76, _⟩ => ⟨S1300000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1300000x1, .f32⟩
  | .hbm, ⟨86, _⟩ => ⟨S_, .i32⟩
  | .hbm, ⟨87, _⟩ => ⟨S1300000, .i32⟩
  | .hbm, ⟨88, _⟩ => ⟨S1300000, .i1⟩
  | .hbm, ⟨89, _⟩ => ⟨S_, .i32⟩
  | .hbm, ⟨90, _⟩ => ⟨S1300000, .i32⟩
  | .hbm, ⟨91, _⟩ => ⟨S1300000, .i32⟩
  | .hbm, ⟨92, _⟩ => ⟨S1300000, .i32⟩
  | .hbm, ⟨93, _⟩ => ⟨S1300000x1, .i32⟩
  | .hbm, ⟨94, _⟩ => ⟨S1300000x64, .f32⟩
  | .hbm, ⟨95, _⟩ => ⟨S1300000x64, .f32⟩
  | .hbm, ⟨96, _⟩ => ⟨S1300000x64, .f32⟩
  | .hbm, ⟨97, _⟩ => ⟨S_, .f32⟩
  | .hbm, ⟨98, _⟩ => ⟨S100000x64, .f32⟩
  | .hbm, ⟨99, _⟩ => ⟨S1300000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S256, .f32⟩
  | .hbm, ⟨111, _⟩ => ⟨S100000x1, .i32⟩
  | .hbm, ⟨112, _⟩ => ⟨S256, .f32⟩
  | .hbm, ⟨113, _⟩ => ⟨S_, .f32⟩
  | .hbm, ⟨114, _⟩ => ⟨S256, .f32⟩
  | .hbm, ⟨115, _⟩ => ⟨S256, .f32⟩
  | .hbm, ⟨116, _⟩ => ⟨S256x1, .f32⟩
  | .hbm, ⟨117, _⟩ => ⟨S100000x1, .i32⟩
  | .hbm, ⟨118, _⟩ => ⟨S1x64, .f32⟩
  | .hbm, ⟨119, _⟩ => ⟨S1x3, .f32⟩
  | .hbm, ⟨120, _⟩ => ⟨S256x3, .f32⟩
  | .local _ .vmem, ⟨0, _⟩ => ⟨S10000x22, .f32⟩
  | .local _ .vmem, ⟨1, _⟩ => ⟨S10000x22, .f32⟩
  | .local _ .vmem, ⟨2, _⟩ => ⟨S22x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .i32⟩
  | .local _ .vmem, ⟨13, _⟩ => ⟨S10000x1, .i32⟩
  | .local _ .vmem, ⟨14, _⟩ => ⟨S256x1, .f32⟩
  | .local _ .vmem, ⟨15, _⟩ => ⟨S64x64, .f32⟩
  | .local _ .vmem, ⟨16, _⟩ => ⟨S1x64, .f32⟩
  | .local _ .vmem, ⟨17, _⟩ => ⟨S64x3, .f32⟩
  | .local _ .vmem, ⟨18, _⟩ => ⟨S1x3, .f32⟩
  | .local _ .vmem, ⟨19, _⟩ => ⟨S256x3, .f32⟩
  | .local _ .vmem, ⟨20, _⟩ => ⟨S256x64, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_cst : Ref sig .tc := ⟨.hbm, 104, rfl⟩
abbrev main_call3_v0 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  inb_S10000x22_S10000x22_0_0 : ∀ a, (![0, 0] : Fin 2 → Nat) a + S10000x22.size a ≤ S10000x22.size a
  h_S10000x22 : 0 < S10000x22.numel
  bitsLt_bf16_f32 : FTy.bits .bf16 < FTy.bits .f32
  inb_S22x64_S22x64_0_0 : ∀ a, (![0, 0] : Fin 2 → Nat) a + S22x64.size a ≤ S22x64.size a
  h_S22x64 : 0 < S22x64.numel
  inb_S10000x64_S10000x64_0_0 : ∀ a, (![0, 0] : Fin 2 → Nat) a + S10000x64.size a ≤ S10000x64.size a
  h_S10000x64 : 0 < S10000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  shapeCasts_S100000_S100000x1 : S100000.ShapeCasts S100000x1
  shapeCasts_S64_S1x64 : S64.ShapeCasts S1x64
  shapeCasts_S3_S1x3 : S3.ShapeCasts S1x3
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S1x256_d1_w32 : S1x256.Iotas .tc 32 [1]
  broadcasts_S10000x1_S10000x256 : S10000x1.Broadcasts S10000x256
  broadcasts_S1x256_S10000x256 : S1x256.Broadcasts S10000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  inb_S256x3_S256x3_0_0 : ∀ a, (![0, 0] : Fin 2 → Nat) a + S256x3.size a ≤ S256x3.size a
  h_S256x3 : 0 < S256x3.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x22_S22x64_S10000x64_1_0_0_1_n_n_wf : DotDims.WF S10000x22 S22x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  scatter_S256_S100000x1_S100000_n_0_0_1_wf : ScatterDims.WF S256 S100000x1 S100000 [] [0] [0] 1
  dot_S10000x256_S10000x64_S256x64_0_0_1_1_n_n_wf : DotDims.WF S10000x256 S10000x64 S256x64 [0] [0] [1] [1] [] []
  dot_S256x64_S64x64_S256x64_1_0_0_1_n_n_wf : DotDims.WF S256x64 S64x64 S256x64 [1] [0] [0] [1] [] []
  dot_S256x64_S64x3_S256x3_1_0_0_1_n_n_wf : DotDims.WF S256x64 S64x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x22.size a ≤ S100000x22.size a
  hwx0_0 : ∀ i : grid0.Coords, EltTy.bits .f32 = 32 ∨ (Rect.block (s := S100000x22) S10000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x64.size a ≤ S22x64.size a
  hwx0_1 : ∀ i : grid0.Coords, EltTy.bits .f32 = 32 ∨ (Rect.block (s := S22x64) S22x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x3.size a ≤ S64x3.size a
  hwx2_5 : ∀ i : grid2.Coords, EltTy.bits .f32 = 32 ∨ (Rect.block (s := S64x3) S64x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x3.size a ≤ S256x3.size a
  hwx2_7 : ∀ i : grid2.Coords, EltTy.bits .f32 = 32 ∨ (Rect.block (s := S256x3) S256x3.size (cc2_transform_7 i) (hinb2_7 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x22_S22x64_S10000x64_1_0_0_1_n_n : DotDims S10000x22 S22x64 S10000x64 where
  lhsContracting := [1]
  rhsContracting := [0]
  lhsNonContracting := [0]
  rhsNonContracting := [1]
  lhsBatch := []
  rhsBatch := []
  wf := dot_S10000x22_S22x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S10000x256_S10000x64_S256x64_0_0_1_1_n_n : DotDims S10000x256 S10000x64 S256x64 where
  lhsContracting := [0]
  rhsContracting := [0]
  lhsNonContracting := [1]
  rhsNonContracting := [1]
  lhsBatch := []
  rhsBatch := []
  wf := dot_S10000x256_S10000x64_S256x64_0_0_1_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x3_S256x3_1_0_0_1_n_n : DotDims S256x64 S64x3 S256x3 where
  lhsContracting := [1]
  rhsContracting := [0]
  lhsNonContracting := [0]
  rhsNonContracting := [1]
  lhsBatch := []
  rhsBatch := []
  wf := dot_S256x64_S64x3_S256x3_1_0_0_1_n_n_wf

abbrev win0_0 : Pipeline.Window sig grid0 :=
  Pipeline.Window.ofSpec (Memref.whole main_arg0) S10000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S22x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81) S256x3.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x22 : Shape := ⟨2, ![100000, 22]⟩
abbrev S2x1200000 : Shape := ⟨2, ![2, 1200000]⟩
abbrev S1200000 : Shape := ⟨1, ![1200000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x3 : Shape := ⟨2, ![256, 3]⟩
abbrev S1x3 : Shape := ⟨2, ![1, 3]⟩

abbrev nBuf : Space → Nat
  | .hbm => 183
  | .vmem => 0
  | .smem => 0
  | _ => 0

abbrev hbmTy0_0 (i : Nat) : BufTy := match i % 128 with
  | 0 => ⟨S100000x22, .f32⟩
  | 1 => ⟨S2x1200000, .i32⟩
  | 2 => ⟨S1200000, .f32⟩
  | 3 => ⟨S100000, .i32⟩
  | 4 => ⟨S22x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x3, .f32⟩
  | 11 => ⟨S3, .f32⟩
  | 12 => ⟨S100000, .i32⟩
  | 13 => ⟨S1x1200000, .i32⟩
  | 14 => ⟨S1200000, .i32⟩
  | 15 => ⟨S1300000, .i32⟩
  | 16 => ⟨S1x1200000, .i32⟩
  | 17 => ⟨S1200000, .i32⟩
  | 18 => ⟨S1300000, .i32⟩
  | 19 => ⟨S_, .f32⟩
  | 20 => ⟨S100000, .f32⟩
  | 21 => ⟨S1300000, .f32⟩
  | 22 => ⟨S_, .f32⟩
  | 23 => ⟨S100000, .f32⟩
  | 24 => ⟨S1300000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1300000, .i32⟩
  | 43 => ⟨S1300000, .i1⟩
  | 44 => ⟨S_, .i32⟩
  | 45 => ⟨S1300000, .i32⟩
  | 46 => ⟨S1300000, .i32⟩
  | 47 => ⟨S1300000, .i32⟩
  | 48 => ⟨S1300000x1, .i32⟩
  | 49 => ⟨S1300000, .f32⟩
  | 50 => ⟨S1300000, .f32⟩
  | 51 => ⟨S_, .i32⟩
  | 52 => ⟨S1300000, .i32⟩
  | 53 => ⟨S1300000, .i1⟩
  | 54 => ⟨S_, .i32⟩
  | 55 => ⟨S1300000, .i32⟩
  | 56 => ⟨S1300000, .i32⟩
  | 57 => ⟨S1300000, .i32⟩
  | 58 => ⟨S1300000x1, .i32⟩
  | 59 => ⟨S1300000, .f32⟩
  | 60 => ⟨S1300000, .f32⟩
  | 61 => ⟨S100000x64, .f32⟩
  | 62 => ⟨S1300000x1, .f32⟩
  | 63 => ⟨S_, .i32⟩
  | 64 => ⟨S1300000, .i32⟩
  | 65 => ⟨S1300000, .i1⟩
  | 66 => ⟨S_, .i32⟩
  | 67 => ⟨S1300000, .i32⟩
  | 68 => ⟨S1300000, .i32⟩
  | 69 => ⟨S1300000, .i32⟩
  | 70 => ⟨S1300000x1, .i32⟩
  | 71 => ⟨S1300000x64, .f32⟩
  | 72 => ⟨S1300000x64, .f32⟩
  | 73 => ⟨S1300000x64, .f32⟩
  | 74 => ⟨S_, .f32⟩
  | 75 => ⟨S100000x64, .f32⟩
  | 76 => ⟨S1300000x1, .i32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000, .i32⟩
  | 85 => ⟨S1x1200000, .i32⟩
  | 86 => ⟨S1200000, .i32⟩
  | 87 => ⟨S1300000, .i32⟩
  | 88 => ⟨S1x1200000, .i32⟩
  | 89 => ⟨S1200000, .i32⟩
  | 90 => ⟨S1300000, .i32⟩
  | 91 => ⟨S_, .f32⟩
  | 92 => ⟨S100000, .f32⟩
  | 93 => ⟨S1300000, .f32⟩
  | 94 => ⟨S_, .f32⟩
  | 95 => ⟨S100000, .f32⟩
  | 96 => ⟨S1300000x1, .i32⟩
  | 97 => ⟨S100000, .f32⟩
  | 98 => ⟨S_, .f32⟩
  | 99 => ⟨S100000, .f32⟩
  | 100 => ⟨S100000, .i1⟩
  | 101 => ⟨S_, .f32⟩
  | 102 => ⟨S_, .f32⟩
  | 103 => ⟨S100000, .f32⟩
  | 104 => ⟨S100000, .f32⟩
  | 105 => ⟨S_, .f32⟩
  | 106 => ⟨S100000, .f32⟩
  | 107 => ⟨S100000, .i1⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S1300000, .i32⟩
  | 115 => ⟨S1300000, .i1⟩
  | 116 => ⟨S_, .i32⟩
  | 117 => ⟨S1300000, .i32⟩
  | 118 => ⟨S1300000, .i32⟩
  | 119 => ⟨S1300000, .i32⟩
  | 120 => ⟨S1300000x1, .i32⟩
  | 121 => ⟨S1300000, .f32⟩
  | 122 => ⟨S1300000, .f32⟩
  | 123 => ⟨S_, .i32⟩
  | 124 => ⟨S1300000, .i32⟩
  | 125 => ⟨S1300000, .i1⟩
  | 126 => ⟨S_, .i32⟩
  | 127 => ⟨S1300000, .i32⟩
  | _ => ⟨S100000x22, .f32⟩

abbrev hbmTy0_1 (i : Nat) : BufTy := match i % 128 with
  | 0 => ⟨S1300000, .i32⟩
  | 1 => ⟨S1300000, .i32⟩
  | 2 => ⟨S1300000x1, .i32⟩
  | 3 => ⟨S1300000, .f32⟩
  | 4 => ⟨S1300000, .f32⟩
  | 5 => ⟨S100000x64, .f32⟩
  | 6 => ⟨S1300000x1, .f32⟩
  | 7 => ⟨S_, .i32⟩
  | 8 => ⟨S1300000, .i32⟩
  | 9 => ⟨S1300000, .i1⟩
  | 10 => ⟨S_, .i32⟩
  | 11 => ⟨S1300000, .i32⟩
  | 12 => ⟨S1300000, .i32⟩
  | 13 => ⟨S1300000, .i32⟩
  | 14 => ⟨S1300000x1, .i32⟩
  | 15 => ⟨S1300000x64, .f32⟩
  | 16 => ⟨S1300000x64, .f32⟩
  | 17 => ⟨S1300000x64, .f32⟩
  | 18 => ⟨S_, .f32⟩
  | 19 => ⟨S100000x64, .f32⟩
  | 20 => ⟨S1300000x1, .i32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S_, .f32⟩
  | 29 => ⟨S256x64, .f32⟩
  | 30 => ⟨S100000x1, .i32⟩
  | 31 => ⟨S256x64, .f32⟩
  | 32 => ⟨S_, .f32⟩
  | 33 => ⟨S100000, .f32⟩
  | 34 => ⟨S_, .f32⟩
  | 35 => ⟨S256, .f32⟩
  | 36 => ⟨S100000x1, .i32⟩
  | 37 => ⟨S256, .f32⟩
  | 38 => ⟨S_, .f32⟩
  | 39 => ⟨S256, .f32⟩
  | 40 => ⟨S256, .f32⟩
  | 41 => ⟨S256x1, .f32⟩
  | 42 => ⟨S256x64, .f32⟩
  | 43 => ⟨S256x64, .f32⟩
  | 44 => ⟨S256x64, .f32⟩
  | 45 => ⟨S1x64, .f32⟩
  | 46 => ⟨S256x64, .f32⟩
  | 47 => ⟨S256x64, .f32⟩
  | 48 => ⟨S_, .f32⟩
  | 49 => ⟨S256x64, .f32⟩
  | 50 => ⟨S256x64, .f32⟩
  | 51 => ⟨S256x3, .f32⟩
  | 52 => ⟨S1x3, .f32⟩
  | 53 => ⟨S256x3, .f32⟩
  | 54 => ⟨S256x3, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_call3_v0 : Ref sig .tc := ⟨.hbm, 102, rfl⟩
abbrev main_call3_v1 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_16 : Ref sig .tc := ⟨.hbm, 109, rfl⟩
abbrev main_call4_v0 : Ref sig .tc := ⟨.hbm, 110, rfl⟩
abbrev main_call4_v1 : Ref sig .tc := ⟨.hbm, 111, rfl⟩
abbrev main_v71 : Ref sig .tc := ⟨.hbm, 112, rfl⟩
abbrev main_c_17 : Ref sig .tc := ⟨.hbm, 113, rfl⟩
abbrev main_v72 : Ref sig .tc := ⟨.hbm, 114, rfl⟩
abbrev main_v73 : Ref sig .tc := ⟨.hbm, 115, rfl⟩
abbrev main_c_18 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_21 : Ref sig .tc := ⟨.hbm, 135, rfl⟩
abbrev main_v90 : Ref sig .tc := ⟨.hbm, 136, rfl⟩
abbrev main_v91 : Ref sig .tc := ⟨.hbm, 137, rfl⟩
abbrev main_c_22 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_call5_cst : Ref sig .tc := ⟨.hbm, 153, rfl⟩
abbrev main_call5_v0 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_cst_26 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_call6_cst : Ref sig .tc := ⟨.hbm, 176, rfl⟩
abbrev main_call6_v0 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S3_S1x3_1 : S3.BroadcastsInDim S1x3 (![1] : Fin 1 → Fin S1x3.rank)
  bcast_S1x3_S256x3_0_1 : S1x3.BroadcastsInDim S256x3 (![0, 1] : Fin 2 → Fin S256x3.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x22_S22x64_S100000x64_1_0_0_1_n_n_wf : DotDims.WF S100000x22 S22x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x3_S256x3_1_0_0_1_n_n_wf : DotDims.WF S256x64 S64x3 S256x3 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x22_S22x64_S100000x64_1_0_0_1_n_n : DotDims S100000x22 S22x64 S100000x64 where
  lhsContracting := [1]
  rhsContracting := [0]
  lhsNonContracting := [0]
  rhsNonContracting := [1]
  lhsBatch := []
  rhsBatch := []
  wf := dot_S100000x22_S22x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x3_S256x3_1_0_0_1_n_n : DotDims S256x64 S64x3 S256x3 where
  lhsContracting := [1]
  rhsContracting := [0]
  lhsNonContracting := [0]
  rhsNonContracting := [1]
  lhsBatch := []
  rhsBatch := []
  wf := dot_S256x64_S64x3_S256x3_1_0_0_1_n_n_wf

class Facts : Prop extends Facts₀ where

variable [Facts]
-- ==== Proof.K.Region0.lean ====
/-
  Region 0: one row tile of x times W1. At every grid point the body loads the tile's 10000 rows of x and the whole
  22 x 64 weight, multiplies them into a zero accumulator, and stores the 10000 x 64 product over the output tile.
  Stated at the contents V the region is entered with.
-/
import proofs.«409487_j3324304687518_2_alg».proof.Proof.Gen.Kernel.Launch
import proofs.«409487_j3324304687518_2_alg».proof.Proof.Gen.Kernel.Skeleton
import proofs.«409487_j3324304687518_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x22 := Rect.unit (s := S10000x22) ![0, 0] S10000x22.size inb_S10000x22_S10000x22_0_0
abbrev rw0 : Rect S22x64 := Rect.unit (s := S22x64) ![0, 0] S22x64.size inb_S22x64_S22x64_0_0
abbrev ro0 : Rect S10000x64 := Rect.unit (s := S10000x64) ![0, 0] S10000x64.size inb_S10000x64_S10000x64_0_0

/-- The output tile after the body: the product of the loaded tile and the loaded weight, stored over the whole tile. -/
def out0_2 (x0 : Vec F S10000x22 .f32) (x1 : Vec F S22x64 .f32) : Vec F S10000x64 .f32 :=
  View.canon [⟨ro0, k0_pay1 (View.ld x0 rx0) (View.ld x1 rw0)⟩]

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the two input buffers -/

/-- The row tile of x is copied in at every point, so the body always finds the tile of its own point. Stated for any
    proof data over these arrays whose body leaves that buffer as it found it. -/
theorem rowTile_found0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight W1 is copied in at the first point only. Its block index never moves and the body never writes that
    buffer, so at every later point the buffer still holds the whole 22 x 64 weight. -/
theorem weight_found0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store fills the output tile -/

/-- The product is stored through the rectangle of all 10000 x 64 entries, so every entry of the tile is written. -/
theorem product_fills0 (p : Vec F S10000x64 .f32) (y : S10000x64.Idx) :
    ∃ pc ∈ ([⟨ro0, p⟩] : List (View.Piece (Elt F) S10000x64 .f32)), y ∈ pc.1.set :=
  View.cover_of_tiled [⟨ro0, p⟩] S10000x64.size (by rfl) y

/-! ## The kernel on three whole buffers -/

set_option maxHeartbeats 1000000 in
/-- With the first buffer at a tile x, the second at a weight w and the third at anything, the kernel returns with x and w
    untouched and the third buffer at the product of x and w (both rounded to bf16, accumulated in f32 from zero). The
    kernel also reads the third buffer before it stores; what it reads there is never used. -/
theorem transform_runs0 (c : Dev nD) (E : Set ℕ) (i : grid0.Coords)
    (mx : Memref sig .tc .vmem S10000x22 .f32) (hmx : mx.IsWhole) (mw : Memref sig .tc .vmem S22x64 .f32) (hmw : mw.IsWhole)
    (mo : Memref sig .tc .vmem S10000x64 .f32) (hmo : mo.IsWhole)
    (x : Vec F S10000x22 .f32) (w : Vec F S22x64 .f32) (K : PUnit → sProp 𝕄) :
    iprop(owns (c : Thread nD τ) mx fullShare x ∗ owns (c : Thread nD τ) mw fullShare w ∗ (∃ d, owns (c : Thread nD τ) mo fullShare d)
        ∗ (iprop(owns (c : Thread nD τ) mx fullShare x ∗ owns (c : Thread nD τ) mw fullShare w
            ∗ owns (c : Thread nD τ) mo fullShare (out0_2 x w)) -∗ K ⟨⟩))
      ⊢ wp frame (wpE (defs₀ (F := F)) Variants.none c none) E (cc0__transform_kernel i mx hmx mw hmw mo hmo) K := by
  simp only [cc0__transform_kernel_eq_skeleton]; unfold cc0__transform_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (product_fills0 _)

/-! ## One grid point -/

theorem before0_0 (c : Dev nD) (t : Fin cfg0.N) (d) : (dat0 V c).before 0 t d = iblk0 V c 0 t :=
  rowTile_found0 V (dat0 V c) (A_eq0 V c 0) (after0_0 V c) t d
theorem before0_1 (c : Dev nD) (t : Fin cfg0.N) (d) : (dat0 V c).before 1 t d = iblk0 V c 1 t :=
  weight_found0 V (dat0 V c) (A_eq0 V c 1) (after0_1 V c) t d

/-- What the pipeline hands the body at point t: the invariant, the core's debts, and the three current buffers. -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back: the same, each buffer at what the proof data says the body leaves. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold the point's tile of x and the weight, so the kernel's triple applies; the
    invariant and the debts are carried past it unread, and what the output buffer held before does not matter. -/
theorem point_runs0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Hd, ⟨%d0, Hx⟩, ⟨%d1, Hw⟩, ⟨%d2, Ho⟩⟩
  iapply (transform_runs0 c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

/-- The body obligation of region 0 at every point. -/
theorem body_obligation0 (c : Dev nD) : BodyObligation (dat0 (F := F) V c) (defs₀ (F := F)) Variants.none () Set.univ := fun t => by
  rw [bigSep_W0, bigSep_W0]
  exact point_runs0 V c t

end Cert.Kernel.Hand

end
-- ==== Proof.K.Region1.lean ====
/-
  The second layer's linear map, one tile of rows at a time. The hidden activations h (the first layer's output after
  the host's aggregation) are cut into ten tiles of 10000 rows and 64 columns. At each of the ten grid points the body
  reads its tile of h and the full 64 x 64 matrix W2, rounds both to bf16, forms the matrix product with an f32
  accumulator that starts at zero, and writes the 10000 x 64 result over the same-numbered tile of the output array.
  Nothing is kept from one point to the next. Every statement below is made at V, whatever the TensorCore's buffers hold
  when this region begins.
-/
import proofs.«409487_j3324304687518_2_alg».proof.Proof.Gen.Kernel.Launch
import proofs.«409487_j3324304687518_2_alg».proof.Proof.Gen.Kernel.Skeleton
import proofs.«409487_j3324304687518_2_alg».proof.Proof.Gen.Kernel.Points
import Idealize.ShloMosaic.Lib.Pipeline.FrameBody
import Idealize.ShloMosaic.Lib.Ring
import Idealize.ShloMosaic.Lib.Tactic

-- deciding membership in a rectangle with a 10000-long axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the second transform starts
variable (V : (c : Dev nD) → (b : Ref sig .tc) → Buf (Elt F) ((c : Thread nD τ).loc b))

/-! ## The blocks and the result -/

/-- The part of window w's array that belongs to grid point t, as the array stands in V: for window 0 the t-th tile of
    10000 rows of h, for window 1 all of W2 at every t, for window 2 the t-th tile of the output array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- All 10000 x 64 entries of the activation buffer: what the body's first load reads. -/
abbrev rx1 : Rect S10000x64 := Rect.unit (s := S10000x64) ![0, 0] S10000x64.size inb_S10000x64_S10000x64_0_0
/-- All 64 x 64 entries of the weight buffer: what the second load reads. -/
abbrev rw1 : Rect S64x64 := Rect.unit (s := S64x64) ![0, 0] S64x64.size inb_S64x64_S64x64_0_0
/-- All 10000 x 64 entries of the output buffer: where the single store writes. -/
abbrev ro1 : Rect S10000x64 := Rect.unit (s := S10000x64) ![0, 0] S10000x64.size inb_S10000x64_S10000x64_0_0

/-- The output buffer once the body has run on a tile x0 of h and a weight x1: its one store, laid over the buffer, puts
    at row r and column j the bf16-rounded row r of x0 against the bf16-rounded column j of x1, summed in f32 from zero.
    Entry (r, j) depends on row r of the tile and column j of the weight only. -/
def out1_2 (x0 : Vec F S10000x64 .f32) (x1 : Vec F S64x64 .f32) : Vec F S10000x64 .f32 :=
  View.canon [⟨ro1, k1_pay1 (View.ld x0 rx1) (View.ld x1 rw1)⟩]

/-- What the second transform's pipeline is proved against on core c. Its three arrays are h, W2 and the output as V has
    them. After the body at point t the two input buffers are as the body found them (the tile of h, the weight) and the
    output buffer is the product of those two. The invariant is the standard one of a body that touches only its windows;
    every buffer is held in full and the core owes no signals. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are V's. -/
theorem A_eq1 (c : Dev nD) (w : Fin cfg1.W) : (dat1 V c).A w = V c (Pipeline.arrRef spec1 w) := by
  dsimp only [dat1]
/-- The activation buffer after the body: still the tile of h. -/
theorem after1_0 (c : Dev nD) (t : Fin cfg1.N) : (dat1 V c).after 0 t = iblk1 V c 0 t := by dsimp only [dat1]
/-- The weight buffer after the body: still W2. -/
theorem after1_1 (c : Dev nD) (t : Fin cfg1.N) : (dat1 V c).after 1 t = iblk1 V c 1 t := by dsimp only [dat1]
/-- The output buffer after the body: the product of the tile of h and W2. -/
theorem after1_2 (c : Dev nD) (t : Fin cfg1.N) : (dat1 V c).after 2 t = out1_2 (iblk1 V c 0 t) (iblk1 V c 1 t) := by dsimp only [dat1]

/-! ## What the body finds in the two input buffers -/

/-- The row tile of the hidden activations is copied in at every point, so the body always finds the tile of its own
    point. Stated for any proof data over these arrays whose body leaves that buffer as it found it. -/
theorem rowTile_found1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight W2 is copied in at the first point only. Its block index never moves and the body never writes that
    buffer, so at every later point the buffer still holds the whole 64 x 64 weight. -/
theorem weight_found1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The one store fills the output tile -/

/-- The product is stored through the rectangle of all 10000 x 64 entries, so every entry of the tile is written. -/
theorem product_fills1 (p : Vec F S10000x64 .f32) (y : S10000x64.Idx) :
    ∃ pc ∈ ([⟨ro1, p⟩] : List (View.Piece (Elt F) S10000x64 .f32)), y ∈ pc.1.set :=
  View.cover_of_tiled [⟨ro1, p⟩] S10000x64.size (by rfl) y

/-! ## The kernel on three whole buffers -/

set_option maxHeartbeats 1000000 in
/-- With the first buffer at a tile h of activations, the second at a weight w and the third at anything, the kernel
    returns with h and w untouched and the third buffer at the product of h and w (both rounded to bf16, accumulated in
    f32 from zero). The kernel also reads the third buffer before it stores; what it reads there is never used. -/
theorem transform_runs1 (c : Dev nD) (E : Set ℕ) (i : grid1.Coords)
    (mh : Memref sig .tc .vmem S10000x64 .f32) (hmh : mh.IsWhole) (mw : Memref sig .tc .vmem S64x64 .f32) (hmw : mw.IsWhole)
    (mo : Memref sig .tc .vmem S10000x64 .f32) (hmo : mo.IsWhole)
    (h : Vec F S10000x64 .f32) (w : Vec F S64x64 .f32) (K : PUnit → sProp 𝕄) :
    iprop(owns (c : Thread nD τ) mh fullShare h ∗ owns (c : Thread nD τ) mw fullShare w ∗ (∃ d, owns (c : Thread nD τ) mo fullShare d)
        ∗ (iprop(owns (c : Thread nD τ) mh fullShare h ∗ owns (c : Thread nD τ) mw fullShare w
            ∗ owns (c : Thread nD τ) mo fullShare (out1_2 h w)) -∗ K ⟨⟩))
      ⊢ wp frame (wpE (defs₀ (F := F)) Variants.none c none) E (cc1__transform_kernel i mh hmh mw hmw mo hmo) K := by
  simp only [cc1__transform_kernel_eq_skeleton]; unfold cc1__transform_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr; · ipureintro; rfl
    iexact Hh
  isplitl [Hw]
  · iexists fw; isplitr; · ipureintro; rfl
    iexact Hw
  iexists _; isplitr
  swap; · iexact Ho
  ipureintro
  exact View.read_writes_eq_canon _ _ _ (product_fills1 _)

/-! ## One grid point -/

theorem before1_0 (c : Dev nD) (t : Fin cfg1.N) (d) : (dat1 V c).before 0 t d = iblk1 V c 0 t :=
  rowTile_found1 V (dat1 V c) (A_eq1 V c 0) (after1_0 V c) t d
theorem before1_1 (c : Dev nD) (t : Fin cfg1.N) (d) : (dat1 V c).before 1 t d = iblk1 V c 1 t :=
  weight_found1 V (dat1 V c) (A_eq1 V c 1) (after1_1 V c) t d

/-- What the pipeline hands the body at point t: the invariant, the core's debts, and the three current buffers. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same, each buffer at what the proof data says the body leaves. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold the point's tile of activations and the weight, so the kernel's triple
    applies; the invariant and the debts are carried past it unread, and what the output buffer held before does not
    matter. -/
theorem point_runs1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Hd, ⟨%d0, Hh⟩, ⟨%d1, Hw⟩, ⟨%d2, Ho⟩⟩
  iapply (transform_runs1 c Set.univ _ _ _ _ _ _ _ (iblk1 V c 0 t) (iblk1 V c 1 t) _)
  isplitl [Hh]; · iexact Hh
  isplitl [Hw]; · iexact Hw
  isplitl [Ho]; · iexists _; iexact Ho
  iintro ⟨Hh, Hw, Ho⟩
  isplitl [HΦ]; · iexact HΦ
  isplitl [Hd]; · iexact Hd
  isplitl [Hh]; · iexact Hh
  isplitl [Hw]; · iexact Hw
  iexact Ho

/-- The body obligation of region 1 at every point. -/
theorem body_obligation1 (c : Dev nD) : BodyObligation (dat1 (F := F) V c) (defs₀ (F := F)) Variants.none () Set.univ := fun t => by
  rw [bigSep_W1, bigSep_W1]
  exact point_runs1 V c t

end Cert.Kernel.Hand

end
-- ==== Proof.K.Region2.lean ====
/-
  Region 2: the pool and the head. A 256 x 64 scratch is carried across the ten grid points. Point 0 first zeroes it;
  every point then adds to it the product of the transposed one-hot matrix of the point's batch tile (10000 x 256, entry
  (n, g) one where the node's graph id is g) with the point's tile of h (10000 x 64); point 9 finally divides the scratch
  row by row by the counts, applies the two dense layers of the head, and stores the 256 x 3 result over the output block.
  Stated at the contents V the region is entered with.
-/
import proofs.«409487_j3324304687518_2_alg».proof.Proof.Gen.Kernel.Launch
import proofs.«409487_j3324304687518_2_alg».proof.Proof.Gen.Kernel.Skeleton
import proofs.«409487_j3324304687518_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rh2 : Rect S10000x64 := Rect.unit (s := S10000x64) ![0, 0] S10000x64.size inb_S10000x64_S10000x64_0_0
abbrev rb2 : Rect S10000x1 := Rect.unit (s := S10000x1) ![0, 0] S10000x1.size inb_S10000x1_S10000x1_0_0
abbrev rc2 : Rect S256x1 := Rect.unit (s := S256x1) ![0, 0] S256x1.size inb_S256x1_S256x1_0_0
abbrev rf1 : Rect S64x64 := Rect.unit (s := S64x64) ![0, 0] S64x64.size inb_S64x64_S64x64_0_0
abbrev rg1 : Rect S1x64 := Rect.unit (s := S1x64) ![0, 0] S1x64.size inb_S1x64_S1x64_0_0
abbrev rf2 : Rect S64x3 := Rect.unit (s := S64x3) ![0, 0] S64x3.size inb_S64x3_S64x3_0_0
abbrev rg2 : Rect S1x3 := Rect.unit (s := S1x3) ![0, 0] S1x3.size inb_S1x3_S1x3_0_0
abbrev ro2 : Rect S256x3 := Rect.unit (s := S256x3) ![0, 0] S256x3.size inb_S256x3_S256x3_0_0
abbrev rs2 : Rect S256x64 := Rect.unit (s := S256x64) ![0, 0] S256x64.size inb_S256x64_S256x64_0_0

/-- The scratch right after the reset of point 0: all zeros. -/
def reset2 : Vec F S256x64 .f32 := View.canon [⟨rs2, k2_pay1⟩]

/-- One accumulation: the scratch after a point's update, from the point's tile of h, its batch tile and the scratch before. -/
def step2 (h : Vec F S10000x64 .f32) (b : Vec F S10000x1 .i32) (s : Vec F S256x64 .f32) : Vec F S256x64 .f32 :=
  View.canon [⟨rs2, k2_pay2 (View.ld h rh2) (View.ld b rb2) (View.ld s rs2)⟩]

/-- The head: the output block from the final scratch, the counts and the head's weights and biases. -/
def head2 (s : Vec F S256x64 .f32) (cnt : Vec F S256x1 .f32) (w1 : Vec F S64x64 .f32) (b1 : Vec F S1x64 .f32)
    (w2 : Vec F S64x3 .f32) (b2 : Vec F S1x3 .f32) : Vec F S256x3 .f32 :=
  View.canon [⟨ro2, k2_pay3 (View.ld s rs2) (View.ld cnt rc2) (View.ld w1 rf1) (View.ld b1 rg1) (View.ld w2 rf2) (View.ld b2 rg2)⟩]

/-- The scratch after point n: point 0 accumulates onto the reset scratch, a later point onto what the point before left. -/
def accAt2 (c : Dev nD) : (n : ℕ) → n < cfg2.N → Vec F S256x64 .f32
  | 0, h => step2 (iblk2 V c 0 ⟨0, h⟩) (iblk2 V c 1 ⟨0, h⟩) reset2
  | n + 1, h => step2 (iblk2 V c 0 ⟨n + 1, h⟩) (iblk2 V c 1 ⟨n + 1, h⟩) (accAt2 c n (Nat.lt_of_succ_lt h))

theorem accAt2_zero (c : Dev nD) (h : 0 < cfg2.N) :
    accAt2 V c 0 h = step2 (iblk2 V c 0 ⟨0, h⟩) (iblk2 V c 1 ⟨0, h⟩) reset2 := rfl
theorem accAt2_succ (c : Dev nD) (n : ℕ) (h : n + 1 < cfg2.N) :
    accAt2 V c (n + 1) h = step2 (iblk2 V c 0 ⟨n + 1, h⟩) (iblk2 V c 1 ⟨n + 1, h⟩) (accAt2 V c n (Nat.lt_of_succ_lt h)) := rfl

/-- What the head would give from the scratch after point t (stored at the last point only; elsewhere the output block
    is neither stored nor written back, and this value is not consulted). -/
def fin2 (c : Dev nD) (t : Fin cfg2.N) : Vec F S256x3 .f32 :=
  head2 (accAt2 V c t.val t.isLt) (iblk2 V c 2 t) (iblk2 V c 3 t) (iblk2 V c 4 t) (iblk2 V c 5 t) (iblk2 V c 6 t)

/-- The region's invariant before position n: before the first point every scoped buffer at anything; afterwards the carried
    scratch at what the point before left, the other scoped buffers at anything; the generator register at some state. -/
def PhiS2 (c : Dev nD) : (n : ℕ) → n ≤ cfg2.N → sProp 𝕄
  | 0, _ => Pipeline.ΦA spec2 c
  | n + 1, hn => iprop(owns (c : Thread nD τ) (Memref.whole cc2_scratch0) fullShare (accAt2 V c n hn)
      ∗ Pipeline.scopedRestBut (Ix := Unit) (Name := ℕ) (U := UR sig nD τ) (Lvl := ℕ) (Val := Elt F) spec2 c [cc2_scratch0]
      ∗ ∃ r, prngReg c r)

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => fin2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = fin2 V c t := by dsimp only [dat2]

/-! ## The zero offset, and the three stores as plain values -/

/-- Every rectangle the body names starts at row 0, column 0. -/
theorem off00 : (![0, 0] : Fin 2 → ℕ) = fun _ => 0 := funext fun a => by fin_cases a <;> rfl

/-- The reset stores through the rectangle of all 256 x 64 entries, so what it leaves is its payload: zeros. -/
theorem reset2_eq : reset2 (F := F) = k2_pay1 := by
  unfold reset2; rw [View.canon_unit_zero off00]

/-- The accumulating store also goes through the full rectangle and its three loads read full rectangles, so what it
    leaves is the payload of the whole tile of h, the whole batch tile and the whole scratch before. -/
theorem step2_eq (h : Vec F S10000x64 .f32) (b : Vec F S10000x1 .i32) (s : Vec F S256x64 .f32) :
    step2 h b s = k2_pay2 h b s := by
  unfold step2
  rw [View.canon_unit_zero off00, View.ld_unit_zero (S := S10000x64) off00, View.ld_unit_zero (S := S10000x1) off00,
    View.ld_unit_zero (S := S256x64) off00]

/-- The head's store covers the 256 x 3 output block, and its six loads read whole buffers. -/
theorem head2_eq (s : Vec F S256x64 .f32) (cnt : Vec F S256x1 .f32) (w1 : Vec F S64x64 .f32) (b1 : Vec F S1x64 .f32)
    (w2 : Vec F S64x3 .f32) (b2 : Vec F S1x3 .f32) : head2 s cnt w1 b1 w2 b2 = k2_pay3 s cnt w1 b1 w2 b2 := by
  unfold head2
  rw [View.canon_unit_zero off00, View.ld_unit_zero (S := S256x64) off00, View.ld_unit_zero (S := S256x1) off00,
    View.ld_unit_zero (S := S64x64) off00, View.ld_unit_zero (S := S1x64) off00, View.ld_unit_zero (S := S64x3) off00,
    View.ld_unit_zero (S := S1x3) off00]

/-- A store through the full 256 x 64 rectangle, made last, writes every entry of the scratch whatever was stored before. -/
theorem scratch_filled2 (p : Vec F S256x64 .f32) (L : List (View.Piece (Elt F) S256x64 .f32)) (y : S256x64.Idx) :
    ∃ pc ∈ ((⟨rs2, p⟩ : View.Piece (Elt F) S256x64 .f32) :: L), y ∈ pc.1.set :=
  ⟨_, List.mem_cons.mpr (Or.inl rfl), View.mem_set_unit_zero off00 inb_S256x64_S256x64_0_0 y⟩

/-- The head's one store writes every entry of the 256 x 3 output block. -/
theorem block_filled2 (p : Vec F S256x3 .f32) (y : S256x3.Idx) :
    ∃ pc ∈ ([⟨ro2, p⟩] : List (View.Piece (Elt F) S256x3 .f32)), y ∈ pc.1.set :=
  ⟨_, List.mem_cons.mpr (Or.inl rfl), View.mem_set_unit_zero off00 inb_S256x3_S256x3_0_0 y⟩

/-! ## The two conditions of the body -/

/-- "This is the first point": the body's first conditional, as it computes it from the grid coordinate. -/
abbrev cond2_0 (i : grid2.Coords) : Prop := (Scalar.cmpi .ne (Scalar.extui (Scalar.cmpi .eq (BitVec.ofNat 32 (i 0).val) 0#32)) 0#32) = 1#1
/-- "This is the last point": the body's second conditional. -/
abbrev cond2_9 (i : grid2.Coords) : Prop := k2_cond2 i = 1#1

/-- Over the ten points the first condition holds at point 0 only, -/
theorem hcond2_0 : ∀ t : Fin cfg2.N, cond2_0 (grid2.coords t) ↔ t.val = 0 :=
  (by decide +kernel : ∀ t : Fin grid2.N, cond2_0 (grid2.coords t) ↔ t.val = 0)
/-- and the second at point 9 only. -/
theorem hcond2_9 : ∀ t : Fin cfg2.N, cond2_9 (grid2.coords t) ↔ t.val = 9 :=
  (by decide +kernel : ∀ t : Fin grid2.N, cond2_9 (grid2.coords t) ↔ t.val = 9)

/-! ## The kernel on whole buffers, one statement per control case -/

set_option maxHeartbeats 1000000 in
/-- A middle point (neither first nor last). With the h tile at xh, the batch tile at xb and the scratch at xs, the
    kernel returns with the two tiles untouched and the scratch at one accumulation of xs. The other six buffers are
    never named on this path, so they are not mentioned. -/
theorem run2_mid (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : ¬cond2_0 i) (hc9 : ¬cond2_9 i)
    (xh : Vec F S10000x64 .f32) (xb : Vec F S10000x1 .i32) (xs : Vec F S256x64 .f32) (K : PUnit → sProp 𝕄) :
    iprop(owns (c : Thread nD τ) arg1 fullShare xh ∗ owns (c : Thread nD τ) arg2 fullShare xb ∗ owns (c : Thread nD τ) arg9 fullShare xs
        ∗ (iprop(owns (c : Thread nD τ) arg1 fullShare xh ∗ owns (c : Thread nD τ) arg2 fullShare xb ∗ owns (c : Thread nD τ) arg9 fullShare (step2 xh xb xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f9, %hf9, H9⟩, Hk⟩
  subst hf1; subst hf2; subst hf9
  sl_exec (disch := first | exact hc0 | exact hc9)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  rw [View.read_writes_eq_canon _ _ _ (scratch_filled2 _ _), View.canon_unit_zero off00, step2_eq]
  simp only [View.readAt_eq_ld, View.ld_unit_zero (S := S10000x64) off00, View.ld_unit_zero (S := S10000x1) off00, View.ld_unit_zero (S := S256x64) off00]

set_option maxHeartbeats 1000000 in
/-- The first point. Whatever the scratch held, the kernel first stores zeros over it, reads them back, and returns with
    the scratch at one accumulation of the reset scratch. -/
theorem run2_first (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : cond2_0 i) (hc9 : ¬cond2_9 i)
    (xh : Vec F S10000x64 .f32) (xb : Vec F S10000x1 .i32) (K : PUnit → sProp 𝕄) :
    iprop(owns (c : Thread nD τ) arg1 fullShare xh ∗ owns (c : Thread nD τ) arg2 fullShare xb ∗ (∃ d, owns (c : Thread nD τ) arg9 fullShare d)
        ∗ (iprop(owns (c : Thread nD τ) arg1 fullShare xh ∗ owns (c : Thread nD τ) arg2 fullShare xb ∗ owns (c : Thread nD τ) arg9 fullShare (step2 xh xb reset2)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%d9, %f9, -, H9⟩, Hk⟩
  subst hf1; subst hf2
  sl_exec (disch := first | exact hc0 | exact hc9)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_eq_canon _ _ _ (scratch_filled2 _ _), View.canon_cons_unit_zero (S := S256x64) off00,
    View.readCov_unit_zero (S := S256x64) _ off00, step2_eq, reset2_eq]
  simp only [View.readAt_eq_ld, View.ld_unit_zero (S := S10000x64) off00, View.ld_unit_zero (S := S10000x1) off00]

set_option maxHeartbeats 1000000 in
/-- The last point. After the accumulation the kernel reads the scratch back, reads the counts and the head's weights and
    biases, and stores the head's result over the output block, whatever that block held. -/
theorem run2_last (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : ¬cond2_0 i) (hc9 : cond2_9 i)
    (xh : Vec F S10000x64 .f32) (xb : Vec F S10000x1 .i32) (x2 : Vec F S256x1 .f32) (x3 : Vec F S64x64 .f32) (x4 : Vec F S1x64 .f32) (x5 : Vec F S64x3 .f32) (x6 : Vec F S1x3 .f32) (xs : Vec F S256x64 .f32) (K : PUnit → sProp 𝕄) :
    iprop(owns (c : Thread nD τ) arg1 fullShare xh ∗ owns (c : Thread nD τ) arg2 fullShare xb ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare xh ∗ owns (c : Thread nD τ) arg2 fullShare xb ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (head2 (step2 xh xb xs) x2 x3 x4 x5 x6) ∗ owns (c : Thread nD τ) arg9 fullShare (step2 xh xb xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1; subst hf2; subst hf3; subst hf4; subst hf5; subst hf6; subst hf7; subst hf9
  sl_exec (disch := first | exact hc0 | exact hc9)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (block_filled2 _), View.canon_unit_zero off00, head2_eq, step2_eq,
      View.readCov_unit_zero (S := S256x64) _ off00]
    simp only [View.readAt_eq_ld, View.ld_unit_zero (S := S10000x64) off00, View.ld_unit_zero (S := S10000x1) off00,
      View.ld_unit_zero (S := S256x64) off00, View.ld_unit_zero (S := S256x1) off00, View.ld_unit_zero (S := S64x64) off00,
      View.ld_unit_zero (S := S1x64) off00, View.ld_unit_zero (S := S64x3) off00, View.ld_unit_zero (S := S1x3) off00]
  iexists _; isplitr
  swap; · iexact H9
  ipureintro
  sl_unfold_run_names
  rw [View.read_writes_eq_canon _ _ _ (scratch_filled2 _ _), View.canon_unit_zero off00, step2_eq]
  simp only [View.readAt_eq_ld, View.ld_unit_zero (S := S10000x64) off00, View.ld_unit_zero (S := S10000x1) off00, View.ld_unit_zero (S := S256x64) off00]

/-! ## The carried scratch, point by point -/

/-- At the first point the scratch after the body is one accumulation of the reset scratch, -/
theorem accAt2_first (c : Dev nD) (t : Fin cfg2.N) (h : t.val = 0) :
    accAt2 V c t.val t.isLt = step2 (iblk2 V c 0 t) (iblk2 V c 1 t) reset2 := by
  obtain ⟨n, hn⟩ := t
  cases n with
  | zero => rfl
  | succ n => exact absurd h (Nat.succ_ne_zero n)

/-- and at a later point one accumulation of what the point before left. -/
theorem accAt2_later (c : Dev nD) (t : Fin cfg2.N) (h : t.val ≠ 0) :
    accAt2 V c t.val t.isLt
      = step2 (iblk2 V c 0 t) (iblk2 V c 1 t) (accAt2 V c (t.val - 1) (Nat.lt_of_le_of_lt (Nat.sub_le _ _) t.isLt)) := by
  obtain ⟨n, hn⟩ := t
  cases n with
  | zero => exact absurd rfl h
  | succ n => rfl

/-! ## The invariant, position by position -/

theorem PhiS2_zero (c : Dev nD) (n : ℕ) (h : n ≤ cfg2.N) (hz : n = 0) : PhiS2 V c n h = (Pipeline.ΦA spec2 c : sProp 𝕄) := by
  subst hz; rfl

/-- After point n the scratch is owned at that point's contents. -/
theorem PhiS2_succ (c : Dev nD) (n : ℕ) (hn : n < cfg2.N) :
    PhiS2 V c (n + 1) hn = iprop(owns (c : Thread nD τ) (Memref.whole cc2_scratch0) fullShare (accAt2 V c n hn)
      ∗ Pipeline.scopedRestBut (Ix := Unit) (Name := ℕ) (U := UR sig nD τ) (Lvl := ℕ) (Val := Elt F) spec2 c [cc2_scratch0]
      ∗ ∃ r, prngReg c r) := rfl

/-- Before any position but the first the scratch is owned at what the point before left. -/
theorem PhiS2_pos (c : Dev nD) (n : ℕ) (h : n ≤ cfg2.N) (hz : n ≠ 0) :
    PhiS2 V c n h = iprop(owns (c : Thread nD τ) (Memref.whole cc2_scratch0) fullShare (accAt2 V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- Of the eleven scoped buffers that no window of this call stages, the call's own scratch is set apart; the other ten
    (the staging buffers of the two transform calls) stay together, unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- So the class's invariant is: the scratch, whole, at some contents; the other ten scoped buffers; the generator register. -/
theorem PhiA2_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [owns_whole]; try rfl

/-! ## What the body finds in the seven input buffers -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- The tile of h and the batch tile are copied in at every point. The counts and the head's four parameter arrays are
    copied in at the first point only; their block index never moves and the body stores into none of these buffers, so at
    every later point they still hold the same whole arrays. Either way the body finds window w's block of its own point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-! ## Where the output block is idle -/

/-- The seven inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the output block is idle: the body stores nothing into it -/
theorem idleAt2_7 : ∀ t : Fin cfg2.N, ¬cond2_9 (grid2.coords t) → cfg2.idle 7 (grid2.coords t) = true := by decide +kernel
/-- and the pipeline does not write it back. -/
theorem noFlush2_7 : ∀ t : Fin cfg2.N, ¬cond2_9 (grid2.coords t) → (cfg2.win 7).flush t = false := by decide +kernel
/-- At the last point it is live. -/
theorem liveAt2_7 : ∀ t : Fin cfg2.N, cond2_9 (grid2.coords t) → cfg2.idle 7 (grid2.coords t) = false := by decide +kernel

/-- An input's buffer is handed back at the block it was found at. -/
theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) : (dat2 V c).leavesExact 4 t = owns (c : Thread nD τ) (st2_4 t) fullShare (iblk2 V c 4 t) := by
  unfold Dat.leavesExact; rw [liveAt2_4 t, after2_4]
theorem leaves2_5 (c : Dev nD) (t : Fin cfg2.N) : (dat2 V c).leavesExact 5 t = owns (c : Thread nD τ) (st2_5 t) fullShare (iblk2 V c 5 t) := by
  unfold Dat.leavesExact; rw [liveAt2_5 t, after2_5]
theorem leaves2_6 (c : Dev nD) (t : Fin cfg2.N) : (dat2 V c).leavesExact 6 t = owns (c : Thread nD τ) (st2_6 t) fullShare (iblk2 V c 6 t) := by
  unfold Dat.leavesExact; rw [liveAt2_6 t, after2_6]

/-! ## One grid point -/

/-- What the pipeline hands the body at point t: the invariant, the core's debts, and the eight current buffers. -/
def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body hands back: the invariant at the next position, the debts, and each buffer at what the proof data says
    the body leaves there (for the output block away from the last point: whatever it held). -/
def pointPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any of the ten points. The seven input buffers hold their blocks. Which of the three control cases the
    point is in is read off its number. The invariant hands the body the scratch: at anything before the first point, at
    what the point before left otherwise; it takes the scratch back at this point's accumulation. Away from the last
    point the output block is idle and passes through as found; at the last point it is handed over at anything and comes
    back at the head of the final scratch. The other ten scoped buffers, the generator register and the debts pass through. -/
theorem point_runs2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  have hN : t.val < 10 := lt_of_lt_of_eq t.isLt (show cfg2.N = 10 from N_2)
  by_cases h0 : t.val = 0
  · -- the first point: reset, then accumulate
    have hc0 : cond2_0 (grid2.coords t) := (hcond2_0 t).mpr h0
    have hc9 : ¬cond2_9 (grid2.coords t) := fun h => by have := (hcond2_9 t).mp h; omega
    rw [Dat.leavesExact_idle (dat2 V c) 7 t (idleAt2_7 t hc9) (noFlush2_7 t hc9)]
    rw [accAt2_first V c t h0]
    rw [PhiS2_castSucc V c t, PhiS2_zero V c _ _ h0, PhiA2_eq]
    iintro ⟨⟨⟨HS, HR⟩, Hg⟩, Hd, ⟨%d0, H0⟩, ⟨%d1, H1⟩, ⟨%d2, H2⟩, ⟨%d3, H3⟩, ⟨%d4, H4⟩, ⟨%d5, H5⟩, ⟨%d6, H6⟩, H7⟩
    iapply (run2_first c Set.univ (grid2.coords t) _ _ _ _ _ _ _ _ _ _ _ _ _ _ _ _ _ _ hc0 hc9 (iblk2 V c 0 t) (iblk2 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond2_0 (grid2.coords t) := fun h => h0 ((hcond2_0 t).mp h)
    by_cases h9 : t.val = 9
    · -- the last point: accumulate, then the head
      have hc9 : cond2_9 (grid2.coords t) := (hcond2_9 t).mpr h9
      rw [show (dat2 V c).leavesExact 7 t = owns (c : Thread nD τ) (st2_7 t) fullShare ((dat2 V c).after 7 t) from by
        unfold Dat.leavesExact; rw [liveAt2_7 t hc9], after2_7]
      unfold fin2
      rw [accAt2_later V c t h0]
      rw [PhiS2_castSucc V c t, PhiS2_pos V c _ _ h0]
      iintro ⟨⟨HS, HR, Hg⟩, Hd, ⟨%d0, H0⟩, ⟨%d1, H1⟩, ⟨%d2, H2⟩, ⟨%d3, H3⟩, ⟨%d4, H4⟩, ⟨%d5, H5⟩, ⟨%d6, H6⟩, ⟨%d7, H7⟩⟩
      iapply (run2_last c Set.univ (grid2.coords t) _ _ _ _ _ _ _ _ _ _ _ _ _ _ _ _ _ _ hc0 hc9 (iblk2 V c 0 t) (iblk2 V c 1 t) (iblk2 V c 2 t)
        (iblk2 V c 3 t) (iblk2 V c 4 t) (iblk2 V c 5 t) (iblk2 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: accumulate only
      have hc9 : ¬cond2_9 (grid2.coords t) := fun h => h9 ((hcond2_9 t).mp h)
      rw [Dat.leavesExact_idle (dat2 V c) 7 t (idleAt2_7 t hc9) (noFlush2_7 t hc9)]
      rw [accAt2_later V c t h0]
      rw [PhiS2_castSucc V c t, PhiS2_pos V c _ _ h0]
      iintro ⟨⟨HS, HR, Hg⟩, Hd, ⟨%d0, H0⟩, ⟨%d1, H1⟩, ⟨%d2, H2⟩, ⟨%d3, H3⟩, ⟨%d4, H4⟩, ⟨%d5, H5⟩, ⟨%d6, H6⟩, H7⟩
      iapply (run2_mid c Set.univ (grid2.coords t) _ _ _ _ _ _ _ _ _ _ _ _ _ _ _ _ _ _ hc0 hc9 (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation of region 2 at every point. -/
theorem body_obligation2 (c : Dev nD) : BodyObligation (dat2 (F := F) V c) (defs₀ (F := F)) Variants.none () Set.univ := fun t => by
  rw [bigSep_W2, bigSep_W2]
  exact point_runs2 V c t

/-- The class's invariant (every scoped buffer no window stages at anything, the generator register) opens the region's. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any position but the first the invariant gives the class's back: what the scratch holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]; · iexists _; iexact HS
    iexact HR
  iexact Hg

/-- After the last point the region's invariant gives the class's back. -/
theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.K.Run.lean ====
/-
  The whole run of @main: thirteen items, ten stretches of host operations around the three kernel regions. The contents
  of every buffer at each item boundary are named as a fold from the launch memory: a host stretch applies its operations,
  a region leaves its output array at what its write-backs fold to and every other buffer as it found it. Over that fold
  each region is a segment entered from the boundary before it and left at the one after, and the launch of the segments
  gives: every fair execution ends, nothing faults, and every buffer ends at the last boundary's contents. From that both
  the frame (the arguments are never written) and the result's value are read.
-/
import proofs.«409487_j3324304687518_2_alg».proof.Proof.Gen.Kernel.Regions
import proofs.«409487_j3324304687518_2_alg».proof.Proof.K.Region0
import proofs.«409487_j3324304687518_2_alg».proof.Proof.K.Region1
import proofs.«409487_j3324304687518_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Before region 0: the launch memory after the first five host stretches. -/
abbrev W5 (c : Dev nD) : Valuation τ sig (Elt F) := Gen.V5 m c
/-- The same read at the core's references: what region 0 is entered with. -/
abbrev E0 : (c : Dev nD) → (b : Ref sig .tc) → Buf (Elt F) ((c : Thread nD τ).loc b) := fun c b => W5 m c b
/-- After region 0: its arrays at what its write-backs leave, every other buffer as entered. -/
def W6 (c : Dev nD) : Valuation τ sig (Elt F) :=
  Pipeline.withArrays spec0 c (W5 m c) fun w => (dat0 (E0 m) c).arrAt w cfg0.N
abbrev W7 (c : Dev nD) : Valuation τ sig (Elt F) := StableHlo.after hostOps1 (W6 m c)
/-- Before region 1. -/
abbrev W8 (c : Dev nD) : Valuation τ sig (Elt F) := StableHlo.after hostOps1_1 (W7 m c)
abbrev E1 : (c : Dev nD) → (b : Ref sig .tc) → Buf (Elt F) ((c : Thread nD τ).loc b) := fun c b => W8 m c b
/-- After region 1. -/
def W9 (c : Dev nD) : Valuation τ sig (Elt F) :=
  Pipeline.withArrays spec1 c (W8 m c) fun w => (dat1 (E1 m) c).arrAt w cfg1.N
abbrev W10 (c : Dev nD) : Valuation τ sig (Elt F) := StableHlo.after hostOps2 (W9 m c)
abbrev W11 (c : Dev nD) : Valuation τ sig (Elt F) := StableHlo.after hostOps2_1 (W10 m c)
/-- Before region 2. -/
abbrev W12 (c : Dev nD) : Valuation τ sig (Elt F) := StableHlo.after hostOps2_2 (W11 m c)
abbrev E2 : (c : Dev nD) → (b : Ref sig .tc) → Buf (Elt F) ((c : Thread nD τ).loc b) := fun c b => W12 m c b
/-- After region 2: the end of @main. -/
def W13 (c : Dev nD) : Valuation τ sig (Elt F) :=
  Pipeline.withArrays spec2 c (W12 m c) fun w => (dat2 (E2 m) c).arrAt w cfg2.N

/-! ## Reading the fold

  A region's boundary changes exactly the region's arrays: each holds what the fold of its write-backs leaves, every
  other buffer is what it was at the boundary before. -/

theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W9_arr (c : Dev nD) (w : Fin cfg1.W) :
    W9 m c (Proc.devRef .tc (Pipeline.arrRef spec1 w)) = (dat1 (E1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
theorem W13_arr (c : Dev nD) (w : Fin cfg2.W) :
    W13 m c (Proc.devRef .tc (Pipeline.arrRef spec2 w)) = (dat2 (E2 m) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb

/-- An array a region only reads is, after the region, what it was before: an input window is never written back. -/
theorem W6_input (c : Dev nD) (w : Fin cfg0.W) (hin : (cfg0.win w).isOut = false) :
    W6 m c (Proc.devRef .tc (Pipeline.arrRef spec0 w)) = W5 m c (Proc.devRef .tc (Pipeline.arrRef spec0 w)) :=
  (W6_arr m c w).trans (((dat0 (E0 m) c).arrAt_in w hin _).trans (A_eq0 (E0 m) c w))
theorem W9_input (c : Dev nD) (w : Fin cfg1.W) (hin : (cfg1.win w).isOut = false) :
    W9 m c (Proc.devRef .tc (Pipeline.arrRef spec1 w)) = W8 m c (Proc.devRef .tc (Pipeline.arrRef spec1 w)) :=
  (W9_arr m c w).trans (((dat1 (E1 m) c).arrAt_in w hin _).trans (A_eq1 (E1 m) c w))
theorem W13_input (c : Dev nD) (w : Fin cfg2.W) (hin : (cfg2.win w).isOut = false) :
    W13 m c (Proc.devRef .tc (Pipeline.arrRef spec2 w)) = W12 m c (Proc.devRef .tc (Pipeline.arrRef spec2 w)) :=
  (W13_arr m c w).trans (((dat2 (E2 m) c).arrAt_in w hin _).trans (A_eq2 (E2 m) c w))

/-- The result buffer ends at what region 2's one write-back leaves in it. -/
theorem W13_result (c : Dev nD) : W13 m c (Proc.devRef .tc main_v81) = (dat2 (E2 m) c).arrAt 7 cfg2.N :=
  W13_arr m c 7

/-- A buffer none of the first five host stretches writes is, before region 0, as launched. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c (Proc.devRef .tc r) = m ((c : Thread nD τ).loc r) :=
  (V5_of m c r h4).trans <| (V4_of m c r h3).trans <| (V3_of m c r h2).trans <| (V2_of m c r h1).trans <| (V1_of m c r h0).trans rfl

/-- The walk back from the end to the launch for a buffer no host stretch writes and no region changes (the three
    region steps are given: the buffer is either none of the region's arrays or one it only reads). -/
theorem W13_launch (c : Dev nD) (r : Ref sig .tc)
    (hR2 : W13 m c (Proc.devRef .tc r) = W12 m c (Proc.devRef .tc r))
    (hR1 : W9 m c (Proc.devRef .tc r) = W8 m c (Proc.devRef .tc r))
    (hR0 : W6 m c (Proc.devRef .tc r) = W5 m c (Proc.devRef .tc r))
    (h0 : r ∉ hostOps0_W) (h1 : r ∉ hostOps0_1_W) (h2 : r ∉ hostOps0_2_W) (h3 : r ∉ hostOps0_3_W) (h4 : r ∉ hostOps0_4_W)
    (h6 : r ∉ hostOps1_W) (h7 : r ∉ hostOps1_1_W) (h9 : r ∉ hostOps2_W) (h10 : r ∉ hostOps2_1_W) (h11 : r ∉ hostOps2_2_W) :
    W13 m c (Proc.devRef .tc r) = m ((c : Thread nD τ).loc r) :=
  calc W13 m c (Proc.devRef .tc r)
    _ = W12 m c (Proc.devRef .tc r) := hR2
    _ = W11 m c (Proc.devRef .tc r) := StableHlo.after_of_writes_sub hostOps2_2 _ hostOps2_2_writes h11
    _ = W10 m c (Proc.devRef .tc r) := StableHlo.after_of_writes_sub hostOps2_1 _ hostOps2_1_writes h10
    _ = W9 m c (Proc.devRef .tc r) := StableHlo.after_of_writes_sub hostOps2 _ hostOps2_writes h9
    _ = W8 m c (Proc.devRef .tc r) := hR1
    _ = W7 m c (Proc.devRef .tc r) := StableHlo.after_of_writes_sub hostOps1_1 _ hostOps1_1_writes h7
    _ = W6 m c (Proc.devRef .tc r) := StableHlo.after_of_writes_sub hostOps1 _ hostOps1_writes h6
    _ = W5 m c (Proc.devRef .tc r) := hR0
    _ = m ((c : Thread nD τ).loc r) := W5_launch m c r h0 h1 h2 h3 h4

/-- No host operation and no region writes an argument: each ends as launched. x and W1 are region 0's two inputs,
    W2 region 1's weight, the head's two weight matrices inputs of region 2; the other arguments are no region's array. -/
theorem W13_main_arg0 (c : Dev nD) : W13 m c (Proc.devRef .tc main_arg0) = m ((c : Thread nD τ).loc main_arg0) :=
  W13_launch m c main_arg0 (W13_of_ne m c _ (by decide)) (W9_of_ne m c _ (by decide)) (W6_input m c 0 rfl)
    (by decide) (by decide) (by decide) (by decide) (by decide) (by decide) (by decide) (by decide) (by decide) (by decide)
theorem W13_main_arg1 (c : Dev nD) : W13 m c (Proc.devRef .tc main_arg1) = m ((c : Thread nD τ).loc main_arg1) :=
  W13_launch m c main_arg1 (W13_of_ne m c _ (by decide)) (W9_of_ne m c _ (by decide)) (W6_of_ne m c _ (by decide))
    (by decide) (by decide) (by decide) (by decide) (by decide) (by decide) (by decide) (by decide) (by decide) (by decide)
theorem W13_main_arg2 (c : Dev nD) : W13 m c (Proc.devRef .tc main_arg2) = m ((c : Thread nD τ).loc main_arg2) :=
  W13_launch m c main_arg2 (W13_of_ne m c _ (by decide)) (W9_of_ne m c _ (by decide)) (W6_of_ne m c _ (by decide))
    (by decide) (by decide) (by decide) (by decide) (by decide) (by decide) (by decide) (by decide) (by decide) (by decide)
theorem W13_main_arg3 (c : Dev nD) : W13 m c (Proc.devRef .tc main_arg3) = m ((c : Thread nD τ).loc main_arg3) :=
  W13_launch m c main_arg3 (W13_of_ne m c _ (by decide)) (W9_of_ne m c _ (by decide)) (W6_of_ne m c _ (by decide))
    (by decide) (by decide) (by decide) (by decide) (by decide) (by decide) (by decide) (by decide) (by decide) (by decide)
theorem W13_main_arg4 (c : Dev nD) : W13 m c (Proc.devRef .tc main_arg4) = m ((c : Thread nD τ).loc main_arg4) :=
  W13_launch m c main_arg4 (W13_of_ne m c _ (by decide)) (W9_of_ne m c _ (by decide)) (W6_input m c 1 rfl)
    (by decide) (by decide) (by decide) (by decide) (by decide) (by decide) (by decide) (by decide) (by decide) (by decide)
theorem W13_main_arg5 (c : Dev nD) : W13 m c (Proc.devRef .tc main_arg5) = m ((c : Thread nD τ).loc main_arg5) :=
  W13_launch m c main_arg5 (W13_of_ne m c _ (by decide)) (W9_of_ne m c _ (by decide)) (W6_of_ne m c _ (by decide))
    (by decide) (by decide) (by decide) (by decide) (by decide) (by decide) (by decide) (by decide) (by decide) (by decide)
theorem W13_main_arg6 (c : Dev nD) : W13 m c (Proc.devRef .tc main_arg6) = m ((c : Thread nD τ).loc main_arg6) :=
  W13_launch m c main_arg6 (W13_of_ne m c _ (by decide)) (W9_input m c 1 rfl) (W6_of_ne m c _ (by decide))
    (by decide) (by decide) (by decide) (by decide) (by decide) (by decide) (by decide) (by decide) (by decide) (by decide)
theorem W13_main_arg7 (c : Dev nD) : W13 m c (Proc.devRef .tc main_arg7) = m ((c : Thread nD τ).loc main_arg7) :=
  W13_launch m c main_arg7 (W13_of_ne m c _ (by decide)) (W9_of_ne m c _ (by decide)) (W6_of_ne m c _ (by decide))
    (by decide) (by decide) (by decide) (by decide) (by decide) (by decide) (by decide) (by decide) (by decide) (by decide)
theorem W13_main_arg8 (c : Dev nD) : W13 m c (Proc.devRef .tc main_arg8) = m ((c : Thread nD τ).loc main_arg8) :=
  W13_launch m c main_arg8 (W13_input m c 3 rfl) (W9_of_ne m c _ (by decide)) (W6_of_ne m c _ (by decide))
    (by decide) (by decide) (by decide) (by decide) (by decide) (by decide) (by decide) (by decide) (by decide) (by decide)
theorem W13_main_arg9 (c : Dev nD) : W13 m c (Proc.devRef .tc main_arg9) = m ((c : Thread nD τ).loc main_arg9) :=
  W13_launch m c main_arg9 (W13_of_ne m c _ (by decide)) (W9_of_ne m c _ (by decide)) (W6_of_ne m c _ (by decide))
    (by decide) (by decide) (by decide) (by decide) (by decide) (by decide) (by decide) (by decide) (by decide) (by decide)
theorem W13_main_arg10 (c : Dev nD) : W13 m c (Proc.devRef .tc main_arg10) = m ((c : Thread nD τ).loc main_arg10) :=
  W13_launch m c main_arg10 (W13_input m c 5 rfl) (W9_of_ne m c _ (by decide)) (W6_of_ne m c _ (by decide))
    (by decide) (by decide) (by decide) (by decide) (by decide) (by decide) (by decide) (by decide) (by decide) (by decide)
theorem W13_main_arg11 (c : Dev nD) : W13 m c (Proc.devRef .tc main_arg11) = m ((c : Thread nD τ).loc main_arg11) :=
  W13_launch m c main_arg11 (W13_of_ne m c _ (by decide)) (W9_of_ne m c _ (by decide)) (W6_of_ne m c _ (by decide))
    (by decide) (by decide) (by decide) (by decide) (by decide) (by decide) (by decide) (by decide) (by decide) (by decide)

/-! ## The proof data of the three pipelines and what rides beside the buffers -/

/-- Every pipeline's proof data, each at the contents its region is entered with: the two transforms at the boundaries
    before them, the pool and head at the boundary after the last host stretch. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

/-- No core owes another anything in this program: no pair carries a level. -/
abbrev noPairs : GSem nD τ sig → Finset Unit := fun _ => ∅
abbrev lvl0 : GSem nD τ sig → Unit → ℕ := fun _ _ => 0

/-- Beside the unscoped buffers a core carries, through every item, its generator register at some state (a region's
    invariant takes it in and hands it back) and its account of dues, at nothing owed. -/
abbrev beside (c : Dev nD) : sProp 𝕄 :=
  iprop((∃ r, prngReg c r) ∗ ∃ W, owes (c : Thread nD τ) (0 : CellTallies nD τ sig Unit) W)

/-- A host stretch as an item: from every unscoped buffer at the contents Wb it runs to the same buffers at what its
    operations leave, the register and the account riding along. -/
abbrev stretch (ops : List (HloOp τ sig (Elt F))) (hsub : ops.Forall fun op => op.bufs ⊆ StableHlo.tcRefs τ sig)
    (hfresh : ops.Forall fun op => op.fresh = ∅) (Wb : Dev nD → Valuation τ sig (Elt F)) :
    Pipeline.HostSeg (Name := ℕ) (U := UR sig nD τ) (pcfgs (F := F)) defs₀ Variants.none noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wb beside

/-- An unscoped reference of the core is among the buffers the thread state holds. -/
theorem unscoped_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What a core holds at the very end, the account aside: every unscoped buffer at the last boundary's contents and the
    generator register at some state. -/
abbrev atEnd (c : Dev nD) : sProp 𝕄 :=
  iprop(StableHlo.held (c : Thread nD τ) (Pipeline.ucRefs τ sig) (W13 m c) ∗ ∃ r, prngReg c r)

/-- After a region each of its arrays holds what the write-backs leave and every other buffer what it held at entry. -/
theorem leaves0 (c : Dev nD) (w : Fin cfg0.W) : (dat0 (E0 m) c).arrAt w cfg0.N = W6 m c (Pipeline.arrRef spec0 w) :=
  (W6_arr m c w).symm
theorem keeps0 (c : Dev nD) : ∀ b, b ∉ Finset.univ.image (Pipeline.arrRef spec0) → W6 m c (Proc.devRef .tc b) = E0 m c b :=
  fun b hb => W6_of_ne m c b fun w e => hb (Finset.mem_image.mpr ⟨w, Finset.mem_univ _, e⟩)
theorem leaves1 (c : Dev nD) (w : Fin cfg1.W) : (dat1 (E1 m) c).arrAt w cfg1.N = W9 m c (Pipeline.arrRef spec1 w) :=
  (W9_arr m c w).symm
theorem keeps1 (c : Dev nD) : ∀ b, b ∉ Finset.univ.image (Pipeline.arrRef spec1) → W9 m c (Proc.devRef .tc b) = E1 m c b :=
  fun b hb => W9_of_ne m c b fun w e => hb (Finset.mem_image.mpr ⟨w, Finset.mem_univ _, e⟩)
theorem leaves2 (c : Dev nD) (w : Fin cfg2.W) : (dat2 (E2 m) c).arrAt w cfg2.N = W13 m c (Pipeline.arrRef spec2 w) :=
  (W13_arr m c w).symm
theorem keeps2 (c : Dev nD) : ∀ b, b ∉ Finset.univ.image (Pipeline.arrRef spec2) → W13 m c (Proc.devRef .tc b) = E2 m c b :=
  fun b hb => W13_of_ne m c b fun w e => hb (Finset.mem_image.mpr ⟨w, Finset.mem_univ _, e⟩)

/-! ## The two ends of a region

  All three regions are entered and left by the same exchange. At entry the unscoped buffers split into the region's arrays
  and the rest; the pipeline takes the arrays, its (absent) prefetched tables, the core's account at the first tallies and
  the generator register, and the rest waits outside. At exit the arrays come back at what the write-backs left and join
  the rest into the unscoped buffers at the next boundary's contents; the register and the account come back beside
  them. The exchange is stated once over arbitrary resources; each region supplies its split, its join and its account. -/

theorem region_enter (Ub A Rest T O O' X S Lv : sProp 𝕄) (hsplit : Ub ⊢ iprop(A ∗ Rest)) (hT : (BI.emp : sProp 𝕄) ⊢ T) (hO : O ⊢ O') :
    iprop((Ub ∗ X ∗ O) ∗ S ∗ Lv) ⊢ |={Set.univ}=> iprop(A ∗ T ∗ O' ∗ X ∗ Rest) := by
  iintro ⟨⟨Hub, Hx, HO⟩, -, -⟩
  ihave Hs := hsplit $$ Hub
  icases Hs with ⟨Ha, Hrest⟩
  imodintro
  isplitl [Ha]; · iexact Ha
  isplitr; · iapply hT; iempintro
  isplitl [HO]; · iapply hO; iexact HO
  isplitl [Hx]; · iexact Hx
  iexact Hrest

theorem region_leave (A Rest Ub' O O' Y : sProp 𝕄) (hjoin : iprop(A ∗ Rest) ⊢ Ub') (hO : O ⊢ O') :
    iprop(A ∗ O ∗ Y ∗ Rest) ⊢ |={Set.univ}=> iprop(Ub' ∗ Y ∗ O') := by
  iintro ⟨Ha, HO, HY, Hrest⟩
  imodintro
  isplitl [Ha Hrest]
  · iapply hjoin; isplitl [Ha] <;> iassumption
  isplitl [HY]; · iexact HY
  iapply hO; iexact HO

section Account

variable {cfg : Cfg sig Λ₀} {c : Dev nD} (dat : Dat τ (Elt F) Unit ℕ (UR sig nD τ) ℕ cfg c)

/-- A core owing nothing, whatever pairs it has recorded, holds the pipeline's account before the first point when the first
    tallies are nothing owed and the recorded pairs are not bounded there. -/
theorem account_in (h0 : dat.owed 0 = 0) (hall : ∀ x, x ∈ dat.bound () 0) :
    (iprop(∃ W, owes (c : Thread nD τ) (0 : CellTallies nD τ sig Unit) W) : sProp 𝕄) ⊢ dat.owesAt () 0 := by
  unfold Pipeline.Dat.owesAt Pipeline.owesWithin; rw [h0]
  iintro ⟨%W, HO⟩
  iexists W
  isplitr; · ipureintro; exact fun x _ => hall x
  iexact HO

/-- After the last point, with the last tallies nothing owed, the core owes nothing; the bound on its recorded pairs is
    forgotten. -/
theorem account_out (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin; rw [hN]
  iintro ⟨%W, -, HO⟩
  iexists W; iexact HO

end Account

/-- A pipeline with no prefetched table holds none. -/
theorem no_tables (pre : Pipeline.Prefetch sig) (hK : pre.K = 0) (c : Dev nD) (q : Fin pre.K → PosShare TreeShare)
    (Vt : pre.Contents (Elt F)) : (BI.emp : sProp 𝕄) ⊢ Pipeline.prefHeld pre c q Vt := by
  haveI : IsEmpty (Fin pre.K) := by rw [hK]; infer_instance
  unfold Pipeline.prefHeld; rw [Finset.univ_eq_empty, BI.bigSep_empty]

/-- The class's invariant of a region from the generator register and the scoped buffers no window stages (whatever stands
    for the prefetched tables is dropped), and back, with nothing for the kernel's own semaphores. -/
theorem class_in {gr W : Nat} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hr, -, Hs⟩
  isplitl [Hs]; · iexact Hs
  iexact Hr
theorem class_out {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hs, Hr⟩
  isplitl [Hr]; · iexact Hr
  isplitr; · iempintro
  iexact Hs

/-! ## The three regions as items -/

set_option backward.isDefEq.respectTransparency.types false in
/-- The first transform (x times W1): entered with every unscoped buffer at W5, left with them at W6. Its invariant is the
    class's own at every point, so the class's two directions are its way in and out. -/
def transformX : Pipeline.RegionSeg (pcfgs (F := F)) adm (pdats m) () defs₀ Variants.none noPairs lvl0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs lvl0 0 fun _ _ => rfl
  pre c := iprop(StableHlo.held (c : Thread nD τ) (Pipeline.ucRefs τ sig) (W5 m c) ∗ beside c)
  post c := iprop(StableHlo.held (c : Thread nD τ) (Pipeline.ucRefs τ sig) (W6 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    exact region_enter _ _ _ _ _ _ _ _ _ hsplit (no_tables _ rfl c _ _) (account_in (pdats m 0 c) rfl fun _ => Or.inl trivial)
  hin c := class_in spec0 c _
  hout c := by
    rw [Pipeline.ownSems0_none]
    exact class_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W6 m c b) ((pdats m 0 c).arrAt · cfg0.N) (leaves0 m c) (keeps0 m c)
    rw [Pipeline.unscopedBufs_held] at hjoin
    exact region_leave _ _ _ _ _ _ hjoin (account_out (pdats m 0 c) rfl)

set_option backward.isDefEq.respectTransparency.types false in
/-- The second transform (the first layer's activations times W2): entered at W8, left at W9, in the same way. -/
def transformH : Pipeline.RegionSeg (pcfgs (F := F)) adm (pdats m) () defs₀ Variants.none noPairs lvl0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs lvl0 1 fun _ _ => rfl
  pre c := iprop(StableHlo.held (c : Thread nD τ) (Pipeline.ucRefs τ sig) (W8 m c) ∗ beside c)
  post c := iprop(StableHlo.held (c : Thread nD τ) (Pipeline.ucRefs τ sig) (W9 m c) ∗ beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    exact region_enter _ _ _ _ _ _ _ _ _ hsplit (no_tables _ rfl c _ _) (account_in (pdats m 1 c) rfl fun _ => Or.inl trivial)
  hin c := class_in spec1 c _
  hout c := by
    rw [Pipeline.ownSems0_none]
    exact class_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W9 m c b) ((pdats m 1 c).arrAt · cfg1.N) (leaves1 m c) (keeps1 m c)
    rw [Pipeline.unscopedBufs_held] at hjoin
    exact region_leave _ _ _ _ _ _ hjoin (account_out (pdats m 1 c) rfl)

set_option backward.isDefEq.respectTransparency.types false in
/-- The pool and head: entered at W12, left at W13, the end of @main. Its invariant is the class's own only before the first
    point; afterwards it carries the scratch at the running sum. So the class's invariant is made first and opens the
    region's, and after the last point the region's gives the class's back. -/
def poolHead : Pipeline.RegionSeg (pcfgs (F := F)) adm (pdats m) () defs₀ Variants.none noPairs lvl0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs lvl0 2 fun _ _ => rfl
  pre c := iprop(StableHlo.held (c : Thread nD τ) (Pipeline.ucRefs τ sig) (W12 m c) ∗ beside c)
  post c := iprop(StableHlo.held (c : Thread nD τ) (Pipeline.ucRefs τ sig) (W13 m c) ∗ beside c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    exact region_enter _ _ _ _ _ _ _ _ _ hsplit (no_tables _ rfl c _ _) (account_in (pdats m 2 c) rfl fun _ => Or.inl trivial)
  hin c := (class_in spec2 c _).trans (hin2 (E2 m) c)
  hout c := by
    rw [Pipeline.ownSems0_none]
    exact (hout2 (E2 m) c).trans (class_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W13 m c b) ((pdats m 2 c).arrAt · cfg2.N) (leaves2 m c) (keeps2 m c)
    rw [Pipeline.unscopedBufs_held] at hjoin
    exact region_leave _ _ _ _ _ _ hjoin (account_out (pdats m 2 c) rfl)

/-- At the end the register is counted with the buffers and the account stands alone. -/
theorem end_regroup (c : Dev nD) :
    (iprop(StableHlo.held (c : Thread nD τ) (Pipeline.ucRefs τ sig) (W13 m c) ∗ beside c) : sProp 𝕄)
      ⊢ iprop(atEnd m c ∗ ∃ W, owes (c : Thread nD τ) (0 : CellTallies nD τ sig Unit) W) := by
  iintro ⟨Hh, Hr, HO⟩
  isplitl [Hh Hr]
  · isplitl [Hh] <;> iassumption
  iexact HO

/-! ## @main as its thirteen items, and the launch -/

/-- @main's items in order: five host stretches, the first transform, two stretches, the second transform, three stretches,
    the pool and head; each stretch from the contents of the boundary before it. -/
abbrev items : List (Pipeline.Seg (pcfgs (F := F)) adm (pdats m) () defs₀ Variants.none noPairs lvl0) :=
  [ .host (stretch hostOps0 hostOps0_sub hostOps0_fresh (V0 m)),
    .host (stretch hostOps0_1 hostOps0_1_sub hostOps0_1_fresh (V1 m)),
    .host (stretch hostOps0_2 hostOps0_2_sub hostOps0_2_fresh (V2 m)),
    .host (stretch hostOps0_3 hostOps0_3_sub hostOps0_3_fresh (V3 m)),
    .host (stretch hostOps0_4 hostOps0_4_sub hostOps0_4_fresh (V4 m)),
    .region (transformX m),
    .host (stretch hostOps1 hostOps1_sub hostOps1_fresh (W6 m)),
    .host (stretch hostOps1_1 hostOps1_1_sub hostOps1_1_fresh (W7 m)),
    .region (transformH m),
    .host (stretch hostOps2 hostOps2_sub hostOps2_fresh (W9 m)),
    .host (stretch hostOps2_1 hostOps2_1_sub hostOps2_1_fresh (W10 m)),
    .host (stretch hostOps2_2 hostOps2_2_sub hostOps2_2_fresh (W11 m)),
    .region (poolHead m) ]

/-- @main is the run of its items: it is the chain of their fragments, and the run of a list of items is that chain. -/
theorem main_items (c : Dev nD) : main (F := F) c = Pipeline.Seg.run (items m) := by
  rewrite [main_chain c, Pipeline.Seg.run_eq_chain,
    show (items m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      StableHlo.seq hostOps1_1,
      Prog.lift (.customCall (Pipeline.entry 1) ()),
      StableHlo.seq hostOps2,
      StableHlo.seq hostOps2_1,
      StableHlo.seq hostOps2_2,
      Prog.lift (.customCall (Pipeline.entry 2) ()) ] from rfl]
  rfl

set_option backward.isDefEq.respectTransparency.types false in
/-- Every fair execution of @main from memory m with zero counters ends, nothing faulting, with every unscoped buffer
    of every core at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ Variants.none noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := atEnd m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, end_regroup m⟩)
    (hinit := by
      refine Pipeline.initEach noPairs lvl0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: every fair execution of @main ends, nothing faulting, with each of the twelve arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = W13 m c b) (fun r h c =>
    ⟨(h c _ (unscoped_held main_arg0 (by decide))).trans (W13_main_arg0 m c),
     (h c _ (unscoped_held main_arg1 (by decide))).trans (W13_main_arg1 m c),
     (h c _ (unscoped_held main_arg2 (by decide))).trans (W13_main_arg2 m c),
     (h c _ (unscoped_held main_arg3 (by decide))).trans (W13_main_arg3 m c),
     (h c _ (unscoped_held main_arg4 (by decide))).trans (W13_main_arg4 m c),
     (h c _ (unscoped_held main_arg5 (by decide))).trans (W13_main_arg5 m c),
     (h c _ (unscoped_held main_arg6 (by decide))).trans (W13_main_arg6 m c),
     (h c _ (unscoped_held main_arg7 (by decide))).trans (W13_main_arg7 m c),
     (h c _ (unscoped_held main_arg8 (by decide))).trans (W13_main_arg8 m c),
     (h c _ (unscoped_held main_arg9 (by decide))).trans (W13_main_arg9 m c),
     (h c _ (unscoped_held main_arg10 (by decide))).trans (W13_main_arg10 m c),
     (h c _ (unscoped_held main_arg11 (by decide))).trans (W13_main_arg11 m c)⟩) (run_named m ρ)

/-- The same run read at the result as well: it ends at what the pool and head's one write-back leaves, and the twelve
    arguments are as launched. -/
theorem run_result : θ_run defs (onTc (τ := τ) (main (F := F))) ⟨m, fun _ => 0, ρ⟩ (fun r => ∀ c : Dev nD,
      r.2.mem ((c.tc : Thread nD τ).loc main_v81) = (dat2 (E2 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = W13 m c b) (fun r h c =>
    ⟨(h c _ (unscoped_held main_v81 (by decide))).trans (W13_result m c),
     (h c _ (unscoped_held main_arg0 (by decide))).trans (W13_main_arg0 m c),
     (h c _ (unscoped_held main_arg1 (by decide))).trans (W13_main_arg1 m c),
     (h c _ (unscoped_held main_arg2 (by decide))).trans (W13_main_arg2 m c),
     (h c _ (unscoped_held main_arg3 (by decide))).trans (W13_main_arg3 m c),
     (h c _ (unscoped_held main_arg4 (by decide))).trans (W13_main_arg4 m c),
     (h c _ (unscoped_held main_arg5 (by decide))).trans (W13_main_arg5 m c),
     (h c _ (unscoped_held main_arg6 (by decide))).trans (W13_main_arg6 m c),
     (h c _ (unscoped_held main_arg7 (by decide))).trans (W13_main_arg7 m c),
     (h c _ (unscoped_held main_arg8 (by decide))).trans (W13_main_arg8 m c),
     (h c _ (unscoped_held main_arg9 (by decide))).trans (W13_main_arg9 m c),
     (h c _ (unscoped_held main_arg10 (by decide))).trans (W13_main_arg10 m c),
     (h c _ (unscoped_held main_arg11 (by decide))).trans (W13_main_arg11 m c)⟩) (run_named m ρ)

end Cert.Kernel.Hand

end
-- ==== Proof.KI.Region0.lean ====
/-
  Region 0: one row tile of x times W1. At every grid point the body loads the tile's 10000 rows of x and the whole
  22 x 64 weight, multiplies them into a zero accumulator, and stores the 10000 x 64 product over the output tile.
  Stated at the contents V the region is entered with.
-/
import proofs.«409487_j3324304687518_2_alg».proof.Proof.Gen.KernelIdeal.Launch
import proofs.«409487_j3324304687518_2_alg».proof.Proof.Gen.KernelIdeal.Skeleton
import proofs.«409487_j3324304687518_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x22 := Rect.unit (s := S10000x22) ![0, 0] S10000x22.size inb_S10000x22_S10000x22_0_0
abbrev rw0 : Rect S22x64 := Rect.unit (s := S22x64) ![0, 0] S22x64.size inb_S22x64_S22x64_0_0
abbrev ro0 : Rect S10000x64 := Rect.unit (s := S10000x64) ![0, 0] S10000x64.size inb_S10000x64_S10000x64_0_0

/-- The output tile after the body: the product of the loaded tile and the loaded weight, stored over the whole tile. -/
def out0_2 (x0 : Vec F S10000x22 .f32) (x1 : Vec F S22x64 .f32) : Vec F S10000x64 .f32 :=
  View.canon [⟨ro0, k0_pay1 (View.ld x0 rx0) (View.ld x1 rw0)⟩]

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What the body finds in the two input buffers -/

/-- The row tile of x is copied in at every point, so the body always finds the tile of its own point. Stated for any
    proof data over these arrays whose body leaves that buffer as it found it. -/
theorem rowTile_found0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight W1 is copied in at the first point only. Its block index never moves and the body never writes that
    buffer, so at every later point the buffer still holds the whole 22 x 64 weight. -/
theorem weight_found0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store fills the output tile -/

/-- The product is stored through the rectangle of all 10000 x 64 entries, so every entry of the tile is written. -/
theorem product_fills0 (p : Vec F S10000x64 .f32) (y : S10000x64.Idx) :
    ∃ pc ∈ ([⟨ro0, p⟩] : List (View.Piece (Elt F) S10000x64 .f32)), y ∈ pc.1.set :=
  View.cover_of_tiled [⟨ro0, p⟩] S10000x64.size (by rfl) y

/-! ## The kernel on three whole buffers -/

set_option maxHeartbeats 1000000 in
/-- With the first buffer at a tile x, the second at a weight w and the third at anything, the kernel returns with x and w
    untouched and the third buffer at the product of x and w (both rounded to bf16, accumulated in f32 from zero). The
    kernel also reads the third buffer before it stores; what it reads there is never used. -/
theorem transform_runs0 (c : Dev nD) (E : Set ℕ) (i : grid0.Coords)
    (mx : Memref sig .tc .vmem S10000x22 .f32) (hmx : mx.IsWhole) (mw : Memref sig .tc .vmem S22x64 .f32) (hmw : mw.IsWhole)
    (mo : Memref sig .tc .vmem S10000x64 .f32) (hmo : mo.IsWhole)
    (x : Vec F S10000x22 .f32) (w : Vec F S22x64 .f32) (K : PUnit → sProp 𝕄) :
    iprop(owns (c : Thread nD τ) mx fullShare x ∗ owns (c : Thread nD τ) mw fullShare w ∗ (∃ d, owns (c : Thread nD τ) mo fullShare d)
        ∗ (iprop(owns (c : Thread nD τ) mx fullShare x ∗ owns (c : Thread nD τ) mw fullShare w
            ∗ owns (c : Thread nD τ) mo fullShare (out0_2 x w)) -∗ K ⟨⟩))
      ⊢ wp frame (wpE (defs₀ (F := F)) Variants.none c none) E (cc0__transform_kernel i mx hmx mw hmw mo hmo) K := by
  simp only [cc0__transform_kernel_eq_skeleton]; unfold cc0__transform_kernel_skel
  unfold owns
  iintro ⟨⟨%fx, %hfx, Hx⟩, ⟨%fw, %hfw, Hw⟩, ⟨%d, %fo, -, Ho⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (product_fills0 _)

/-! ## One grid point -/

theorem before0_0 (c : Dev nD) (t : Fin cfg0.N) (d) : (dat0 V c).before 0 t d = iblk0 V c 0 t :=
  rowTile_found0 V (dat0 V c) (A_eq0 V c 0) (after0_0 V c) t d
theorem before0_1 (c : Dev nD) (t : Fin cfg0.N) (d) : (dat0 V c).before 1 t d = iblk0 V c 1 t :=
  weight_found0 V (dat0 V c) (A_eq0 V c 1) (after0_1 V c) t d

/-- What the pipeline hands the body at point t: the invariant, the core's debts, and the three current buffers. -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back: the same, each buffer at what the proof data says the body leaves. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold the point's tile of x and the weight, so the kernel's triple applies; the
    invariant and the debts are carried past it unread, and what the output buffer held before does not matter. -/
theorem point_runs0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Hd, ⟨%d0, Hx⟩, ⟨%d1, Hw⟩, ⟨%d2, Ho⟩⟩
  iapply (transform_runs0 c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

/-- The body obligation of region 0 at every point. -/
theorem body_obligation0 (c : Dev nD) : BodyObligation (dat0 (F := F) V c) (defs₀ (F := F)) Variants.none () Set.univ := fun t => by
  rw [bigSep_W0, bigSep_W0]
  exact point_runs0 V c t

end Cert.KernelIdeal.Hand

end
-- ==== Proof.KI.Region1.lean ====
/-
  The second layer's linear map, one tile of rows at a time. The hidden activations h (the first layer's output after
  the host's aggregation) are cut into ten tiles of 10000 rows and 64 columns. At each of the ten grid points the body
  reads its tile of h and the full 64 x 64 matrix W2, rounds both to bf16, forms the matrix product with an f32
  accumulator that starts at zero, and writes the 10000 x 64 result over the same-numbered tile of the output array.
  Nothing is kept from one point to the next. Every statement below is made at V, whatever the TensorCore's buffers hold
  when this region begins.
-/
import proofs.«409487_j3324304687518_2_alg».proof.Proof.Gen.KernelIdeal.Launch
import proofs.«409487_j3324304687518_2_alg».proof.Proof.Gen.KernelIdeal.Skeleton
import proofs.«409487_j3324304687518_2_alg».proof.Proof.Gen.KernelIdeal.Points
import Idealize.ShloMosaic.Lib.Pipeline.FrameBody
import Idealize.ShloMosaic.Lib.Ring
import Idealize.ShloMosaic.Lib.Tactic

-- deciding membership in a rectangle with a 10000-long axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer at the moment the second transform starts
variable (V : (c : Dev nD) → (b : Ref sig .tc) → Buf (Elt F) ((c : Thread nD τ).loc b))

/-! ## The blocks and the result -/

/-- The part of window w's array that belongs to grid point t, as the array stands in V: for window 0 the t-th tile of
    10000 rows of h, for window 1 all of W2 at every t, for window 2 the t-th tile of the output array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- All 10000 x 64 entries of the activation buffer: what the body's first load reads. -/
abbrev rx1 : Rect S10000x64 := Rect.unit (s := S10000x64) ![0, 0] S10000x64.size inb_S10000x64_S10000x64_0_0
/-- All 64 x 64 entries of the weight buffer: what the second load reads. -/
abbrev rw1 : Rect S64x64 := Rect.unit (s := S64x64) ![0, 0] S64x64.size inb_S64x64_S64x64_0_0
/-- All 10000 x 64 entries of the output buffer: where the single store writes. -/
abbrev ro1 : Rect S10000x64 := Rect.unit (s := S10000x64) ![0, 0] S10000x64.size inb_S10000x64_S10000x64_0_0

/-- The output buffer once the body has run on a tile x0 of h and a weight x1: its one store, laid over the buffer, puts
    at row r and column j the bf16-rounded row r of x0 against the bf16-rounded column j of x1, summed in f32 from zero.
    Entry (r, j) depends on row r of the tile and column j of the weight only. -/
def out1_2 (x0 : Vec F S10000x64 .f32) (x1 : Vec F S64x64 .f32) : Vec F S10000x64 .f32 :=
  View.canon [⟨ro1, k1_pay1 (View.ld x0 rx1) (View.ld x1 rw1)⟩]

/-- What the second transform's pipeline is proved against on core c. Its three arrays are h, W2 and the output as V has
    them. After the body at point t the two input buffers are as the body found them (the tile of h, the weight) and the
    output buffer is the product of those two. The invariant is the standard one of a body that touches only its windows;
    every buffer is held in full and the core owes no signals. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are V's. -/
theorem A_eq1 (c : Dev nD) (w : Fin cfg1.W) : (dat1 V c).A w = V c (Pipeline.arrRef spec1 w) := by
  dsimp only [dat1]
/-- The activation buffer after the body: still the tile of h. -/
theorem after1_0 (c : Dev nD) (t : Fin cfg1.N) : (dat1 V c).after 0 t = iblk1 V c 0 t := by dsimp only [dat1]
/-- The weight buffer after the body: still W2. -/
theorem after1_1 (c : Dev nD) (t : Fin cfg1.N) : (dat1 V c).after 1 t = iblk1 V c 1 t := by dsimp only [dat1]
/-- The output buffer after the body: the product of the tile of h and W2. -/
theorem after1_2 (c : Dev nD) (t : Fin cfg1.N) : (dat1 V c).after 2 t = out1_2 (iblk1 V c 0 t) (iblk1 V c 1 t) := by dsimp only [dat1]

/-! ## What the body finds in the two input buffers -/

/-- The row tile of the hidden activations is copied in at every point, so the body always finds the tile of its own
    point. Stated for any proof data over these arrays whose body leaves that buffer as it found it. -/
theorem rowTile_found1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight W2 is copied in at the first point only. Its block index never moves and the body never writes that
    buffer, so at every later point the buffer still holds the whole 64 x 64 weight. -/
theorem weight_found1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The one store fills the output tile -/

/-- The product is stored through the rectangle of all 10000 x 64 entries, so every entry of the tile is written. -/
theorem product_fills1 (p : Vec F S10000x64 .f32) (y : S10000x64.Idx) :
    ∃ pc ∈ ([⟨ro1, p⟩] : List (View.Piece (Elt F) S10000x64 .f32)), y ∈ pc.1.set :=
  View.cover_of_tiled [⟨ro1, p⟩] S10000x64.size (by rfl) y

/-! ## The kernel on three whole buffers -/

set_option maxHeartbeats 1000000 in
/-- With the first buffer at a tile h of activations, the second at a weight w and the third at anything, the kernel
    returns with h and w untouched and the third buffer at the product of h and w (both rounded to bf16, accumulated in
    f32 from zero). The kernel also reads the third buffer before it stores; what it reads there is never used. -/
theorem transform_runs1 (c : Dev nD) (E : Set ℕ) (i : grid1.Coords)
    (mh : Memref sig .tc .vmem S10000x64 .f32) (hmh : mh.IsWhole) (mw : Memref sig .tc .vmem S64x64 .f32) (hmw : mw.IsWhole)
    (mo : Memref sig .tc .vmem S10000x64 .f32) (hmo : mo.IsWhole)
    (h : Vec F S10000x64 .f32) (w : Vec F S64x64 .f32) (K : PUnit → sProp 𝕄) :
    iprop(owns (c : Thread nD τ) mh fullShare h ∗ owns (c : Thread nD τ) mw fullShare w ∗ (∃ d, owns (c : Thread nD τ) mo fullShare d)
        ∗ (iprop(owns (c : Thread nD τ) mh fullShare h ∗ owns (c : Thread nD τ) mw fullShare w
            ∗ owns (c : Thread nD τ) mo fullShare (out1_2 h w)) -∗ K ⟨⟩))
      ⊢ wp frame (wpE (defs₀ (F := F)) Variants.none c none) E (cc1__transform_kernel i mh hmh mw hmw mo hmo) K := by
  simp only [cc1__transform_kernel_eq_skeleton]; unfold cc1__transform_kernel_skel
  unfold owns
  iintro ⟨⟨%fh, %hfh, Hh⟩, ⟨%fw, %hfw, Hw⟩, ⟨%d, %fo, -, Ho⟩, Hk⟩
  subst hfh; subst hfw
  sl_exec
  sl_step
  iapply Hk
  isplitl [Hh]
  · iexists fh; isplitr; · ipureintro; rfl
    iexact Hh
  isplitl [Hw]
  · iexists fw; isplitr; · ipureintro; rfl
    iexact Hw
  iexists _; isplitr
  swap; · iexact Ho
  ipureintro
  exact View.read_writes_eq_canon _ _ _ (product_fills1 _)

/-! ## One grid point -/

theorem before1_0 (c : Dev nD) (t : Fin cfg1.N) (d) : (dat1 V c).before 0 t d = iblk1 V c 0 t :=
  rowTile_found1 V (dat1 V c) (A_eq1 V c 0) (after1_0 V c) t d
theorem before1_1 (c : Dev nD) (t : Fin cfg1.N) (d) : (dat1 V c).before 1 t d = iblk1 V c 1 t :=
  weight_found1 V (dat1 V c) (A_eq1 V c 1) (after1_1 V c) t d

/-- What the pipeline hands the body at point t: the invariant, the core's debts, and the three current buffers. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same, each buffer at what the proof data says the body leaves. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold the point's tile of activations and the weight, so the kernel's triple
    applies; the invariant and the debts are carried past it unread, and what the output buffer held before does not
    matter. -/
theorem point_runs1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Hd, ⟨%d0, Hh⟩, ⟨%d1, Hw⟩, ⟨%d2, Ho⟩⟩
  iapply (transform_runs1 c Set.univ _ _ _ _ _ _ _ (iblk1 V c 0 t) (iblk1 V c 1 t) _)
  isplitl [Hh]; · iexact Hh
  isplitl [Hw]; · iexact Hw
  isplitl [Ho]; · iexists _; iexact Ho
  iintro ⟨Hh, Hw, Ho⟩
  isplitl [HΦ]; · iexact HΦ
  isplitl [Hd]; · iexact Hd
  isplitl [Hh]; · iexact Hh
  isplitl [Hw]; · iexact Hw
  iexact Ho

/-- The body obligation of region 1 at every point. -/
theorem body_obligation1 (c : Dev nD) : BodyObligation (dat1 (F := F) V c) (defs₀ (F := F)) Variants.none () Set.univ := fun t => by
  rw [bigSep_W1, bigSep_W1]
  exact point_runs1 V c t

end Cert.KernelIdeal.Hand

end
-- ==== Proof.KI.Region2.lean ====
/-
  Region 2: the pool and the head. A 256 x 64 scratch is carried across the ten grid points. Point 0 first zeroes it;
  every point then adds to it the product of the transposed one-hot matrix of the point's batch tile (10000 x 256, entry
  (n, g) one where the node's graph id is g) with the point's tile of h (10000 x 64); point 9 finally divides the scratch
  row by row by the counts, applies the two dense layers of the head, and stores the 256 x 3 result over the output block.
  Stated at the contents V the region is entered with.
-/
import proofs.«409487_j3324304687518_2_alg».proof.Proof.Gen.KernelIdeal.Launch
import proofs.«409487_j3324304687518_2_alg».proof.Proof.Gen.KernelIdeal.Skeleton
import proofs.«409487_j3324304687518_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rh2 : Rect S10000x64 := Rect.unit (s := S10000x64) ![0, 0] S10000x64.size inb_S10000x64_S10000x64_0_0
abbrev rb2 : Rect S10000x1 := Rect.unit (s := S10000x1) ![0, 0] S10000x1.size inb_S10000x1_S10000x1_0_0
abbrev rc2 : Rect S256x1 := Rect.unit (s := S256x1) ![0, 0] S256x1.size inb_S256x1_S256x1_0_0
abbrev rf1 : Rect S64x64 := Rect.unit (s := S64x64) ![0, 0] S64x64.size inb_S64x64_S64x64_0_0
abbrev rg1 : Rect S1x64 := Rect.unit (s := S1x64) ![0, 0] S1x64.size inb_S1x64_S1x64_0_0
abbrev rf2 : Rect S64x3 := Rect.unit (s := S64x3) ![0, 0] S64x3.size inb_S64x3_S64x3_0_0
abbrev rg2 : Rect S1x3 := Rect.unit (s := S1x3) ![0, 0] S1x3.size inb_S1x3_S1x3_0_0
abbrev ro2 : Rect S256x3 := Rect.unit (s := S256x3) ![0, 0] S256x3.size inb_S256x3_S256x3_0_0
abbrev rs2 : Rect S256x64 := Rect.unit (s := S256x64) ![0, 0] S256x64.size inb_S256x64_S256x64_0_0

/-- The scratch right after the reset of point 0: all zeros. -/
def reset2 : Vec F S256x64 .f32 := View.canon [⟨rs2, k2_pay1⟩]

/-- One accumulation: the scratch after a point's update, from the point's tile of h, its batch tile and the scratch before. -/
def step2 (h : Vec F S10000x64 .f32) (b : Vec F S10000x1 .i32) (s : Vec F S256x64 .f32) : Vec F S256x64 .f32 :=
  View.canon [⟨rs2, k2_pay2 (View.ld h rh2) (View.ld b rb2) (View.ld s rs2)⟩]

/-- The head: the output block from the final scratch, the counts and the head's weights and biases. -/
def head2 (s : Vec F S256x64 .f32) (cnt : Vec F S256x1 .f32) (w1 : Vec F S64x64 .f32) (b1 : Vec F S1x64 .f32)
    (w2 : Vec F S64x3 .f32) (b2 : Vec F S1x3 .f32) : Vec F S256x3 .f32 :=
  View.canon [⟨ro2, k2_pay3 (View.ld s rs2) (View.ld cnt rc2) (View.ld w1 rf1) (View.ld b1 rg1) (View.ld w2 rf2) (View.ld b2 rg2)⟩]

/-- The scratch after point n: point 0 accumulates onto the reset scratch, a later point onto what the point before left. -/
def accAt2 (c : Dev nD) : (n : ℕ) → n < cfg2.N → Vec F S256x64 .f32
  | 0, h => step2 (iblk2 V c 0 ⟨0, h⟩) (iblk2 V c 1 ⟨0, h⟩) reset2
  | n + 1, h => step2 (iblk2 V c 0 ⟨n + 1, h⟩) (iblk2 V c 1 ⟨n + 1, h⟩) (accAt2 c n (Nat.lt_of_succ_lt h))

theorem accAt2_zero (c : Dev nD) (h : 0 < cfg2.N) :
    accAt2 V c 0 h = step2 (iblk2 V c 0 ⟨0, h⟩) (iblk2 V c 1 ⟨0, h⟩) reset2 := rfl
theorem accAt2_succ (c : Dev nD) (n : ℕ) (h : n + 1 < cfg2.N) :
    accAt2 V c (n + 1) h = step2 (iblk2 V c 0 ⟨n + 1, h⟩) (iblk2 V c 1 ⟨n + 1, h⟩) (accAt2 V c n (Nat.lt_of_succ_lt h)) := rfl

/-- What the head would give from the scratch after point t (stored at the last point only; elsewhere the output block
    is neither stored nor written back, and this value is not consulted). -/
def fin2 (c : Dev nD) (t : Fin cfg2.N) : Vec F S256x3 .f32 :=
  head2 (accAt2 V c t.val t.isLt) (iblk2 V c 2 t) (iblk2 V c 3 t) (iblk2 V c 4 t) (iblk2 V c 5 t) (iblk2 V c 6 t)

/-- The region's invariant before position n: before the first point every scoped buffer at anything; afterwards the carried
    scratch at what the point before left, the other scoped buffers at anything; the generator register at some state. -/
def PhiS2 (c : Dev nD) : (n : ℕ) → n ≤ cfg2.N → sProp 𝕄
  | 0, _ => Pipeline.ΦA spec2 c
  | n + 1, hn => iprop(owns (c : Thread nD τ) (Memref.whole cc2_scratch0) fullShare (accAt2 V c n hn)
      ∗ Pipeline.scopedRestBut (Ix := Unit) (Name := ℕ) (U := UR sig nD τ) (Lvl := ℕ) (Val := Elt F) spec2 c [cc2_scratch0]
      ∗ ∃ r, prngReg c r)

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => fin2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = fin2 V c t := by dsimp only [dat2]

/-! ## The zero offset, and the three stores as plain values -/

/-- Every rectangle the body names starts at row 0, column 0. -/
theorem off00 : (![0, 0] : Fin 2 → ℕ) = fun _ => 0 := funext fun a => by fin_cases a <;> rfl

/-- The reset stores through the rectangle of all 256 x 64 entries, so what it leaves is its payload: zeros. -/
theorem reset2_eq : reset2 (F := F) = k2_pay1 := by
  unfold reset2; rw [View.canon_unit_zero off00]

/-- The accumulating store also goes through the full rectangle and its three loads read full rectangles, so what it
    leaves is the payload of the whole tile of h, the whole batch tile and the whole scratch before. -/
theorem step2_eq (h : Vec F S10000x64 .f32) (b : Vec F S10000x1 .i32) (s : Vec F S256x64 .f32) :
    step2 h b s = k2_pay2 h b s := by
  unfold step2
  rw [View.canon_unit_zero off00, View.ld_unit_zero (S := S10000x64) off00, View.ld_unit_zero (S := S10000x1) off00,
    View.ld_unit_zero (S := S256x64) off00]

/-- The head's store covers the 256 x 3 output block, and its six loads read whole buffers. -/
theorem head2_eq (s : Vec F S256x64 .f32) (cnt : Vec F S256x1 .f32) (w1 : Vec F S64x64 .f32) (b1 : Vec F S1x64 .f32)
    (w2 : Vec F S64x3 .f32) (b2 : Vec F S1x3 .f32) : head2 s cnt w1 b1 w2 b2 = k2_pay3 s cnt w1 b1 w2 b2 := by
  unfold head2
  rw [View.canon_unit_zero off00, View.ld_unit_zero (S := S256x64) off00, View.ld_unit_zero (S := S256x1) off00,
    View.ld_unit_zero (S := S64x64) off00, View.ld_unit_zero (S := S1x64) off00, View.ld_unit_zero (S := S64x3) off00,
    View.ld_unit_zero (S := S1x3) off00]

/-- A store through the full 256 x 64 rectangle, made last, writes every entry of the scratch whatever was stored before. -/
theorem scratch_filled2 (p : Vec F S256x64 .f32) (L : List (View.Piece (Elt F) S256x64 .f32)) (y : S256x64.Idx) :
    ∃ pc ∈ ((⟨rs2, p⟩ : View.Piece (Elt F) S256x64 .f32) :: L), y ∈ pc.1.set :=
  ⟨_, List.mem_cons.mpr (Or.inl rfl), View.mem_set_unit_zero off00 inb_S256x64_S256x64_0_0 y⟩

/-- The head's one store writes every entry of the 256 x 3 output block. -/
theorem block_filled2 (p : Vec F S256x3 .f32) (y : S256x3.Idx) :
    ∃ pc ∈ ([⟨ro2, p⟩] : List (View.Piece (Elt F) S256x3 .f32)), y ∈ pc.1.set :=
  ⟨_, List.mem_cons.mpr (Or.inl rfl), View.mem_set_unit_zero off00 inb_S256x3_S256x3_0_0 y⟩

/-! ## The two conditions of the body -/

/-- "This is the first point": the body's first conditional, as it computes it from the grid coordinate. -/
abbrev cond2_0 (i : grid2.Coords) : Prop := (Scalar.cmpi .ne (Scalar.extui (Scalar.cmpi .eq (BitVec.ofNat 32 (i 0).val) 0#32)) 0#32) = 1#1
/-- "This is the last point": the body's second conditional. -/
abbrev cond2_9 (i : grid2.Coords) : Prop := k2_cond2 i = 1#1

/-- Over the ten points the first condition holds at point 0 only, -/
theorem hcond2_0 : ∀ t : Fin cfg2.N, cond2_0 (grid2.coords t) ↔ t.val = 0 :=
  (by decide +kernel : ∀ t : Fin grid2.N, cond2_0 (grid2.coords t) ↔ t.val = 0)
/-- and the second at point 9 only. -/
theorem hcond2_9 : ∀ t : Fin cfg2.N, cond2_9 (grid2.coords t) ↔ t.val = 9 :=
  (by decide +kernel : ∀ t : Fin grid2.N, cond2_9 (grid2.coords t) ↔ t.val = 9)

/-! ## The kernel on whole buffers, one statement per control case -/

set_option maxHeartbeats 1000000 in
/-- A middle point (neither first nor last). With the h tile at xh, the batch tile at xb and the scratch at xs, the
    kernel returns with the two tiles untouched and the scratch at one accumulation of xs. The other six buffers are
    never named on this path, so they are not mentioned. -/
theorem run2_mid (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : ¬cond2_0 i) (hc9 : ¬cond2_9 i)
    (xh : Vec F S10000x64 .f32) (xb : Vec F S10000x1 .i32) (xs : Vec F S256x64 .f32) (K : PUnit → sProp 𝕄) :
    iprop(owns (c : Thread nD τ) arg1 fullShare xh ∗ owns (c : Thread nD τ) arg2 fullShare xb ∗ owns (c : Thread nD τ) arg9 fullShare xs
        ∗ (iprop(owns (c : Thread nD τ) arg1 fullShare xh ∗ owns (c : Thread nD τ) arg2 fullShare xb ∗ owns (c : Thread nD τ) arg9 fullShare (step2 xh xb xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f9, %hf9, H9⟩, Hk⟩
  subst hf1; subst hf2; subst hf9
  sl_exec (disch := first | exact hc0 | exact hc9)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  rw [View.read_writes_eq_canon _ _ _ (scratch_filled2 _ _), View.canon_unit_zero off00, step2_eq]
  simp only [View.readAt_eq_ld, View.ld_unit_zero (S := S10000x64) off00, View.ld_unit_zero (S := S10000x1) off00, View.ld_unit_zero (S := S256x64) off00]

set_option maxHeartbeats 1000000 in
/-- The first point. Whatever the scratch held, the kernel first stores zeros over it, reads them back, and returns with
    the scratch at one accumulation of the reset scratch. -/
theorem run2_first (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : cond2_0 i) (hc9 : ¬cond2_9 i)
    (xh : Vec F S10000x64 .f32) (xb : Vec F S10000x1 .i32) (K : PUnit → sProp 𝕄) :
    iprop(owns (c : Thread nD τ) arg1 fullShare xh ∗ owns (c : Thread nD τ) arg2 fullShare xb ∗ (∃ d, owns (c : Thread nD τ) arg9 fullShare d)
        ∗ (iprop(owns (c : Thread nD τ) arg1 fullShare xh ∗ owns (c : Thread nD τ) arg2 fullShare xb ∗ owns (c : Thread nD τ) arg9 fullShare (step2 xh xb reset2)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%d9, %f9, -, H9⟩, Hk⟩
  subst hf1; subst hf2
  sl_exec (disch := first | exact hc0 | exact hc9)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  sl_unfold_run_names
  rw [View.read_writes_eq_canon _ _ _ (scratch_filled2 _ _), View.canon_cons_unit_zero (S := S256x64) off00,
    View.readCov_unit_zero (S := S256x64) _ off00, step2_eq, reset2_eq]
  simp only [View.readAt_eq_ld, View.ld_unit_zero (S := S10000x64) off00, View.ld_unit_zero (S := S10000x1) off00]

set_option maxHeartbeats 1000000 in
/-- The last point. After the accumulation the kernel reads the scratch back, reads the counts and the head's weights and
    biases, and stores the head's result over the output block, whatever that block held. -/
theorem run2_last (c : Dev nD) (E : Set ℕ) (i : grid2.Coords) (arg1 : Memref sig .tc .vmem S10000x64 .f32) (harg1 : arg1.IsWhole) (arg2 : Memref sig .tc .vmem S10000x1 .i32) (harg2 : arg2.IsWhole) (arg3 : Memref sig .tc .vmem S256x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x3 .f32) (harg6 : arg6.IsWhole) (arg7 : Memref sig .tc .vmem S1x3 .f32) (harg7 : arg7.IsWhole) (arg8 : Memref sig .tc .vmem S256x3 .f32) (harg8 : arg8.IsWhole) (arg9 : Memref sig .tc .vmem S256x64 .f32) (harg9 : arg9.IsWhole)
    (hc0 : ¬cond2_0 i) (hc9 : cond2_9 i)
    (xh : Vec F S10000x64 .f32) (xb : Vec F S10000x1 .i32) (x2 : Vec F S256x1 .f32) (x3 : Vec F S64x64 .f32) (x4 : Vec F S1x64 .f32) (x5 : Vec F S64x3 .f32) (x6 : Vec F S1x3 .f32) (xs : Vec F S256x64 .f32) (K : PUnit → sProp 𝕄) :
    iprop(owns (c : Thread nD τ) arg1 fullShare xh ∗ owns (c : Thread nD τ) arg2 fullShare xb ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare xh ∗ owns (c : Thread nD τ) arg2 fullShare xb ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (head2 (step2 xh xb xs) x2 x3 x4 x5 x6) ∗ owns (c : Thread nD τ) arg9 fullShare (step2 xh xb xs)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1; subst hf2; subst hf3; subst hf4; subst hf5; subst hf6; subst hf7; subst hf9
  sl_exec (disch := first | exact hc0 | exact hc9)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (block_filled2 _), View.canon_unit_zero off00, head2_eq, step2_eq,
      View.readCov_unit_zero (S := S256x64) _ off00]
    simp only [View.readAt_eq_ld, View.ld_unit_zero (S := S10000x64) off00, View.ld_unit_zero (S := S10000x1) off00,
      View.ld_unit_zero (S := S256x64) off00, View.ld_unit_zero (S := S256x1) off00, View.ld_unit_zero (S := S64x64) off00,
      View.ld_unit_zero (S := S1x64) off00, View.ld_unit_zero (S := S64x3) off00, View.ld_unit_zero (S := S1x3) off00]
  iexists _; isplitr
  swap; · iexact H9
  ipureintro
  sl_unfold_run_names
  rw [View.read_writes_eq_canon _ _ _ (scratch_filled2 _ _), View.canon_unit_zero off00, step2_eq]
  simp only [View.readAt_eq_ld, View.ld_unit_zero (S := S10000x64) off00, View.ld_unit_zero (S := S10000x1) off00, View.ld_unit_zero (S := S256x64) off00]

/-! ## The carried scratch, point by point -/

/-- At the first point the scratch after the body is one accumulation of the reset scratch, -/
theorem accAt2_first (c : Dev nD) (t : Fin cfg2.N) (h : t.val = 0) :
    accAt2 V c t.val t.isLt = step2 (iblk2 V c 0 t) (iblk2 V c 1 t) reset2 := by
  obtain ⟨n, hn⟩ := t
  cases n with
  | zero => rfl
  | succ n => exact absurd h (Nat.succ_ne_zero n)

/-- and at a later point one accumulation of what the point before left. -/
theorem accAt2_later (c : Dev nD) (t : Fin cfg2.N) (h : t.val ≠ 0) :
    accAt2 V c t.val t.isLt
      = step2 (iblk2 V c 0 t) (iblk2 V c 1 t) (accAt2 V c (t.val - 1) (Nat.lt_of_le_of_lt (Nat.sub_le _ _) t.isLt)) := by
  obtain ⟨n, hn⟩ := t
  cases n with
  | zero => exact absurd rfl h
  | succ n => rfl

/-! ## The invariant, position by position -/

theorem PhiS2_zero (c : Dev nD) (n : ℕ) (h : n ≤ cfg2.N) (hz : n = 0) : PhiS2 V c n h = (Pipeline.ΦA spec2 c : sProp 𝕄) := by
  subst hz; rfl

/-- After point n the scratch is owned at that point's contents. -/
theorem PhiS2_succ (c : Dev nD) (n : ℕ) (hn : n < cfg2.N) :
    PhiS2 V c (n + 1) hn = iprop(owns (c : Thread nD τ) (Memref.whole cc2_scratch0) fullShare (accAt2 V c n hn)
      ∗ Pipeline.scopedRestBut (Ix := Unit) (Name := ℕ) (U := UR sig nD τ) (Lvl := ℕ) (Val := Elt F) spec2 c [cc2_scratch0]
      ∗ ∃ r, prngReg c r) := rfl

/-- Before any position but the first the scratch is owned at what the point before left. -/
theorem PhiS2_pos (c : Dev nD) (n : ℕ) (h : n ≤ cfg2.N) (hz : n ≠ 0) :
    PhiS2 V c n h = iprop(owns (c : Thread nD τ) (Memref.whole cc2_scratch0) fullShare (accAt2 V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- Of the eleven scoped buffers that no window of this call stages, the call's own scratch is set apart; the other ten
    (the staging buffers of the two transform calls) stay together, unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- So the class's invariant is: the scratch, whole, at some contents; the other ten scoped buffers; the generator register. -/
theorem PhiA2_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [owns_whole]; try rfl

/-! ## What the body finds in the seven input buffers -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- The tile of h and the batch tile are copied in at every point. The counts and the head's four parameter arrays are
    copied in at the first point only; their block index never moves and the body stores into none of these buffers, so at
    every later point they still hold the same whole arrays. Either way the body finds window w's block of its own point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-! ## Where the output block is idle -/

/-- The seven inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the output block is idle: the body stores nothing into it -/
theorem idleAt2_7 : ∀ t : Fin cfg2.N, ¬cond2_9 (grid2.coords t) → cfg2.idle 7 (grid2.coords t) = true := by decide +kernel
/-- and the pipeline does not write it back. -/
theorem noFlush2_7 : ∀ t : Fin cfg2.N, ¬cond2_9 (grid2.coords t) → (cfg2.win 7).flush t = false := by decide +kernel
/-- At the last point it is live. -/
theorem liveAt2_7 : ∀ t : Fin cfg2.N, cond2_9 (grid2.coords t) → cfg2.idle 7 (grid2.coords t) = false := by decide +kernel

/-- An input's buffer is handed back at the block it was found at. -/
theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) : (dat2 V c).leavesExact 4 t = owns (c : Thread nD τ) (st2_4 t) fullShare (iblk2 V c 4 t) := by
  unfold Dat.leavesExact; rw [liveAt2_4 t, after2_4]
theorem leaves2_5 (c : Dev nD) (t : Fin cfg2.N) : (dat2 V c).leavesExact 5 t = owns (c : Thread nD τ) (st2_5 t) fullShare (iblk2 V c 5 t) := by
  unfold Dat.leavesExact; rw [liveAt2_5 t, after2_5]
theorem leaves2_6 (c : Dev nD) (t : Fin cfg2.N) : (dat2 V c).leavesExact 6 t = owns (c : Thread nD τ) (st2_6 t) fullShare (iblk2 V c 6 t) := by
  unfold Dat.leavesExact; rw [liveAt2_6 t, after2_6]

/-! ## One grid point -/

/-- What the pipeline hands the body at point t: the invariant, the core's debts, and the eight current buffers. -/
def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body hands back: the invariant at the next position, the debts, and each buffer at what the proof data says
    the body leaves there (for the output block away from the last point: whatever it held). -/
def pointPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any of the ten points. The seven input buffers hold their blocks. Which of the three control cases the
    point is in is read off its number. The invariant hands the body the scratch: at anything before the first point, at
    what the point before left otherwise; it takes the scratch back at this point's accumulation. Away from the last
    point the output block is idle and passes through as found; at the last point it is handed over at anything and comes
    back at the head of the final scratch. The other ten scoped buffers, the generator register and the debts pass through. -/
theorem point_runs2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  have hN : t.val < 10 := lt_of_lt_of_eq t.isLt (show cfg2.N = 10 from N_2)
  by_cases h0 : t.val = 0
  · -- the first point: reset, then accumulate
    have hc0 : cond2_0 (grid2.coords t) := (hcond2_0 t).mpr h0
    have hc9 : ¬cond2_9 (grid2.coords t) := fun h => by have := (hcond2_9 t).mp h; omega
    rw [Dat.leavesExact_idle (dat2 V c) 7 t (idleAt2_7 t hc9) (noFlush2_7 t hc9)]
    rw [accAt2_first V c t h0]
    rw [PhiS2_castSucc V c t, PhiS2_zero V c _ _ h0, PhiA2_eq]
    iintro ⟨⟨⟨HS, HR⟩, Hg⟩, Hd, ⟨%d0, H0⟩, ⟨%d1, H1⟩, ⟨%d2, H2⟩, ⟨%d3, H3⟩, ⟨%d4, H4⟩, ⟨%d5, H5⟩, ⟨%d6, H6⟩, H7⟩
    iapply (run2_first c Set.univ (grid2.coords t) _ _ _ _ _ _ _ _ _ _ _ _ _ _ _ _ _ _ hc0 hc9 (iblk2 V c 0 t) (iblk2 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond2_0 (grid2.coords t) := fun h => h0 ((hcond2_0 t).mp h)
    by_cases h9 : t.val = 9
    · -- the last point: accumulate, then the head
      have hc9 : cond2_9 (grid2.coords t) := (hcond2_9 t).mpr h9
      rw [show (dat2 V c).leavesExact 7 t = owns (c : Thread nD τ) (st2_7 t) fullShare ((dat2 V c).after 7 t) from by
        unfold Dat.leavesExact; rw [liveAt2_7 t hc9], after2_7]
      unfold fin2
      rw [accAt2_later V c t h0]
      rw [PhiS2_castSucc V c t, PhiS2_pos V c _ _ h0]
      iintro ⟨⟨HS, HR, Hg⟩, Hd, ⟨%d0, H0⟩, ⟨%d1, H1⟩, ⟨%d2, H2⟩, ⟨%d3, H3⟩, ⟨%d4, H4⟩, ⟨%d5, H5⟩, ⟨%d6, H6⟩, ⟨%d7, H7⟩⟩
      iapply (run2_last c Set.univ (grid2.coords t) _ _ _ _ _ _ _ _ _ _ _ _ _ _ _ _ _ _ hc0 hc9 (iblk2 V c 0 t) (iblk2 V c 1 t) (iblk2 V c 2 t)
        (iblk2 V c 3 t) (iblk2 V c 4 t) (iblk2 V c 5 t) (iblk2 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: accumulate only
      have hc9 : ¬cond2_9 (grid2.coords t) := fun h => h9 ((hcond2_9 t).mp h)
      rw [Dat.leavesExact_idle (dat2 V c) 7 t (idleAt2_7 t hc9) (noFlush2_7 t hc9)]
      rw [accAt2_later V c t h0]
      rw [PhiS2_castSucc V c t, PhiS2_pos V c _ _ h0]
      iintro ⟨⟨HS, HR, Hg⟩, Hd, ⟨%d0, H0⟩, ⟨%d1, H1⟩, ⟨%d2, H2⟩, ⟨%d3, H3⟩, ⟨%d4, H4⟩, ⟨%d5, H5⟩, ⟨%d6, H6⟩, H7⟩
      iapply (run2_mid c Set.univ (grid2.coords t) _ _ _ _ _ _ _ _ _ _ _ _ _ _ _ _ _ _ hc0 hc9 (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation of region 2 at every point. -/
theorem body_obligation2 (c : Dev nD) : BodyObligation (dat2 (F := F) V c) (defs₀ (F := F)) Variants.none () Set.univ := fun t => by
  rw [bigSep_W2, bigSep_W2]
  exact point_runs2 V c t

/-- The class's invariant (every scoped buffer no window stages at anything, the generator register) opens the region's. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any position but the first the invariant gives the class's back: what the scratch holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]; · iexists _; iexact HS
    iexact HR
  iexact Hg

/-- After the last point the region's invariant gives the class's back. -/
theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.Run.lean ====
/-
  The whole run of @main: thirteen items, ten stretches of host operations around the three kernel regions. The contents
  of every buffer at each item boundary are named as a fold from the launch memory: a host stretch applies its operations,
  a region leaves its output array at what its write-backs fold to and every other buffer as it found it. Over that fold
  each region is a segment entered from the boundary before it and left at the one after, and the launch of the segments
  gives: every fair execution ends, nothing faults, and every buffer ends at the last boundary's contents. From that both
  the frame (the arguments are never written) and the result's value are read.
-/
import proofs.«409487_j3324304687518_2_alg».proof.Proof.Gen.KernelIdeal.Regions
import proofs.«409487_j3324304687518_2_alg».proof.Proof.KI.Region0
import proofs.«409487_j3324304687518_2_alg».proof.Proof.KI.Region1
import proofs.«409487_j3324304687518_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Before region 0: the launch memory after the first five host stretches. -/
abbrev W5 (c : Dev nD) : Valuation τ sig (Elt F) := Gen.V5 m c
/-- The same read at the core's references: what region 0 is entered with. -/
abbrev E0 : (c : Dev nD) → (b : Ref sig .tc) → Buf (Elt F) ((c : Thread nD τ).loc b) := fun c b => W5 m c b
/-- After region 0: its arrays at what its write-backs leave, every other buffer as entered. -/
def W6 (c : Dev nD) : Valuation τ sig (Elt F) :=
  Pipeline.withArrays spec0 c (W5 m c) fun w => (dat0 (E0 m) c).arrAt w cfg0.N
abbrev W7 (c : Dev nD) : Valuation τ sig (Elt F) := StableHlo.after hostOps1 (W6 m c)
/-- Before region 1. -/
abbrev W8 (c : Dev nD) : Valuation τ sig (Elt F) := StableHlo.after hostOps1_1 (W7 m c)
abbrev E1 : (c : Dev nD) → (b : Ref sig .tc) → Buf (Elt F) ((c : Thread nD τ).loc b) := fun c b => W8 m c b
/-- After region 1. -/
def W9 (c : Dev nD) : Valuation τ sig (Elt F) :=
  Pipeline.withArrays spec1 c (W8 m c) fun w => (dat1 (E1 m) c).arrAt w cfg1.N
abbrev W10 (c : Dev nD) : Valuation τ sig (Elt F) := StableHlo.after hostOps2 (W9 m c)
abbrev W11 (c : Dev nD) : Valuation τ sig (Elt F) := StableHlo.after hostOps2_1 (W10 m c)
/-- Before region 2. -/
abbrev W12 (c : Dev nD) : Valuation τ sig (Elt F) := StableHlo.after hostOps2_2 (W11 m c)
abbrev E2 : (c : Dev nD) → (b : Ref sig .tc) → Buf (Elt F) ((c : Thread nD τ).loc b) := fun c b => W12 m c b
/-- After region 2: the end of @main. -/
def W13 (c : Dev nD) : Valuation τ sig (Elt F) :=
  Pipeline.withArrays spec2 c (W12 m c) fun w => (dat2 (E2 m) c).arrAt w cfg2.N

/-! ## Reading the fold

  A region's boundary changes exactly the region's arrays: each holds what the fold of its write-backs leaves, every
  other buffer is what it was at the boundary before. -/

theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W9_arr (c : Dev nD) (w : Fin cfg1.W) :
    W9 m c (Proc.devRef .tc (Pipeline.arrRef spec1 w)) = (dat1 (E1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
theorem W13_arr (c : Dev nD) (w : Fin cfg2.W) :
    W13 m c (Proc.devRef .tc (Pipeline.arrRef spec2 w)) = (dat2 (E2 m) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb

/-- An array a region only reads is, after the region, what it was before: an input window is never written back. -/
theorem W6_input (c : Dev nD) (w : Fin cfg0.W) (hin : (cfg0.win w).isOut = false) :
    W6 m c (Proc.devRef .tc (Pipeline.arrRef spec0 w)) = W5 m c (Proc.devRef .tc (Pipeline.arrRef spec0 w)) :=
  (W6_arr m c w).trans (((dat0 (E0 m) c).arrAt_in w hin _).trans (A_eq0 (E0 m) c w))
theorem W9_input (c : Dev nD) (w : Fin cfg1.W) (hin : (cfg1.win w).isOut = false) :
    W9 m c (Proc.devRef .tc (Pipeline.arrRef spec1 w)) = W8 m c (Proc.devRef .tc (Pipeline.arrRef spec1 w)) :=
  (W9_arr m c w).trans (((dat1 (E1 m) c).arrAt_in w hin _).trans (A_eq1 (E1 m) c w))
theorem W13_input (c : Dev nD) (w : Fin cfg2.W) (hin : (cfg2.win w).isOut = false) :
    W13 m c (Proc.devRef .tc (Pipeline.arrRef spec2 w)) = W12 m c (Proc.devRef .tc (Pipeline.arrRef spec2 w)) :=
  (W13_arr m c w).trans (((dat2 (E2 m) c).arrAt_in w hin _).trans (A_eq2 (E2 m) c w))

/-- The result buffer ends at what region 2's one write-back leaves in it. -/
theorem W13_result (c : Dev nD) : W13 m c (Proc.devRef .tc main_v81) = (dat2 (E2 m) c).arrAt 7 cfg2.N :=
  W13_arr m c 7

/-- A buffer none of the first five host stretches writes is, before region 0, as launched. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c (Proc.devRef .tc r) = m ((c : Thread nD τ).loc r) :=
  (V5_of m c r h4).trans <| (V4_of m c r h3).trans <| (V3_of m c r h2).trans <| (V2_of m c r h1).trans <| (V1_of m c r h0).trans rfl

/-- The walk back from the end to the launch for a buffer no host stretch writes and no region changes (the three
    region steps are given: the buffer is either none of the region's arrays or one it only reads). -/
theorem W13_launch (c : Dev nD) (r : Ref sig .tc)
    (hR2 : W13 m c (Proc.devRef .tc r) = W12 m c (Proc.devRef .tc r))
    (hR1 : W9 m c (Proc.devRef .tc r) = W8 m c (Proc.devRef .tc r))
    (hR0 : W6 m c (Proc.devRef .tc r) = W5 m c (Proc.devRef .tc r))
    (h0 : r ∉ hostOps0_W) (h1 : r ∉ hostOps0_1_W) (h2 : r ∉ hostOps0_2_W) (h3 : r ∉ hostOps0_3_W) (h4 : r ∉ hostOps0_4_W)
    (h6 : r ∉ hostOps1_W) (h7 : r ∉ hostOps1_1_W) (h9 : r ∉ hostOps2_W) (h10 : r ∉ hostOps2_1_W) (h11 : r ∉ hostOps2_2_W) :
    W13 m c (Proc.devRef .tc r) = m ((c : Thread nD τ).loc r) :=
  calc W13 m c (Proc.devRef .tc r)
    _ = W12 m c (Proc.devRef .tc r) := hR2
    _ = W11 m c (Proc.devRef .tc r) := StableHlo.after_of_writes_sub hostOps2_2 _ hostOps2_2_writes h11
    _ = W10 m c (Proc.devRef .tc r) := StableHlo.after_of_writes_sub hostOps2_1 _ hostOps2_1_writes h10
    _ = W9 m c (Proc.devRef .tc r) := StableHlo.after_of_writes_sub hostOps2 _ hostOps2_writes h9
    _ = W8 m c (Proc.devRef .tc r) := hR1
    _ = W7 m c (Proc.devRef .tc r) := StableHlo.after_of_writes_sub hostOps1_1 _ hostOps1_1_writes h7
    _ = W6 m c (Proc.devRef .tc r) := StableHlo.after_of_writes_sub hostOps1 _ hostOps1_writes h6
    _ = W5 m c (Proc.devRef .tc r) := hR0
    _ = m ((c : Thread nD τ).loc r) := W5_launch m c r h0 h1 h2 h3 h4

/-- No host operation and no region writes an argument: each ends as launched. x and W1 are region 0's two inputs,
    W2 region 1's weight, the head's two weight matrices inputs of region 2; the other arguments are no region's array. -/
theorem W13_main_arg0 (c : Dev nD) : W13 m c (Proc.devRef .tc main_arg0) = m ((c : Thread nD τ).loc main_arg0) :=
  W13_launch m c main_arg0 (W13_of_ne m c _ (by decide)) (W9_of_ne m c _ (by decide)) (W6_input m c 0 rfl)
    (by decide) (by decide) (by decide) (by decide) (by decide) (by decide) (by decide) (by decide) (by decide) (by decide)
theorem W13_main_arg1 (c : Dev nD) : W13 m c (Proc.devRef .tc main_arg1) = m ((c : Thread nD τ).loc main_arg1) :=
  W13_launch m c main_arg1 (W13_of_ne m c _ (by decide)) (W9_of_ne m c _ (by decide)) (W6_of_ne m c _ (by decide))
    (by decide) (by decide) (by decide) (by decide) (by decide) (by decide) (by decide) (by decide) (by decide) (by decide)
theorem W13_main_arg2 (c : Dev nD) : W13 m c (Proc.devRef .tc main_arg2) = m ((c : Thread nD τ).loc main_arg2) :=
  W13_launch m c main_arg2 (W13_of_ne m c _ (by decide)) (W9_of_ne m c _ (by decide)) (W6_of_ne m c _ (by decide))
    (by decide) (by decide) (by decide) (by decide) (by decide) (by decide) (by decide) (by decide) (by decide) (by decide)
theorem W13_main_arg3 (c : Dev nD) : W13 m c (Proc.devRef .tc main_arg3) = m ((c : Thread nD τ).loc main_arg3) :=
  W13_launch m c main_arg3 (W13_of_ne m c _ (by decide)) (W9_of_ne m c _ (by decide)) (W6_of_ne m c _ (by decide))
    (by decide) (by decide) (by decide) (by decide) (by decide) (by decide) (by decide) (by decide) (by decide) (by decide)
theorem W13_main_arg4 (c : Dev nD) : W13 m c (Proc.devRef .tc main_arg4) = m ((c : Thread nD τ).loc main_arg4) :=
  W13_launch m c main_arg4 (W13_of_ne m c _ (by decide)) (W9_of_ne m c _ (by decide)) (W6_input m c 1 rfl)
    (by decide) (by decide) (by decide) (by decide) (by decide) (by decide) (by decide) (by decide) (by decide) (by decide)
theorem W13_main_arg5 (c : Dev nD) : W13 m c (Proc.devRef .tc main_arg5) = m ((c : Thread nD τ).loc main_arg5) :=
  W13_launch m c main_arg5 (W13_of_ne m c _ (by decide)) (W9_of_ne m c _ (by decide)) (W6_of_ne m c _ (by decide))
    (by decide) (by decide) (by decide) (by decide) (by decide) (by decide) (by decide) (by decide) (by decide) (by decide)
theorem W13_main_arg6 (c : Dev nD) : W13 m c (Proc.devRef .tc main_arg6) = m ((c : Thread nD τ).loc main_arg6) :=
  W13_launch m c main_arg6 (W13_of_ne m c _ (by decide)) (W9_input m c 1 rfl) (W6_of_ne m c _ (by decide))
    (by decide) (by decide) (by decide) (by decide) (by decide) (by decide) (by decide) (by decide) (by decide) (by decide)
theorem W13_main_arg7 (c : Dev nD) : W13 m c (Proc.devRef .tc main_arg7) = m ((c : Thread nD τ).loc main_arg7) :=
  W13_launch m c main_arg7 (W13_of_ne m c _ (by decide)) (W9_of_ne m c _ (by decide)) (W6_of_ne m c _ (by decide))
    (by decide) (by decide) (by decide) (by decide) (by decide) (by decide) (by decide) (by decide) (by decide) (by decide)
theorem W13_main_arg8 (c : Dev nD) : W13 m c (Proc.devRef .tc main_arg8) = m ((c : Thread nD τ).loc main_arg8) :=
  W13_launch m c main_arg8 (W13_input m c 3 rfl) (W9_of_ne m c _ (by decide)) (W6_of_ne m c _ (by decide))
    (by decide) (by decide) (by decide) (by decide) (by decide) (by decide) (by decide) (by decide) (by decide) (by decide)
theorem W13_main_arg9 (c : Dev nD) : W13 m c (Proc.devRef .tc main_arg9) = m ((c : Thread nD τ).loc main_arg9) :=
  W13_launch m c main_arg9 (W13_of_ne m c _ (by decide)) (W9_of_ne m c _ (by decide)) (W6_of_ne m c _ (by decide))
    (by decide) (by decide) (by decide) (by decide) (by decide) (by decide) (by decide) (by decide) (by decide) (by decide)
theorem W13_main_arg10 (c : Dev nD) : W13 m c (Proc.devRef .tc main_arg10) = m ((c : Thread nD τ).loc main_arg10) :=
  W13_launch m c main_arg10 (W13_input m c 5 rfl) (W9_of_ne m c _ (by decide)) (W6_of_ne m c _ (by decide))
    (by decide) (by decide) (by decide) (by decide) (by decide) (by decide) (by decide) (by decide) (by decide) (by decide)
theorem W13_main_arg11 (c : Dev nD) : W13 m c (Proc.devRef .tc main_arg11) = m ((c : Thread nD τ).loc main_arg11) :=
  W13_launch m c main_arg11 (W13_of_ne m c _ (by decide)) (W9_of_ne m c _ (by decide)) (W6_of_ne m c _ (by decide))
    (by decide) (by decide) (by decide) (by decide) (by decide) (by decide) (by decide) (by decide) (by decide) (by decide)

/-! ## The proof data of the three pipelines and what rides beside the buffers -/

/-- Every pipeline's proof data, each at the contents its region is entered with: the two transforms at the boundaries
    before them, the pool and head at the boundary after the last host stretch. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

/-- No core owes another anything in this program: no pair carries a level. -/
abbrev noPairs : GSem nD τ sig → Finset Unit := fun _ => ∅
abbrev lvl0 : GSem nD τ sig → Unit → ℕ := fun _ _ => 0

/-- Beside the unscoped buffers a core carries, through every item, its generator register at some state (a region's
    invariant takes it in and hands it back) and its account of dues, at nothing owed. -/
abbrev beside (c : Dev nD) : sProp 𝕄 :=
  iprop((∃ r, prngReg c r) ∗ ∃ W, owes (c : Thread nD τ) (0 : CellTallies nD τ sig Unit) W)

/-- A host stretch as an item: from every unscoped buffer at the contents Wb it runs to the same buffers at what its
    operations leave, the register and the account riding along. -/
abbrev stretch (ops : List (HloOp τ sig (Elt F))) (hsub : ops.Forall fun op => op.bufs ⊆ StableHlo.tcRefs τ sig)
    (hfresh : ops.Forall fun op => op.fresh = ∅) (Wb : Dev nD → Valuation τ sig (Elt F)) :
    Pipeline.HostSeg (Name := ℕ) (U := UR sig nD τ) (pcfgs (F := F)) defs₀ Variants.none noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wb beside

/-- An unscoped reference of the core is among the buffers the thread state holds. -/
theorem unscoped_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What a core holds at the very end, the account aside: every unscoped buffer at the last boundary's contents and the
    generator register at some state. -/
abbrev atEnd (c : Dev nD) : sProp 𝕄 :=
  iprop(StableHlo.held (c : Thread nD τ) (Pipeline.ucRefs τ sig) (W13 m c) ∗ ∃ r, prngReg c r)

/-- After a region each of its arrays holds what the write-backs leave and every other buffer what it held at entry. -/
theorem leaves0 (c : Dev nD) (w : Fin cfg0.W) : (dat0 (E0 m) c).arrAt w cfg0.N = W6 m c (Pipeline.arrRef spec0 w) :=
  (W6_arr m c w).symm
theorem keeps0 (c : Dev nD) : ∀ b, b ∉ Finset.univ.image (Pipeline.arrRef spec0) → W6 m c (Proc.devRef .tc b) = E0 m c b :=
  fun b hb => W6_of_ne m c b fun w e => hb (Finset.mem_image.mpr ⟨w, Finset.mem_univ _, e⟩)
theorem leaves1 (c : Dev nD) (w : Fin cfg1.W) : (dat1 (E1 m) c).arrAt w cfg1.N = W9 m c (Pipeline.arrRef spec1 w) :=
  (W9_arr m c w).symm
theorem keeps1 (c : Dev nD) : ∀ b, b ∉ Finset.univ.image (Pipeline.arrRef spec1) → W9 m c (Proc.devRef .tc b) = E1 m c b :=
  fun b hb => W9_of_ne m c b fun w e => hb (Finset.mem_image.mpr ⟨w, Finset.mem_univ _, e⟩)
theorem leaves2 (c : Dev nD) (w : Fin cfg2.W) : (dat2 (E2 m) c).arrAt w cfg2.N = W13 m c (Pipeline.arrRef spec2 w) :=
  (W13_arr m c w).symm
theorem keeps2 (c : Dev nD) : ∀ b, b ∉ Finset.univ.image (Pipeline.arrRef spec2) → W13 m c (Proc.devRef .tc b) = E2 m c b :=
  fun b hb => W13_of_ne m c b fun w e => hb (Finset.mem_image.mpr ⟨w, Finset.mem_univ _, e⟩)

/-! ## The two ends of a region

  All three regions are entered and left by the same exchange. At entry the unscoped buffers split into the region's arrays
  and the rest; the pipeline takes the arrays, its (absent) prefetched tables, the core's account at the first tallies and
  the generator register, and the rest waits outside. At exit the arrays come back at what the write-backs left and join
  the rest into the unscoped buffers at the next boundary's contents; the register and the account come back beside
  them. The exchange is stated once over arbitrary resources; each region supplies its split, its join and its account. -/

theorem region_enter (Ub A Rest T O O' X S Lv : sProp 𝕄) (hsplit : Ub ⊢ iprop(A ∗ Rest)) (hT : (BI.emp : sProp 𝕄) ⊢ T) (hO : O ⊢ O') :
    iprop((Ub ∗ X ∗ O) ∗ S ∗ Lv) ⊢ |={Set.univ}=> iprop(A ∗ T ∗ O' ∗ X ∗ Rest) := by
  iintro ⟨⟨Hub, Hx, HO⟩, -, -⟩
  ihave Hs := hsplit $$ Hub
  icases Hs with ⟨Ha, Hrest⟩
  imodintro
  isplitl [Ha]; · iexact Ha
  isplitr; · iapply hT; iempintro
  isplitl [HO]; · iapply hO; iexact HO
  isplitl [Hx]; · iexact Hx
  iexact Hrest

theorem region_leave (A Rest Ub' O O' Y : sProp 𝕄) (hjoin : iprop(A ∗ Rest) ⊢ Ub') (hO : O ⊢ O') :
    iprop(A ∗ O ∗ Y ∗ Rest) ⊢ |={Set.univ}=> iprop(Ub' ∗ Y ∗ O') := by
  iintro ⟨Ha, HO, HY, Hrest⟩
  imodintro
  isplitl [Ha Hrest]
  · iapply hjoin; isplitl [Ha] <;> iassumption
  isplitl [HY]; · iexact HY
  iapply hO; iexact HO

section Account

variable {cfg : Cfg sig Λ₀} {c : Dev nD} (dat : Dat τ (Elt F) Unit ℕ (UR sig nD τ) ℕ cfg c)

/-- A core owing nothing, whatever pairs it has recorded, holds the pipeline's account before the first point when the first
    tallies are nothing owed and the recorded pairs are not bounded there. -/
theorem account_in (h0 : dat.owed 0 = 0) (hall : ∀ x, x ∈ dat.bound () 0) :
    (iprop(∃ W, owes (c : Thread nD τ) (0 : CellTallies nD τ sig Unit) W) : sProp 𝕄) ⊢ dat.owesAt () 0 := by
  unfold Pipeline.Dat.owesAt Pipeline.owesWithin; rw [h0]
  iintro ⟨%W, HO⟩
  iexists W
  isplitr; · ipureintro; exact fun x _ => hall x
  iexact HO

/-- After the last point, with the last tallies nothing owed, the core owes nothing; the bound on its recorded pairs is
    forgotten. -/
theorem account_out (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin; rw [hN]
  iintro ⟨%W, -, HO⟩
  iexists W; iexact HO

end Account

/-- A pipeline with no prefetched table holds none. -/
theorem no_tables (pre : Pipeline.Prefetch sig) (hK : pre.K = 0) (c : Dev nD) (q : Fin pre.K → PosShare TreeShare)
    (Vt : pre.Contents (Elt F)) : (BI.emp : sProp 𝕄) ⊢ Pipeline.prefHeld pre c q Vt := by
  haveI : IsEmpty (Fin pre.K) := by rw [hK]; infer_instance
  unfold Pipeline.prefHeld; rw [Finset.univ_eq_empty, BI.bigSep_empty]

/-- The class's invariant of a region from the generator register and the scoped buffers no window stages (whatever stands
    for the prefetched tables is dropped), and back, with nothing for the kernel's own semaphores. -/
theorem class_in {gr W : Nat} (win : Fin W → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hr, -, Hs⟩
  isplitl [Hs]; · iexact Hs
  iexact Hr
theorem class_out {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hs, Hr⟩
  isplitl [Hr]; · iexact Hr
  isplitr; · iempintro
  iexact Hs

/-! ## The three regions as items -/

set_option backward.isDefEq.respectTransparency.types false in
/-- The first transform (x times W1): entered with every unscoped buffer at W5, left with them at W6. Its invariant is the
    class's own at every point, so the class's two directions are its way in and out. -/
def transformX : Pipeline.RegionSeg (pcfgs (F := F)) adm (pdats m) () defs₀ Variants.none noPairs lvl0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs lvl0 0 fun _ _ => rfl
  pre c := iprop(StableHlo.held (c : Thread nD τ) (Pipeline.ucRefs τ sig) (W5 m c) ∗ beside c)
  post c := iprop(StableHlo.held (c : Thread nD τ) (Pipeline.ucRefs τ sig) (W6 m c) ∗ beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    exact region_enter _ _ _ _ _ _ _ _ _ hsplit (no_tables _ rfl c _ _) (account_in (pdats m 0 c) rfl fun _ => Or.inl trivial)
  hin c := class_in spec0 c _
  hout c := by
    rw [Pipeline.ownSems0_none]
    exact class_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W6 m c b) ((pdats m 0 c).arrAt · cfg0.N) (leaves0 m c) (keeps0 m c)
    rw [Pipeline.unscopedBufs_held] at hjoin
    exact region_leave _ _ _ _ _ _ hjoin (account_out (pdats m 0 c) rfl)

set_option backward.isDefEq.respectTransparency.types false in
/-- The second transform (the first layer's activations times W2): entered at W8, left at W9, in the same way. -/
def transformH : Pipeline.RegionSeg (pcfgs (F := F)) adm (pdats m) () defs₀ Variants.none noPairs lvl0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs lvl0 1 fun _ _ => rfl
  pre c := iprop(StableHlo.held (c : Thread nD τ) (Pipeline.ucRefs τ sig) (W8 m c) ∗ beside c)
  post c := iprop(StableHlo.held (c : Thread nD τ) (Pipeline.ucRefs τ sig) (W9 m c) ∗ beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    exact region_enter _ _ _ _ _ _ _ _ _ hsplit (no_tables _ rfl c _ _) (account_in (pdats m 1 c) rfl fun _ => Or.inl trivial)
  hin c := class_in spec1 c _
  hout c := by
    rw [Pipeline.ownSems0_none]
    exact class_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W9 m c b) ((pdats m 1 c).arrAt · cfg1.N) (leaves1 m c) (keeps1 m c)
    rw [Pipeline.unscopedBufs_held] at hjoin
    exact region_leave _ _ _ _ _ _ hjoin (account_out (pdats m 1 c) rfl)

set_option backward.isDefEq.respectTransparency.types false in
/-- The pool and head: entered at W12, left at W13, the end of @main. Its invariant is the class's own only before the first
    point; afterwards it carries the scratch at the running sum. So the class's invariant is made first and opens the
    region's, and after the last point the region's gives the class's back. -/
def poolHead : Pipeline.RegionSeg (pcfgs (F := F)) adm (pdats m) () defs₀ Variants.none noPairs lvl0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs lvl0 2 fun _ _ => rfl
  pre c := iprop(StableHlo.held (c : Thread nD τ) (Pipeline.ucRefs τ sig) (W12 m c) ∗ beside c)
  post c := iprop(StableHlo.held (c : Thread nD τ) (Pipeline.ucRefs τ sig) (W13 m c) ∗ beside c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    exact region_enter _ _ _ _ _ _ _ _ _ hsplit (no_tables _ rfl c _ _) (account_in (pdats m 2 c) rfl fun _ => Or.inl trivial)
  hin c := (class_in spec2 c _).trans (hin2 (E2 m) c)
  hout c := by
    rw [Pipeline.ownSems0_none]
    exact (hout2 (E2 m) c).trans (class_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W13 m c b) ((pdats m 2 c).arrAt · cfg2.N) (leaves2 m c) (keeps2 m c)
    rw [Pipeline.unscopedBufs_held] at hjoin
    exact region_leave _ _ _ _ _ _ hjoin (account_out (pdats m 2 c) rfl)

/-- At the end the register is counted with the buffers and the account stands alone. -/
theorem end_regroup (c : Dev nD) :
    (iprop(StableHlo.held (c : Thread nD τ) (Pipeline.ucRefs τ sig) (W13 m c) ∗ beside c) : sProp 𝕄)
      ⊢ iprop(atEnd m c ∗ ∃ W, owes (c : Thread nD τ) (0 : CellTallies nD τ sig Unit) W) := by
  iintro ⟨Hh, Hr, HO⟩
  isplitl [Hh Hr]
  · isplitl [Hh] <;> iassumption
  iexact HO

/-! ## @main as its thirteen items, and the launch -/

/-- @main's items in order: five host stretches, the first transform, two stretches, the second transform, three stretches,
    the pool and head; each stretch from the contents of the boundary before it. -/
abbrev items : List (Pipeline.Seg (pcfgs (F := F)) adm (pdats m) () defs₀ Variants.none noPairs lvl0) :=
  [ .host (stretch hostOps0 hostOps0_sub hostOps0_fresh (V0 m)),
    .host (stretch hostOps0_1 hostOps0_1_sub hostOps0_1_fresh (V1 m)),
    .host (stretch hostOps0_2 hostOps0_2_sub hostOps0_2_fresh (V2 m)),
    .host (stretch hostOps0_3 hostOps0_3_sub hostOps0_3_fresh (V3 m)),
    .host (stretch hostOps0_4 hostOps0_4_sub hostOps0_4_fresh (V4 m)),
    .region (transformX m),
    .host (stretch hostOps1 hostOps1_sub hostOps1_fresh (W6 m)),
    .host (stretch hostOps1_1 hostOps1_1_sub hostOps1_1_fresh (W7 m)),
    .region (transformH m),
    .host (stretch hostOps2 hostOps2_sub hostOps2_fresh (W9 m)),
    .host (stretch hostOps2_1 hostOps2_1_sub hostOps2_1_fresh (W10 m)),
    .host (stretch hostOps2_2 hostOps2_2_sub hostOps2_2_fresh (W11 m)),
    .region (poolHead m) ]

/-- @main is the run of its items: it is the chain of their fragments, and the run of a list of items is that chain. -/
theorem main_items (c : Dev nD) : main (F := F) c = Pipeline.Seg.run (items m) := by
  rewrite [main_chain c, Pipeline.Seg.run_eq_chain,
    show (items m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      StableHlo.seq hostOps1_1,
      Prog.lift (.customCall (Pipeline.entry 1) ()),
      StableHlo.seq hostOps2,
      StableHlo.seq hostOps2_1,
      StableHlo.seq hostOps2_2,
      Prog.lift (.customCall (Pipeline.entry 2) ()) ] from rfl]
  rfl

set_option backward.isDefEq.respectTransparency.types false in
/-- Every fair execution of @main from memory m with zero counters ends, nothing faulting, with every unscoped buffer
    of every core at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ Variants.none noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := atEnd m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, end_regroup m⟩)
    (hinit := by
      refine Pipeline.initEach noPairs lvl0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: every fair execution of @main ends, nothing faulting, with each of the twelve arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = W13 m c b) (fun r h c =>
    ⟨(h c _ (unscoped_held main_arg0 (by decide))).trans (W13_main_arg0 m c),
     (h c _ (unscoped_held main_arg1 (by decide))).trans (W13_main_arg1 m c),
     (h c _ (unscoped_held main_arg2 (by decide))).trans (W13_main_arg2 m c),
     (h c _ (unscoped_held main_arg3 (by decide))).trans (W13_main_arg3 m c),
     (h c _ (unscoped_held main_arg4 (by decide))).trans (W13_main_arg4 m c),
     (h c _ (unscoped_held main_arg5 (by decide))).trans (W13_main_arg5 m c),
     (h c _ (unscoped_held main_arg6 (by decide))).trans (W13_main_arg6 m c),
     (h c _ (unscoped_held main_arg7 (by decide))).trans (W13_main_arg7 m c),
     (h c _ (unscoped_held main_arg8 (by decide))).trans (W13_main_arg8 m c),
     (h c _ (unscoped_held main_arg9 (by decide))).trans (W13_main_arg9 m c),
     (h c _ (unscoped_held main_arg10 (by decide))).trans (W13_main_arg10 m c),
     (h c _ (unscoped_held main_arg11 (by decide))).trans (W13_main_arg11 m c)⟩) (run_named m ρ)

/-- The same run read at the result as well: it ends at what the pool and head's one write-back leaves, and the twelve
    arguments are as launched. -/
theorem run_result : θ_run defs (onTc (τ := τ) (main (F := F))) ⟨m, fun _ => 0, ρ⟩ (fun r => ∀ c : Dev nD,
      r.2.mem ((c.tc : Thread nD τ).loc main_v81) = (dat2 (E2 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = W13 m c b) (fun r h c =>
    ⟨(h c _ (unscoped_held main_v81 (by decide))).trans (W13_result m c),
     (h c _ (unscoped_held main_arg0 (by decide))).trans (W13_main_arg0 m c),
     (h c _ (unscoped_held main_arg1 (by decide))).trans (W13_main_arg1 m c),
     (h c _ (unscoped_held main_arg2 (by decide))).trans (W13_main_arg2 m c),
     (h c _ (unscoped_held main_arg3 (by decide))).trans (W13_main_arg3 m c),
     (h c _ (unscoped_held main_arg4 (by decide))).trans (W13_main_arg4 m c),
     (h c _ (unscoped_held main_arg5 (by decide))).trans (W13_main_arg5 m c),
     (h c _ (unscoped_held main_arg6 (by decide))).trans (W13_main_arg6 m c),
     (h c _ (unscoped_held main_arg7 (by decide))).trans (W13_main_arg7 m c),
     (h c _ (unscoped_held main_arg8 (by decide))).trans (W13_main_arg8 m c),
     (h c _ (unscoped_held main_arg9 (by decide))).trans (W13_main_arg9 m c),
     (h c _ (unscoped_held main_arg10 (by decide))).trans (W13_main_arg10 m c),
     (h c _ (unscoped_held main_arg11 (by decide))).trans (W13_main_arg11 m c)⟩) (run_named m ρ)

end Cert.KernelIdeal.Hand

end
-- ==== Proof.Val.Tiles.lean ====
/-
  The two transform regions, read as values over the extended reals. Region 0 writes back, tile by tile, the product of
  a 10000-row tile of x with W1; the ten tiles cover the 100000 rows, a change of float format is the identity and a
  product into a zero accumulator is the plain sum of products, so the array the region leaves is the whole matrix
  product x W1, entry (r, j) the sum over k of x(r, k) W1(k, j). Region 1 the same with the first layer's activations and W2.
-/
import proofs.«409487_j3324304687518_2_alg».proof.Proof.KI.Region0
import proofs.«409487_j3324304687518_2_alg».proof.Proof.KI.Region1
import proofs.«409487_j3324304687518_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-! # Shared -/

/-- Every load and store of the two bodies starts at row 0, column 0 of its buffer. -/
theorem zeroOffsets : (![0, 0] : Fin 2 → Nat) = fun _ => 0 := funext fun a => by fin_cases a <;> rfl

/-! # Region 0: x W1 -/

/-- The matrix product of a 100000 x 22 array x and a 22 x 64 array w over the extended reals: entry (r, j) is the sum
    over the 22 inner positions k of x(r, k) w(k, j). -/
def wholeProduct0 (x : S100000x22.Idx → EReal) (w : S22x64.Idx → EReal) : S100000x64.Idx → EReal :=
  fun i => ∑ k : Fin 22, x (ix2 (⟨(i 0).val, (i 0).isLt⟩ : Fin 100000) k) * w (ix2 k (⟨(i 1).val, (i 1).isLt⟩ : Fin 64))

/-- The body's one store covers the whole output buffer and its two loads read their whole buffers, so what the body
    leaves is the payload of the tile and the weight as they stand. -/
theorem stored0_eq (x0 : Vec Ideal S10000x22 .f32) (x1 : Vec Ideal S22x64 .f32) : out0_2 x0 x1 = k0_pay1 x0 x1 := by
  unfold out0_2
  rw [View.canon_unit_zero zeroOffsets]
  simp only [View.ld_unit_zero (S := S10000x22) zeroOffsets, View.ld_unit_zero (S := S22x64) zeroOffsets]

/-! ## The tile product's operand positions

The kernel's product contracts axis 1 of the tile with axis 0 of the weight. For output position y and inner position q
the left operand is read at (y's row, q) and the right operand at (q, y's column); one lemma per coordinate. -/

theorem tileLhs0_row (y : S10000x64.Idx) (q : (dot_S10000x22_S22x64_S10000x64_1_0_0_1_n_n).contr.Idx) :
    ((dot_S10000x22_S22x64_S10000x64_1_0_0_1_n_n).lhsIdx y q 0).val = (y 0).val := by
  unfold DotDims.lhsIdx
  rw [dif_neg (show ¬(0 : Fin S10000x22.rank) ∈ (dot_S10000x22_S22x64_S10000x64_1_0_0_1_n_n).lhsBatch by decide),
    dif_pos (show (0 : Fin S10000x22.rank) ∈ (dot_S10000x22_S22x64_S10000x64_1_0_0_1_n_n).lhsNonContracting by decide)]
  rfl
theorem tileLhs0_inner (y : S10000x64.Idx) (q : (dot_S10000x22_S22x64_S10000x64_1_0_0_1_n_n).contr.Idx) :
    ((dot_S10000x22_S22x64_S10000x64_1_0_0_1_n_n).lhsIdx y q 1).val = (q ⟨0, by decide⟩).val :=
  (dot_S10000x22_S22x64_S10000x64_1_0_0_1_n_n).lhsIdx_val_of_single rfl y q
theorem tileRhs0_inner (y : S10000x64.Idx) (q : (dot_S10000x22_S22x64_S10000x64_1_0_0_1_n_n).contr.Idx) :
    ((dot_S10000x22_S22x64_S10000x64_1_0_0_1_n_n).rhsIdx y q 0).val = (q ⟨0, by decide⟩).val :=
  (dot_S10000x22_S22x64_S10000x64_1_0_0_1_n_n).rhsIdx_val_of_single rfl y q
theorem tileRhs0_col (y : S10000x64.Idx) (q : (dot_S10000x22_S22x64_S10000x64_1_0_0_1_n_n).contr.Idx) :
    ((dot_S10000x22_S22x64_S10000x64_1_0_0_1_n_n).rhsIdx y q 1).val = (y 1).val := by
  unfold DotDims.rhsIdx
  rw [dif_neg (show ¬(1 : Fin S22x64.rank) ∈ (dot_S10000x22_S22x64_S10000x64_1_0_0_1_n_n).rhsBatch by decide),
    dif_pos (show (1 : Fin S22x64.rank) ∈ (dot_S10000x22_S22x64_S10000x64_1_0_0_1_n_n).rhsNonContracting by decide)]
  rfl

/-- One entry of the payload over the extended reals. Rounding to bf16 changes nothing there and the accumulator starts
    at zero, so entry y of the tile product is the plain sum over k of x(row of y, k) w(k, column of y). -/
theorem tileProduct0_entry (x : Vec Ideal S10000x22 .f32) (w : Vec Ideal S22x64 .f32) (y : S10000x64.Idx) :
    k0_pay1 (F := Ideal) x w y
      = ∑ k : Fin 22, x (ix2 (⟨(y 0).val, (y 0).isLt⟩ : Fin 10000) k) * w (ix2 k (⟨(y 1).val, (y 1).isLt⟩ : Fin 64)) := by
  unfold k0_pay1
  refine (Ideal.matmul_constant_zero_apply dot_S10000x22_S22x64_S10000x64_1_0_0_1_n_n none _ _ y).trans ?_
  rw [← Equiv.sum_comp (contrEquiv1 dot_S10000x22_S22x64_S10000x64_1_0_0_1_n_n 22 rfl rfl).symm]
  refine Finset.sum_congr rfl fun k _ => ?_
  have hk := contrEquiv1_symm_val dot_S10000x22_S22x64_S10000x64_1_0_0_1_n_n 22 rfl rfl k
  have el : (dot_S10000x22_S22x64_S10000x64_1_0_0_1_n_n).lhsIdx y ((contrEquiv1 dot_S10000x22_S22x64_S10000x64_1_0_0_1_n_n 22 rfl rfl).symm k)
      = ix2 (⟨(y 0).val, (y 0).isLt⟩ : Fin 10000) k := funext fun a => Fin.ext (by
    match a with
    | ⟨0, _⟩ => exact tileLhs0_row _ _
    | ⟨1, _⟩ => exact (tileLhs0_inner _ _).trans hk)
  have er : (dot_S10000x22_S22x64_S10000x64_1_0_0_1_n_n).rhsIdx y ((contrEquiv1 dot_S10000x22_S22x64_S10000x64_1_0_0_1_n_n 22 rfl rfl).symm k)
      = ix2 k (⟨(y 1).val, (y 1).isLt⟩ : Fin 64) := funext fun a => Fin.ext (by
    match a with
    | ⟨0, _⟩ => exact (tileRhs0_inner _ _).trans hk
    | ⟨1, _⟩ => exact tileRhs0_col _ _)
  show x ((dot_S10000x22_S22x64_S10000x64_1_0_0_1_n_n).lhsIdx y _) * w ((dot_S10000x22_S22x64_S10000x64_1_0_0_1_n_n).rhsIdx y _) = _
  rw [el, er]

/-! ## Where the blocks sit in their arrays -/

/-- At grid point t the tile of x and the tile of the output are both block (t, 0) of their arrays, and the weight's
    block is always (0, 0): decided over the ten points. -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's tile of x is row 10000 t + r of x; the columns are the same. -/
theorem xTile0_entry (c : Dev nD) (t : Fin cfg0.N) (y : S10000x22.Idx) (i : S100000x22.Idx)
    (h0 : (i 0).val = t.val * 10000 + (y 0).val) (h1 : (i 1).val = (y 1).val) :
    (iblk0 V c 0 t : Vec Ideal S10000x22 .f32) y = (V c main_arg0 : S100000x22.Idx → EReal) i := by
  obtain ⟨e0, e1, -⟩ := tileIndex0 t
  show V c main_arg0 (((cfg0.win 0).blk t).view.emb y) = V c main_arg0 i
  congr 1
  funext a; apply Fin.ext
  match a with
  | ⟨0, _⟩ => show win0_0.index t (0 : Fin 2) * 10000 + 1 * (y 0).val = (i 0).val; rw [e0, h0]; omega
  | ⟨1, _⟩ => show win0_0.index t (1 : Fin 2) * 22 + 1 * (y 1).val = (i 1).val; rw [e1, h1]; omega

/-- The weight's block at any point is all of W1. -/
theorem weight0_entry (c : Dev nD) (t : Fin cfg0.N) (y : S22x64.Idx) (i : S22x64.Idx)
    (h0 : (i 0).val = (y 0).val) (h1 : (i 1).val = (y 1).val) :
    (iblk0 V c 1 t : Vec Ideal S22x64 .f32) y = (V c main_arg4 : S22x64.Idx → EReal) i := by
  obtain ⟨-, -, e0, e1, -⟩ := tileIndex0 t
  show V c main_arg4 (((cfg0.win 1).blk t).view.emb y) = V c main_arg4 i
  congr 1
  funext a; apply Fin.ext
  match a with
  | ⟨0, _⟩ => show win0_1.index t (0 : Fin 2) * 22 + 1 * (y 0).val = (i 0).val; rw [e0, h0]; omega
  | ⟨1, _⟩ => show win0_1.index t (1 : Fin 2) * 64 + 1 * (y 1).val = (i 1).val; rw [e1, h1]; omega

/-! ## What each point writes back, and the array at the end -/

/-- Point t writes back rows 10000 t … 10000 t + 9999 of the whole product: entry (r, j) of the tile product sums
    x(10000 t + r, k) W1(k, j), which is entry (10000 t + r, j) of x W1. -/
theorem writeBack0 (c : Dev nD) (t : Fin cfg0.N) :
    (dat0 (F := Ideal) V c).flushed 2 t
      = ((cfg0.win 2).blk t).view.read (Elt Ideal) (wholeProduct0 (V c main_arg0) (V c main_arg4)) := by
  show (cfg0.win 2).cut (grid0.coords t) ((dat0 (F := Ideal) V c).after 2 t) = _
  rw [after0_2, stored0_eq]
  obtain ⟨-, -, -, -, e0, e1⟩ := tileIndex0 t
  funext y
  show k0_pay1 (F := Ideal) (iblk0 V c 0 t) (iblk0 V c 1 t) y
      = wholeProduct0 (V c main_arg0) (V c main_arg4) (((cfg0.win 2).blk t).view.emb y)
  refine (tileProduct0_entry (iblk0 V c 0 t) (iblk0 V c 1 t) y).trans ?_
  unfold wholeProduct0
  refine Finset.sum_congr rfl fun k _ => ?_
  have hr : ((((cfg0.win 2).blk t).view.emb y) 0).val = t.val * 10000 + (y 0).val := by
    show win0_2.index t (0 : Fin 2) * 10000 + 1 * (y 0).val = _; rw [e0]; omega
  have hc : ((((cfg0.win 2).blk t).view.emb y) 1).val = (y 1).val := by
    show win0_2.index t (1 : Fin 2) * 64 + 1 * (y 1).val = _; rw [e1]; omega
  have hx := xTile0_entry V c t (ix2 (⟨(y 0).val, (y 0).isLt⟩ : Fin 10000) k)
    (ix2 (⟨((((cfg0.win 2).blk t).view.emb y) 0).val, ((((cfg0.win 2).blk t).view.emb y) 0).isLt⟩ : Fin 100000) k) hr rfl
  have hw := weight0_entry V c t (ix2 k (⟨(y 1).val, (y 1).isLt⟩ : Fin 64))
    (ix2 k (⟨((((cfg0.win 2).blk t).view.emb y) 1).val, ((((cfg0.win 2).blk t).view.emb y) 1).isLt⟩ : Fin 64)) rfl hc
  rw [hx, hw]

/-- An entry of the output array lies in point t's tile exactly when each coordinate lies in the tile's range. -/
theorem mem_tile0 (t : Fin cfg0.N) (i : S100000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Row r of the output is written back by point r / 10000, and every point writes back. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e0, e1⟩ := tileIndex0 t
  refine ⟨t, flush0_2 t, ?_⟩
  rw [mem_tile0]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 64 ≤ (i 1).val ∧ (i 1).val < win0_2.index t (1 : Fin 2) * 64 + 64
    rw [e1]; omega

/-- The ten write-backs together leave the whole product in the output array. -/
theorem array0 (c : Dev nD) :
    (dat0 (F := Ideal) V c).arrAt 2 cfg0.N = wholeProduct0 (V c main_arg0) (V c main_arg4) :=
  (dat0 (F := Ideal) V c).arrAt_eq_of_cover 2 (wholeProduct0 (V c main_arg0) (V c main_arg4)) (fun t _ => writeBack0 V c t) rows_covered0

/-! ## The reference's product is the same sum

The reference contracts the same axes over the whole arrays; its operand positions, coordinate by coordinate. -/

theorem refLhs0_row (i : Cert.ReferenceIdeal.S100000x64.Idx) (q : (Cert.ReferenceIdeal.dot_S100000x22_S22x64_S100000x64_1_0_0_1_n_n).contr.Idx) :
    ((Cert.ReferenceIdeal.dot_S100000x22_S22x64_S100000x64_1_0_0_1_n_n).lhsIdx i q 0).val = (i 0).val := by
  unfold DotDims.lhsIdx
  rw [dif_neg (show ¬(0 : Fin Cert.ReferenceIdeal.S100000x22.rank) ∈ (Cert.ReferenceIdeal.dot_S100000x22_S22x64_S100000x64_1_0_0_1_n_n).lhsBatch by decide),
    dif_pos (show (0 : Fin Cert.ReferenceIdeal.S100000x22.rank) ∈ (Cert.ReferenceIdeal.dot_S100000x22_S22x64_S100000x64_1_0_0_1_n_n).lhsNonContracting by decide)]
  rfl
theorem refLhs0_inner (i : Cert.ReferenceIdeal.S100000x64.Idx) (q : (Cert.ReferenceIdeal.dot_S100000x22_S22x64_S100000x64_1_0_0_1_n_n).contr.Idx) :
    ((Cert.ReferenceIdeal.dot_S100000x22_S22x64_S100000x64_1_0_0_1_n_n).lhsIdx i q 1).val = (q ⟨0, by decide⟩).val :=
  (Cert.ReferenceIdeal.dot_S100000x22_S22x64_S100000x64_1_0_0_1_n_n).lhsIdx_val_of_single rfl i q
theorem refRhs0_inner (i : Cert.ReferenceIdeal.S100000x64.Idx) (q : (Cert.ReferenceIdeal.dot_S100000x22_S22x64_S100000x64_1_0_0_1_n_n).contr.Idx) :
    ((Cert.ReferenceIdeal.dot_S100000x22_S22x64_S100000x64_1_0_0_1_n_n).rhsIdx i q 0).val = (q ⟨0, by decide⟩).val :=
  (Cert.ReferenceIdeal.dot_S100000x22_S22x64_S100000x64_1_0_0_1_n_n).rhsIdx_val_of_single rfl i q
theorem refRhs0_col (i : Cert.ReferenceIdeal.S100000x64.Idx) (q : (Cert.ReferenceIdeal.dot_S100000x22_S22x64_S100000x64_1_0_0_1_n_n).contr.Idx) :
    ((Cert.ReferenceIdeal.dot_S100000x22_S22x64_S100000x64_1_0_0_1_n_n).rhsIdx i q 1).val = (i 1).val := by
  unfold DotDims.rhsIdx
  rw [dif_neg (show ¬(1 : Fin Cert.ReferenceIdeal.S22x64.rank) ∈ (Cert.ReferenceIdeal.dot_S100000x22_S22x64_S100000x64_1_0_0_1_n_n).rhsBatch by decide),
    dif_pos (show (1 : Fin Cert.ReferenceIdeal.S22x64.rank) ∈ (Cert.ReferenceIdeal.dot_S100000x22_S22x64_S100000x64_1_0_0_1_n_n).rhsNonContracting by decide)]
  rfl

/-- Over the extended reals the host's product of the two whole arrays is, entry by entry, the same sum of products. -/
theorem wholeProduct0_eq_dot (x : (⟨Cert.ReferenceIdeal.S100000x22, .f32⟩ : BufTy).Contents (Elt Ideal))
    (w : (⟨Cert.ReferenceIdeal.S22x64, .f32⟩ : BufTy).Contents (Elt Ideal)) :
    wholeProduct0 x w
      = Host.dotGeneral (F := Ideal) (φ₁ := .f32) (φ₂ := .f32) Cert.ReferenceIdeal.dot_S100000x22_S22x64_S100000x64_1_0_0_1_n_n none x w := by
  funext i
  refine Eq.symm ?_
  simp only [Host.dotGeneral]
  rw [Ideal.dotGeneral_apply, ← Equiv.sum_comp (contrEquiv1 Cert.ReferenceIdeal.dot_S100000x22_S22x64_S100000x64_1_0_0_1_n_n 22 rfl rfl).symm]
  unfold wholeProduct0
  refine Finset.sum_congr rfl fun k _ => ?_
  have hk := contrEquiv1_symm_val Cert.ReferenceIdeal.dot_S100000x22_S22x64_S100000x64_1_0_0_1_n_n 22 rfl rfl k
  have el : (Cert.ReferenceIdeal.dot_S100000x22_S22x64_S100000x64_1_0_0_1_n_n).lhsIdx i ((contrEquiv1 Cert.ReferenceIdeal.dot_S100000x22_S22x64_S100000x64_1_0_0_1_n_n 22 rfl rfl).symm k)
      = ix2 (⟨(i 0).val, (i 0).isLt⟩ : Fin 100000) k := funext fun a => Fin.ext (by
    match a with
    | ⟨0, _⟩ => exact refLhs0_row _ _
    | ⟨1, _⟩ => exact (refLhs0_inner _ _).trans hk)
  have er : (Cert.ReferenceIdeal.dot_S100000x22_S22x64_S100000x64_1_0_0_1_n_n).rhsIdx i ((contrEquiv1 Cert.ReferenceIdeal.dot_S100000x22_S22x64_S100000x64_1_0_0_1_n_n 22 rfl rfl).symm k)
      = ix2 k (⟨(i 1).val, (i 1).isLt⟩ : Fin 64) := funext fun a => Fin.ext (by
    match a with
    | ⟨0, _⟩ => exact (refRhs0_inner _ _).trans hk
    | ⟨1, _⟩ => exact refRhs0_col _ _)
  rw [el, er]

/-- The array region 0 leaves is the whole product of its two operands. -/
theorem tiles0 (c : Dev nD) :
    (dat0 (F := Ideal) V c).arrAt 2 cfg0.N
      = Host.dotGeneral (F := Ideal) (φ₁ := .f32) (φ₂ := .f32) Cert.ReferenceIdeal.dot_S100000x22_S22x64_S100000x64_1_0_0_1_n_n none
          (V c main_arg0 : (⟨Cert.ReferenceIdeal.S100000x22, .f32⟩ : BufTy).Contents (Elt Ideal))
          (V c main_arg4 : (⟨Cert.ReferenceIdeal.S22x64, .f32⟩ : BufTy).Contents (Elt Ideal)) :=
  (array0 V c).trans (wholeProduct0_eq_dot (V c main_arg0) (V c main_arg4))

/-! # Region 1: h W2 -/

/-- The matrix product of the 100000 x 64 activations h and the 64 x 64 array w over the extended reals: entry (r, j) is
    the sum over the 64 inner positions k of h(r, k) w(k, j). -/
def wholeProduct1 (h : S100000x64.Idx → EReal) (w : S64x64.Idx → EReal) : S100000x64.Idx → EReal :=
  fun i => ∑ k : Fin 64, h (ix2 (⟨(i 0).val, (i 0).isLt⟩ : Fin 100000) k) * w (ix2 k (⟨(i 1).val, (i 1).isLt⟩ : Fin 64))

/-- As in region 0: one store over the whole output buffer, two loads of whole buffers, so the body leaves the payload of
    the activation tile and the weight. -/
theorem stored1_eq (x0 : Vec Ideal S10000x64 .f32) (x1 : Vec Ideal S64x64 .f32) : out1_2 x0 x1 = k1_pay1 x0 x1 := by
  unfold out1_2
  rw [View.canon_unit_zero zeroOffsets]
  simp only [View.ld_unit_zero (S := S10000x64) zeroOffsets, View.ld_unit_zero (S := S64x64) zeroOffsets]

/-! ## The tile product's operand positions

Axis 1 of the activation tile is contracted with axis 0 of the weight: for output position y and inner position q the
left operand is read at (row of y, q), the right at (q, column of y). -/

theorem tileLhs1_row (y : S10000x64.Idx) (q : (dot_S10000x64_S64x64_S10000x64_1_0_0_1_n_n).contr.Idx) :
    ((dot_S10000x64_S64x64_S10000x64_1_0_0_1_n_n).lhsIdx y q 0).val = (y 0).val := by
  unfold DotDims.lhsIdx
  rw [dif_neg (show ¬(0 : Fin S10000x64.rank) ∈ (dot_S10000x64_S64x64_S10000x64_1_0_0_1_n_n).lhsBatch by decide),
    dif_pos (show (0 : Fin S10000x64.rank) ∈ (dot_S10000x64_S64x64_S10000x64_1_0_0_1_n_n).lhsNonContracting by decide)]
  rfl
theorem tileLhs1_inner (y : S10000x64.Idx) (q : (dot_S10000x64_S64x64_S10000x64_1_0_0_1_n_n).contr.Idx) :
    ((dot_S10000x64_S64x64_S10000x64_1_0_0_1_n_n).lhsIdx y q 1).val = (q ⟨0, by decide⟩).val :=
  (dot_S10000x64_S64x64_S10000x64_1_0_0_1_n_n).lhsIdx_val_of_single rfl y q
theorem tileRhs1_inner (y : S10000x64.Idx) (q : (dot_S10000x64_S64x64_S10000x64_1_0_0_1_n_n).contr.Idx) :
    ((dot_S10000x64_S64x64_S10000x64_1_0_0_1_n_n).rhsIdx y q 0).val = (q ⟨0, by decide⟩).val :=
  (dot_S10000x64_S64x64_S10000x64_1_0_0_1_n_n).rhsIdx_val_of_single rfl y q
theorem tileRhs1_col (y : S10000x64.Idx) (q : (dot_S10000x64_S64x64_S10000x64_1_0_0_1_n_n).contr.Idx) :
    ((dot_S10000x64_S64x64_S10000x64_1_0_0_1_n_n).rhsIdx y q 1).val = (y 1).val := by
  unfold DotDims.rhsIdx
  rw [dif_neg (show ¬(1 : Fin S64x64.rank) ∈ (dot_S10000x64_S64x64_S10000x64_1_0_0_1_n_n).rhsBatch by decide),
    dif_pos (show (1 : Fin S64x64.rank) ∈ (dot_S10000x64_S64x64_S10000x64_1_0_0_1_n_n).rhsNonContracting by decide)]
  rfl

/-- One entry of the second payload over the extended reals. The cast to the same shape is the identity, rounding to
    bf16 changes nothing and the accumulator starts at zero: entry y is the sum over k of h(row of y, k) w(k, column of y). -/
theorem tileProduct1_entry (h : Vec Ideal S10000x64 .f32) (w : Vec Ideal S64x64 .f32) (y : S10000x64.Idx) :
    k1_pay1 (F := Ideal) h w y
      = ∑ k : Fin 64, h (ix2 (⟨(y 0).val, (y 0).isLt⟩ : Fin 10000) k) * w (ix2 k (⟨(y 1).val, (y 1).isLt⟩ : Fin 64)) := by
  unfold k1_pay1
  refine (Ideal.matmul_constant_zero_apply dot_S10000x64_S64x64_S10000x64_1_0_0_1_n_n none _ _ y).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : (dot_S10000x64_S64x64_S10000x64_1_0_0_1_n_n).lhsIdx y ((contrEquiv1 dot_S10000x64_S64x64_S10000x64_1_0_0_1_n_n 64 rfl rfl).symm k)
      = ix2 (⟨(y 0).val, (y 0).isLt⟩ : Fin 10000) k := funext fun a => Fin.ext (by
    match a with
    | ⟨0, _⟩ => exact tileLhs1_row _ _
    | ⟨1, _⟩ => exact (tileLhs1_inner _ _).trans hk)
  have er : (dot_S10000x64_S64x64_S10000x64_1_0_0_1_n_n).rhsIdx y ((contrEquiv1 dot_S10000x64_S64x64_S10000x64_1_0_0_1_n_n 64 rfl rfl).symm k)
      = ix2 k (⟨(y 1).val, (y 1).isLt⟩ : Fin 64) := funext fun a => Fin.ext (by
    match a with
    | ⟨0, _⟩ => exact (tileRhs1_inner _ _).trans hk
    | ⟨1, _⟩ => exact tileRhs1_col _ _)
  show (shapeCast S10000x64 h _) ((dot_S10000x64_S64x64_S10000x64_1_0_0_1_n_n).lhsIdx y _) * w ((dot_S10000x64_S64x64_S10000x64_1_0_0_1_n_n).rhsIdx y _) = _
  rw [shapeCast_self, el, er]

/-! ## Where the blocks sit in their arrays -/

/-- At grid point t the tile of h and the tile of the output are both block (t, 0) of their arrays, and the weight's
    block is always (0, 0): decided over the ten points. -/
theorem tileIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of point t's tile of h is row 10000 t + r of h; the columns are the same. -/
theorem hTile1_entry (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v52 : S100000x64.Idx → EReal) i := by
  obtain ⟨e0, e1, -⟩ := tileIndex1 t
  show V c main_v52 (((cfg1.win 0).blk t).view.emb y) = V c main_v52 i
  congr 1
  funext a; apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The weight's block at any point is all of W2. -/
theorem weight1_entry (c : Dev nD) (t : Fin cfg1.N) (y : S64x64.Idx) (i : S64x64.Idx)
    (h0 : (i 0).val = (y 0).val) (h1 : (i 1).val = (y 1).val) :
    (iblk1 V c 1 t : Vec Ideal S64x64 .f32) y = (V c main_arg6 : S64x64.Idx → EReal) i := by
  obtain ⟨-, -, e0, e1, -⟩ := tileIndex1 t
  show V c main_arg6 (((cfg1.win 1).blk t).view.emb y) = V c main_arg6 i
  congr 1
  funext a; apply Fin.ext
  match a with
  | ⟨0, _⟩ => show win1_1.index t (0 : Fin 2) * 64 + 1 * (y 0).val = (i 0).val; rw [e0, h0]; omega
  | ⟨1, _⟩ => show win1_1.index t (1 : Fin 2) * 64 + 1 * (y 1).val = (i 1).val; rw [e1, h1]; omega

/-! ## What each point writes back, and the array at the end -/

/-- Point t writes back rows 10000 t … 10000 t + 9999 of the whole product: entry (r, j) of the tile product sums
    h(10000 t + r, k) W2(k, j), which is entry (10000 t + r, j) of h W2. -/
theorem writeBack1 (c : Dev nD) (t : Fin cfg1.N) :
    (dat1 (F := Ideal) V c).flushed 2 t
      = ((cfg1.win 2).blk t).view.read (Elt Ideal) (wholeProduct1 (V c main_v52) (V c main_arg6)) := by
  show (cfg1.win 2).cut (grid1.coords t) ((dat1 (F := Ideal) V c).after 2 t) = _
  rw [after1_2, stored1_eq]
  obtain ⟨-, -, -, -, e0, e1⟩ := tileIndex1 t
  funext y
  show k1_pay1 (F := Ideal) (iblk1 V c 0 t) (iblk1 V c 1 t) y
      = wholeProduct1 (V c main_v52) (V c main_arg6) (((cfg1.win 2).blk t).view.emb y)
  refine (tileProduct1_entry (iblk1 V c 0 t) (iblk1 V c 1 t) y).trans ?_
  unfold wholeProduct1
  refine Finset.sum_congr rfl fun k _ => ?_
  have hr : ((((cfg1.win 2).blk t).view.emb y) 0).val = t.val * 10000 + (y 0).val := by
    show win1_2.index t (0 : Fin 2) * 10000 + 1 * (y 0).val = _; rw [e0]; omega
  have hc : ((((cfg1.win 2).blk t).view.emb y) 1).val = (y 1).val := by
    show win1_2.index t (1 : Fin 2) * 64 + 1 * (y 1).val = _; rw [e1]; omega
  have hx := hTile1_entry V c t (ix2 (⟨(y 0).val, (y 0).isLt⟩ : Fin 10000) k)
    (ix2 (⟨((((cfg1.win 2).blk t).view.emb y) 0).val, ((((cfg1.win 2).blk t).view.emb y) 0).isLt⟩ : Fin 100000) k) hr rfl
  have hw := weight1_entry V c t (ix2 k (⟨(y 1).val, (y 1).isLt⟩ : Fin 64))
    (ix2 k (⟨((((cfg1.win 2).blk t).view.emb y) 1).val, ((((cfg1.win 2).blk t).view.emb y) 1).isLt⟩ : Fin 64)) rfl hc
  rw [hx, hw]

/-- An entry of the second output array lies in point t's tile exactly when each coordinate lies in the tile's range. -/
theorem mem_tile1 (t : Fin cfg1.N) (i : S100000x64.Idx) :
    i ∈ ((cfg1.win 2).blk t).view.set
      ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Row r of the second output is written back by point r / 10000, and every point writes back. -/
theorem rows_covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e0, e1⟩ := tileIndex1 t
  refine ⟨t, flush1_2 t, ?_⟩
  rw [mem_tile1]
  intro a
  match a with
  | ⟨0, _⟩ =>
    show win1_2.index t (0 : Fin 2) * 10000 ≤ (i 0).val ∧ (i 0).val < win1_2.index t (0 : Fin 2) * 10000 + 10000
    rw [e0, ht]; omega
  | ⟨1, _⟩ =>
    show win1_2.index t (1 : Fin 2) * 64 ≤ (i 1).val ∧ (i 1).val < win1_2.index t (1 : Fin 2) * 64 + 64
    rw [e1]; omega

/-- The ten write-backs together leave the whole product h W2 in the second output array. -/
theorem array1 (c : Dev nD) :
    (dat1 (F := Ideal) V c).arrAt 2 cfg1.N = wholeProduct1 (V c main_v52) (V c main_arg6) :=
  (dat1 (F := Ideal) V c).arrAt_eq_of_cover 2 (wholeProduct1 (V c main_v52) (V c main_arg6)) (fun t _ => writeBack1 V c t) rows_covered1

/-! ## The reference's second product is the same sum -/

theorem refLhs1_row (i : Cert.ReferenceIdeal.S100000x64.Idx) (q : (Cert.ReferenceIdeal.dot_S100000x64_S64x64_S100000x64_1_0_0_1_n_n).contr.Idx) :
    ((Cert.ReferenceIdeal.dot_S100000x64_S64x64_S100000x64_1_0_0_1_n_n).lhsIdx i q 0).val = (i 0).val := by
  unfold DotDims.lhsIdx
  rw [dif_neg (show ¬(0 : Fin Cert.ReferenceIdeal.S100000x64.rank) ∈ (Cert.ReferenceIdeal.dot_S100000x64_S64x64_S100000x64_1_0_0_1_n_n).lhsBatch by decide),
    dif_pos (show (0 : Fin Cert.ReferenceIdeal.S100000x64.rank) ∈ (Cert.ReferenceIdeal.dot_S100000x64_S64x64_S100000x64_1_0_0_1_n_n).lhsNonContracting by decide)]
  rfl
theorem refLhs1_inner (i : Cert.ReferenceIdeal.S100000x64.Idx) (q : (Cert.ReferenceIdeal.dot_S100000x64_S64x64_S100000x64_1_0_0_1_n_n).contr.Idx) :
    ((Cert.ReferenceIdeal.dot_S100000x64_S64x64_S100000x64_1_0_0_1_n_n).lhsIdx i q 1).val = (q ⟨0, by decide⟩).val :=
  (Cert.ReferenceIdeal.dot_S100000x64_S64x64_S100000x64_1_0_0_1_n_n).lhsIdx_val_of_single rfl i q
theorem refRhs1_inner (i : Cert.ReferenceIdeal.S100000x64.Idx) (q : (Cert.ReferenceIdeal.dot_S100000x64_S64x64_S100000x64_1_0_0_1_n_n).contr.Idx) :
    ((Cert.ReferenceIdeal.dot_S100000x64_S64x64_S100000x64_1_0_0_1_n_n).rhsIdx i q 0).val = (q ⟨0, by decide⟩).val :=
  (Cert.ReferenceIdeal.dot_S100000x64_S64x64_S100000x64_1_0_0_1_n_n).rhsIdx_val_of_single rfl i q
theorem refRhs1_col (i : Cert.ReferenceIdeal.S100000x64.Idx) (q : (Cert.ReferenceIdeal.dot_S100000x64_S64x64_S100000x64_1_0_0_1_n_n).contr.Idx) :
    ((Cert.ReferenceIdeal.dot_S100000x64_S64x64_S100000x64_1_0_0_1_n_n).rhsIdx i q 1).val = (i 1).val := by
  unfold DotDims.rhsIdx
  rw [dif_neg (show ¬(1 : Fin Cert.ReferenceIdeal.S64x64.rank) ∈ (Cert.ReferenceIdeal.dot_S100000x64_S64x64_S100000x64_1_0_0_1_n_n).rhsBatch by decide),
    dif_pos (show (1 : Fin Cert.ReferenceIdeal.S64x64.rank) ∈ (Cert.ReferenceIdeal.dot_S100000x64_S64x64_S100000x64_1_0_0_1_n_n).rhsNonContracting by decide)]
  rfl

/-- Over the extended reals the host's product of the activations and W2 is, entry by entry, the same sum of products. -/
theorem wholeProduct1_eq_dot (h : (⟨Cert.ReferenceIdeal.S100000x64, .f32⟩ : BufTy).Contents (Elt Ideal))
    (w : (⟨Cert.ReferenceIdeal.S64x64, .f32⟩ : BufTy).Contents (Elt Ideal)) :
    wholeProduct1 h w
      = Host.dotGeneral (F := Ideal) (φ₁ := .f32) (φ₂ := .f32) Cert.ReferenceIdeal.dot_S100000x64_S64x64_S100000x64_1_0_0_1_n_n none h w := by
  funext i
  refine Eq.symm ?_
  simp only [Host.dotGeneral]
  rw [Ideal.dotGeneral_apply, ← Equiv.sum_comp (contrEquiv1 Cert.ReferenceIdeal.dot_S100000x64_S64x64_S100000x64_1_0_0_1_n_n 64 rfl rfl).symm]
  unfold wholeProduct1
  refine Finset.sum_congr rfl fun k _ => ?_
  have hk := contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx i ((contrEquiv1 Cert.ReferenceIdeal.dot_S100000x64_S64x64_S100000x64_1_0_0_1_n_n 64 rfl rfl).symm k)
      = ix2 (⟨(i 0).val, (i 0).isLt⟩ : Fin 100000) k := funext fun a => Fin.ext (by
    match a with
    | ⟨0, _⟩ => exact refLhs1_row _ _
    | ⟨1, _⟩ => exact (refLhs1_inner _ _).trans hk)
  have er : (Cert.ReferenceIdeal.dot_S100000x64_S64x64_S100000x64_1_0_0_1_n_n).rhsIdx i ((contrEquiv1 Cert.ReferenceIdeal.dot_S100000x64_S64x64_S100000x64_1_0_0_1_n_n 64 rfl rfl).symm k)
      = ix2 k (⟨(i 1).val, (i 1).isLt⟩ : Fin 64) := funext fun a => Fin.ext (by
    match a with
    | ⟨0, _⟩ => exact (refRhs1_inner _ _).trans hk
    | ⟨1, _⟩ => exact refRhs1_col _ _)
  rw [el, er]

/-- The array region 1 leaves is the whole product of its two operands. -/
theorem tiles1 (c : Dev nD) :
    (dat1 (F := Ideal) V c).arrAt 2 cfg1.N
      = Host.dotGeneral (F := Ideal) (φ₁ := .f32) (φ₂ := .f32) Cert.ReferenceIdeal.dot_S100000x64_S64x64_S100000x64_1_0_0_1_n_n none
          (V c main_v52 : (⟨Cert.ReferenceIdeal.S100000x64, .f32⟩ : BufTy).Contents (Elt Ideal))
          (V c main_arg6 : (⟨Cert.ReferenceIdeal.S64x64, .f32⟩ : BufTy).Contents (Elt Ideal)) :=
  (array1 V c).trans (wholeProduct1_eq_dot (V c main_v52) (V c main_arg6))

end Cert.KernelIdeal.Val

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.Val.PoolSum.lean ====
/-
  The pooled sums of region 2, as sums over nodes. One accumulation adds to entry (g, f) of the 256 x 64 scratch the
  product, summed over the 10000 nodes k of the point's tile, of the one-hot entry (k, g) with feature f of node k. The
  one-hot entry is the bit of "the graph id of k is the word g", widened and converted: the number one or zero. Over the
  extended reals 1 * x = x and 0 * x = 0 for every x, the two infinities included, so the product keeps the features of
  the nodes whose id is g and drops the others. Tile t holds rows 10000 t … 10000 t + 9999 of the two arrays; the reset
  leaves zeros; so by induction over the points the scratch after point n holds, at (g, f), the sum over the tiles 0 … n of
  those kept features, and after the last point the sum over all 100000 nodes. The same sum is what a scatter-add of the
  rows of h at the ids leaves in a zero array: an id reads signed as the number g < 256 exactly when it is the word g.
-/
import proofs.«409487_j3324304687518_2_alg».proof.Proof.KI.Region2
import proofs.«409487_j3324304687518_2_alg».proof.Proof.LibScatterRead
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)
open scoped BigOperators

/-! ## The pooling product's index maps -/

/-- The dimension numbers of the pooling product: both operands contracted over their rows. -/
abbrev Dpool := dot_S10000x256_S10000x64_S256x64_0_0_1_1_n_n

theorem Dpool_lhs0 (j : S256x64.Idx) (k : Dpool.contr.Idx) : (Dpool.lhsIdx j k 0 : ℕ) = k ⟨0, by decide⟩ := by
  simp [DotDims.lhsIdx, Dpool, dot_S10000x256_S10000x64_S256x64_0_0_1_1_n_n]; rfl
theorem Dpool_lhs1 (j : S256x64.Idx) (k : Dpool.contr.Idx) : (Dpool.lhsIdx j k 1 : ℕ) = j 0 := by
  simp [DotDims.lhsIdx, Dpool, dot_S10000x256_S10000x64_S256x64_0_0_1_1_n_n]; rfl
theorem Dpool_rhs0 (j : S256x64.Idx) (k : Dpool.contr.Idx) : (Dpool.rhsIdx j k 0 : ℕ) = k ⟨0, by decide⟩ := by
  simp [DotDims.rhsIdx, Dpool, dot_S10000x256_S10000x64_S256x64_0_0_1_1_n_n]; rfl
theorem Dpool_rhs1 (j : S256x64.Idx) (k : Dpool.contr.Idx) : (Dpool.rhsIdx j k 1 : ℕ) = j 1 := by
  simp [DotDims.rhsIdx, Dpool, dot_S10000x256_S10000x64_S256x64_0_0_1_1_n_n]; rfl

theorem Dpool_rank : Dpool.contr.rank = 1 := by decide
theorem Dpool_size : Dpool.contr.size ⟨0, by decide⟩ = 10000 := by decide

/-- The contraction index of the pooling product is a node of the tile. -/
def nodeOf : Dpool.contr.Idx ≃ Fin 10000 := contrEquiv1 Dpool 10000 Dpool_rank Dpool_size

theorem nodeOf_symm_val (k : Fin 10000) : ((nodeOf.symm k) ⟨0, by decide⟩ : ℕ) = k.val :=
  contrEquiv1_symm_val Dpool 10000 Dpool_rank Dpool_size k

theorem Dpool_lhs (g : Fin 256) (f : Fin 64) (k : Fin 10000) : Dpool.lhsIdx (ix2 g f) (nodeOf.symm k) = ix2 k g :=
  Shape.idx_ext₂ ((Dpool_lhs0 _ _).trans (nodeOf_symm_val k)) (Dpool_lhs1 _ _)
theorem Dpool_rhs (g : Fin 256) (f : Fin 64) (k : Fin 10000) : Dpool.rhsIdx (ix2 g f) (nodeOf.symm k) = ix2 k f :=
  Shape.idx_ext₂ ((Dpool_rhs0 _ _).trans (nodeOf_symm_val k)) (Dpool_rhs1 _ _)

/-! ## The one-hot matrix -/

/-- The bit of an equality of two words, widened and converted, is the number one or zero. -/
theorem eqBit_real (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [if_pos h]
    have e : (IntOp.cmpi .eq x y).setWidth 32 = 1#32 := by simp [IntOp.cmpi, h]
    rw [e]; simp
  · rw [if_neg h]
    have hb : (x == y) = false := beq_eq_false_iff_ne.mpr h
    have e : (IntOp.cmpi .eq x y).setWidth 32 = 0#32 := by simp [IntOp.cmpi, hb]
    rw [e]; simp

/-- Entry (k, g) of the one-hot matrix of a batch tile: one when node k's graph id is the word g, zero otherwise. -/
theorem hot_apply (b : Vec Ideal S10000x1 .i32) (k : Fin 10000) (g : Fin 256) :
    (truncf (F := Ideal) .bf16 (sitofp .f32 (extui 32 (cmpi .eq (broadcastTo S10000x256 b broadcasts_S10000x1_S10000x256)
        (broadcastTo S10000x256 (iota .tc S1x256 32 [1] iota_S1x256_d1_w32) broadcasts_S1x256_S10000x256)) natLt_1_32)) bitsLt_bf16_f32) (ix2 k g)
      = if b (ix2 k (0 : Fin 1)) = BitVec.ofNat 32 g.val then 1 else 0 := by
  rw [truncf_apply, sitofp_apply, extui_apply]
  show FloatOps.sitofp (F := Ideal) .f32 ((IntOp.cmpi .eq (broadcastTo S10000x256 b broadcasts_S10000x1_S10000x256 (ix2 k g))
      (broadcastTo S10000x256 (iota .tc S1x256 32 [1] iota_S1x256_d1_w32) broadcasts_S1x256_S10000x256 (ix2 k g))).setWidth 32) = _
  rw [broadcastTo_apply b broadcasts_S10000x1_S10000x256 (ix2 k g) (ix2 k (0 : Fin 1))
      (fun a => match a with | ⟨0, _⟩ => rfl | ⟨1, _⟩ => rfl),
    broadcastTo_apply (iota .tc S1x256 32 [1] iota_S1x256_d1_w32) broadcasts_S1x256_S10000x256 (ix2 k g) (ix2 (0 : Fin 1) g)
      (fun a => match a with | ⟨0, _⟩ => rfl | ⟨1, _⟩ => rfl),
    iota_single_apply, eqBit_real]

/-! ## One accumulation and the reset, read at an entry -/

theorem step2_apply (h : Vec Ideal S10000x64 .f32) (b : Vec Ideal S10000x1 .i32) (s : Vec Ideal S256x64 .f32) (g : Fin 256) (f : Fin 64) :
    step2 (F := Ideal) h b s (ix2 g f)
      = s (ix2 g f) + ∑ k : Fin 10000, (if b (ix2 k (0 : Fin 1)) = BitVec.ofNat 32 g.val then h (ix2 k f) else 0) := by
  rw [step2_eq]
  unfold k2_pay2
  simp only [shapeCast_self]
  rw [addf_apply]
  simp only [matmul]
  rw [Ideal.matmul_constant_zero_apply, ← Equiv.sum_comp nodeOf.symm]
  congr 1
  refine Finset.sum_congr rfl fun k _ => ?_
  rw [Dpool_lhs, Dpool_rhs, hot_apply, truncf_apply]
  split_ifs
  · exact one_mul _
  · exact zero_mul _

theorem reset2_apply (y : S256x64.Idx) : reset2 (F := Ideal) y = 0 := by
  rw [reset2_eq]
  unfold k2_pay1
  simp only [shapeCast_self]
  exact Ideal.ofBits_zero_f32

/-! ## The tiles of the two row-blocked arrays -/

variable (V : (c : Dev nD) → (b : Ref sig .tc) → Buf (Elt Ideal) ((c : Thread nD τ).loc b))

/-- The second layer's output as the region finds it: 100000 rows of 64 features. -/
abbrev hArr (c : Dev nD) : (⟨S100000x64, .f32⟩ : BufTy).Contents (Elt Ideal) := V c main_v70
/-- The graph id of every node, one word per row. -/
abbrev idArr (c : Dev nD) : (⟨S100000x1, .i32⟩ : BufTy).Contents (Elt Ideal) := V c main_v78

/-- Row k of tile t is row 10000 t + k of the array. -/
def rowOf (t : Fin cfg2.N) (k : Fin 10000) : Fin 100000 :=
  ⟨10000 * t.val + k.val, by have h1 : t.val < 10 := lt_of_lt_of_eq t.isLt N_2; have := k.isLt; omega⟩

theorem index2_0 : ∀ t : Fin grid2.N, win2_0.index t 0 = t.val ∧ win2_0.index t 1 = 0 := by decide +kernel
theorem index2_1 : ∀ t : Fin grid2.N, win2_1.index t 0 = t.val ∧ win2_1.index t 1 = 0 := by decide +kernel

theorem iblk2_h_apply (c : Dev nD) (t : Fin cfg2.N) (k : Fin 10000) (f : Fin 64) :
    (iblk2 (F := Ideal) V c 0 t : Vec Ideal S10000x64 .f32) (ix2 k f) = hArr V c (ix2 (rowOf t k) f) := by
  unfold iblk2
  rw [View.read_apply]
  show V c main_v70 _ = V c main_v70 _
  congr 1
  funext a
  apply Fin.ext
  match a with
  | ⟨0, _⟩ =>
    show win2_0.index t 0 * 10000 + 1 * k.val = 10000 * t.val + k.val
    rw [(index2_0 t).1]; omega
  | ⟨1, _⟩ =>
    show win2_0.index t 1 * 64 + 1 * f.val = f.val
    rw [(index2_0 t).2]; omega

theorem iblk2_b_apply (c : Dev nD) (t : Fin cfg2.N) (k : Fin 10000) :
    (iblk2 (F := Ideal) V c 1 t : Vec Ideal S10000x1 .i32) (ix2 k (0 : Fin 1)) = idArr V c (ix2 (rowOf t k) (0 : Fin 1)) := by
  unfold iblk2
  rw [View.read_apply]
  show V c main_v78 _ = V c main_v78 _
  congr 1
  funext a
  apply Fin.ext
  match a with
  | ⟨0, _⟩ =>
    show win2_1.index t 0 * 10000 + 1 * k.val = 10000 * t.val + k.val
    rw [(index2_1 t).1]; omega
  | ⟨1, _⟩ =>
    show win2_1.index t 1 * 1 + 1 * 0 = 0
    rw [(index2_1 t).2]

/-! ## The scratch after every point: the nodes seen so far, pooled by graph id -/

/-- What node r adds to entry (g, f) of the pooled sums: its feature f when its graph id is the word g, nothing otherwise. -/
def share (c : Dev nD) (g : Fin 256) (f : Fin 64) (r : Fin 100000) : EReal :=
  if idArr V c (ix2 r (0 : Fin 1)) = BitVec.ofNat 32 g.val then hArr V c (ix2 r f) else 0

/-- What the 10000 nodes of tile t add together (nothing for a number past the grid). -/
def tileShare (c : Dev nD) (g : Fin 256) (f : Fin 64) (t : ℕ) : EReal :=
  if ht : t < cfg2.N then ∑ k : Fin 10000, share V c g f (rowOf ⟨t, ht⟩ k) else 0

theorem tileShare_of_lt (c : Dev nD) (g : Fin 256) (f : Fin 64) (t : ℕ) (ht : t < cfg2.N) :
    tileShare V c g f t = ∑ k : Fin 10000, share V c g f (rowOf ⟨t, ht⟩ k) := dif_pos ht

/-- One accumulation over tile t adds that tile's nodes to the entry. -/
theorem step2_tile (c : Dev nD) (g : Fin 256) (f : Fin 64) (t : Fin cfg2.N) (s : Vec Ideal S256x64 .f32) :
    step2 (F := Ideal) (iblk2 V c 0 t) (iblk2 V c 1 t) s (ix2 g f) = s (ix2 g f) + tileShare V c g f t.val := by
  rw [step2_apply, tileShare_of_lt V c g f t.val t.isLt]
  congr 1
  refine Finset.sum_congr rfl fun k _ => ?_
  rw [iblk2_b_apply, iblk2_h_apply]
  rfl

/-- After point n the entry holds what the tiles 0 … n added, in point order onto the zero of the reset. -/
theorem accAt2_apply (c : Dev nD) (g : Fin 256) (f : Fin 64) :
    ∀ (n : ℕ) (hn : n < cfg2.N), accAt2 (F := Ideal) V c n hn (ix2 g f) = ∑ t ∈ Finset.range (n + 1), tileShare V c g f t
  | 0, hn => by
    rw [accAt2_zero, step2_tile, reset2_apply, zero_add, Finset.sum_range_one]
  | n + 1, hn => by
    rw [accAt2_succ, step2_tile, accAt2_apply c g f n, Finset.sum_range_succ _ (n + 1)]

/-- A sum over the 100000 rows, taken tile by tile. -/
theorem sum_rows {M : Type*} [AddCommMonoid M] (p : Fin 100000 → M) :
    ∑ r, p r = ∑ t : Fin 10, ∑ k : Fin 10000, p ⟨10000 * t.val + k.val, by have := t.isLt; have := k.isLt; omega⟩ := by
  rw [← Equiv.sum_comp (finProdFinEquiv.trans (finCongr (by norm_num : 10 * 10000 = 100000))) p, Fintype.sum_prod_type]
  refine Finset.sum_congr rfl fun t _ => Finset.sum_congr rfl fun k _ => congrArg p (Fin.ext ?_)
  simp [finProdFinEquiv]
  omega

/-- THE POOLED SUMS: after the last point entry (g, f) of the scratch is the sum, over all 100000 nodes, of feature f of the
    nodes whose graph id is the word g. Extended-real addition is commutative and associative and 0 * x = 0, 1 * x = x hold
    at the infinities too, so nothing is asked of the values. -/
theorem pooled (c : Dev nD) (g : Fin 256) (f : Fin 64) (h9 : 9 < cfg2.N) :
    accAt2 (F := Ideal) V c 9 h9 (ix2 g f) = ∑ r : Fin 100000, share V c g f r := by
  rw [accAt2_apply, sum_rows, Finset.sum_range]
  refine Finset.sum_congr rfl fun t _ => ?_
  rw [tileShare_of_lt V c g f t.val (lt_of_lt_of_eq t.isLt N_2.symm)]
  rfl

/-! ## The same sums as a scatter-add -/

/-- A 32-bit word read signed is a number g below 2^31 exactly when it is the word g: a negative id, or one past the
    range, is no such word read either way. -/
theorem toInt_eq_iff_eq_ofNat (w : BitVec 32) (g : ℕ) (hg : g < 2 ^ 31) : w.toInt = (g : ℤ) ↔ w = BitVec.ofNat 32 g := by
  have e := BitVec.toInt_eq_toNat_cond w
  have hw := w.isLt
  constructor
  · intro h
    apply BitVec.eq_of_toNat_eq
    rw [BitVec.toNat_ofNat]
    split_ifs at e <;> omega
  · intro h
    subst h
    rw [BitVec.toNat_ofNat] at e
    split_ifs at e <;> omega

/-- A scatter-add of E rows into a matrix of 256 rows, read at entry (g, k): the old entry plus the k-th entries of the rows
    whose index WORD is g. An index that is negative or at least 256 read signed lands nowhere, and is no word g < 256. -/
theorem scatterAdd_rows_words {f E : ℕ} (d : ScatterDims ⟨2, ![256, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![256, f]⟩ .f32) (idx : IVec ⟨2, ![E, 1]⟩ 32) (upd : FVec Ideal ⟨2, ![E, f]⟩ .f32) (g : Fin 256) (k : Fin f) :
    Host.scatterAdd d x idx upd (ix2 g k)
      = x (ix2 g k) + ∑ e : Fin E, (if idx (ix2 e (0 : Fin 1)) = BitVec.ofNat 32 g.val then upd (ix2 e k) else 0) := by
  rw [ScatterRead.scatterAdd_rows_apply d h1 h2 h3 h4, Finset.sum_filter]
  congr 1
  refine Finset.sum_congr rfl fun e _ => ?_
  exact if_congr (toInt_eq_iff_eq_ofNat _ _ (by have := g.isLt; omega)) rfl rfl

end Cert.KernelIdeal.Val

end
-- ==== Proof.Val.PoolHead.lean ====
/-
  The head of region 2 against the reference's tail, over the extended reals and for any contents of the pooling scratch.
  At its last grid point the kernel divides the scratch by the per-graph counts, applies a 64 x 64 dense layer with bias
  and a clamp at zero, then a 64 x 3 dense layer with bias. The reference does the same to its pooled sums with host
  operations. A matrix-unit product into a zero accumulator and a host product are both the plain sum of products, and
  the reshaped operands the kernel is handed (a counts column, two bias rows) spread over the block exactly as the
  reference's broadcasts do, so the two are the same function of the scratch.
-/
import proofs.«409487_j3324304687518_2_alg».proof.Proof.KI.Region2
import proofs.«409487_j3324304687518_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open scoped BigOperators

/-! ## Two general facts over the extended reals -/

/-- A matrix-unit product into a zero accumulator and the host's product with the same dimension numbers are the same
    function when their operands agree entry by entry: both are the plain sum of products over the contracted axis. -/
theorem matmul_zero_eq_dot {sl sr so : Shape} {φ₁ φ₂ ψ₁ ψ₂ : FTy} (D : DotDims sl sr so)
    (a : FVec Ideal sl φ₁) (b : FVec Ideal sr φ₂) (a' : FVec Ideal sl ψ₁) (b' : FVec Ideal sr ψ₂)
    (ha : ∀ i, (a i : EReal) = a' i) (hb : ∀ i, (b i : EReal) = b' i) :
    FloatOps.matmul D none a b (constant (F := Ideal) so .f32 0x00000000#32) = FloatOps.dotGeneral D none .single a' b' := by
  funext y
  rw [Ideal.matmul_constant_zero_apply, Ideal.dotGeneral_apply]
  exact Finset.sum_congr rfl fun k _ => by rw [ha, hb]

/-- A column [a, 1] broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reference's tail from the pooled sums on -/

open Cert.ReferenceIdeal.Read in
/-- The reference's computation after its pooling scatter-add, with the pooled sums as a variable: divide each graph's
    row of sums by that graph's clamped node count, multiply by the first dense weight, add the first bias along the
    rows, clamp at zero from below, multiply by the second dense weight, add the second bias along the rows. -/
def tailFrom (sums : (⟨Cert.ReferenceIdeal.S256x64, .f32⟩ : BufTy).Contents (Elt Ideal))
    (b : (⟨Cert.ReferenceIdeal.S100000, .i32⟩ : BufTy).Contents (Elt Ideal))
    (w1 : (⟨Cert.ReferenceIdeal.S64x64, .f32⟩ : BufTy).Contents (Elt Ideal)) (g1 : (⟨Cert.ReferenceIdeal.S64, .f32⟩ : BufTy).Contents (Elt Ideal))
    (w2 : (⟨Cert.ReferenceIdeal.S64x3, .f32⟩ : BufTy).Contents (Elt Ideal)) (g2 : (⟨Cert.ReferenceIdeal.S3, .f32⟩ : BufTy).Contents (Elt Ideal)) :
    (⟨Cert.ReferenceIdeal.S256x3, .f32⟩ : BufTy).Contents (Elt Ideal) :=
  addf (F := Ideal) (Host.dotGeneral (F := Ideal) (φ₁ := .f32) (φ₂ := .f32) Cert.ReferenceIdeal.dot_S256x64_S64x3_S256x3_1_0_0_1_n_n none
      (maximumf (F := Ideal) (addf (F := Ideal) (Host.dotGeneral (F := Ideal) (φ₁ := .f32) (φ₂ := .f32) Cert.ReferenceIdeal.dot_S256x64_S64x64_S256x64_1_0_0_1_n_n none
          (Host.divf (F := Ideal) sums (val_main_v116 (F := Ideal) b)) w1)
        (val_main_v120 (F := Ideal) g1)) (val_main_call6_v0 (F := Ideal))) w2) (val_main_v125 (F := Ideal) g2)

open Cert.ReferenceIdeal.Read

/-! ## The head's operands are the reference's, entry by entry -/

/-- The mean. The kernel divides the scratch by the counts column spread over the 64 features; the reference divides by
    the clamped counts spread the same way. At (g, k) both divide s(g, k) by graph g's clamped count, given that the
    counts column the kernel is handed holds those counts (hcnt). The kernel's and the host's division are the same
    function over the extended reals. -/
theorem meanOperand_eq (s : FVec Ideal S256x64 .f32) (cnt : FVec Ideal S256x1 .f32)
    (b : (⟨Cert.ReferenceIdeal.S100000, .i32⟩ : BufTy).Contents (Elt Ideal))
    (hc : S256x1.ShapeCasts S256x1) (hb : S256x1.Broadcasts S256x64)
    (hcnt : ∀ g : Fin 256, cnt (ix2 g (0 : Fin 1)) = val_main_v114 (F := Ideal) b (ix1 g)) (i : S256x64.Idx) :
    (divf (F := Ideal) (φ := .f32) s (broadcastTo S256x64 (shapeCast S256x1 cnt hc) hb) i : EReal) = Host.divf (F := Ideal) (φ := .f32) s (val_main_v116 (F := Ideal) b) i := by
  obtain ⟨g, k, rfl⟩ : ∃ (g : Fin 256) (k : Fin 64), i = ix2 g k := ⟨i 0, i 1, eq_ix2 i⟩
  rw [divf_apply]
  unfold Host.divf
  rw [Ideal.hostDivf_def]
  refine congrArg (Ideal.div (s (ix2 g k))) ?_
  rw [shapeCast_self, broadcastTo_a1_ab_apply, hcnt g, val_main_v116_apply, val_main_v115_apply]
  exact congrArg (val_main_v114 (F := Ideal) b) (funext fun a => match a with | ⟨0, _⟩ => rfl)

/-- The first bias. The kernel spreads its 1 x 64 row over the 256 graphs, the reference its 64-vector: at (g, k) both read
    entry k, given that the row holds the vector (hg1). -/
theorem bias1_eq (r1 : Vec Ideal S1x64 .f32) (g1 : (⟨Cert.ReferenceIdeal.S64, .f32⟩ : BufTy).Contents (Elt Ideal))
    (hc : S1x64.ShapeCasts S1x64) (hb : S1x64.Broadcasts S256x64)
    (hg1 : ∀ j : Fin 64, r1 (ix2 (0 : Fin 1) j) = g1 (ix1 j)) (i : S256x64.Idx) :
    (broadcastTo S256x64 (shapeCast S1x64 r1 hc) hb i : EReal) = val_main_v120 (F := Ideal) g1 i := by
  obtain ⟨g, k, rfl⟩ : ∃ (g : Fin 256) (k : Fin 64), i = ix2 g k := ⟨i 0, i 1, eq_ix2 i⟩
  rw [shapeCast_self, broadcastTo_1b_ab_apply, hg1 k, val_main_v120_apply, val_main_v119_apply]
  exact congrArg g1 (funext fun a => match a with | ⟨0, _⟩ => rfl)

/-- The clamp's lower bound: the kernel's splat of the word 0 and the reference's broadcast zero constant are both 0
    at every entry. -/
theorem zeros_eq (i : S256x64.Idx) :
    (broadcast S256x64 (FloatOps.ofBits (F := Ideal) .f32 0x00000000#32) i : EReal) = val_main_call6_v0 (F := Ideal) i := by
  rw [val_main_call6_v0_apply]
  rfl

/-- The second bias: the 1 x 3 row and the 3-vector, spread over the 256 graphs, agree at every (g, j) given hg2. -/
theorem bias2_eq (r2 : Vec Ideal S1x3 .f32) (g2 : (⟨Cert.ReferenceIdeal.S3, .f32⟩ : BufTy).Contents (Elt Ideal))
    (hc : S1x3.ShapeCasts S1x3) (hb : S1x3.Broadcasts S256x3)
    (hg2 : ∀ j : Fin 3, r2 (ix2 (0 : Fin 1) j) = g2 (ix1 j)) (i : S256x3.Idx) :
    (broadcastTo S256x3 (shapeCast S1x3 r2 hc) hb i : EReal) = val_main_v125 (F := Ideal) g2 i := by
  obtain ⟨g, k, rfl⟩ : ∃ (g : Fin 256) (k : Fin 3), i = ix2 g k := ⟨i 0, i 1, eq_ix2 i⟩
  rw [shapeCast_self, broadcastTo_1b_ab_apply, hg2 k, val_main_v125_apply, val_main_v124_apply]
  exact congrArg g2 (funext fun a => match a with | ⟨0, _⟩ => rfl)

/-! ## The head is the tail -/

/-- For any scratch contents s, the block the head stores is the reference's tail of s. Outermost the two sides are a
    sum of a product and a spread bias; the biases agree (bias2_eq); the two products have the same dimension numbers and
    the same right operand, so they agree once their left operands do (matmul_zero_eq_dot); those are the clamps of a
    sum of the first product and the first bias (bias1_eq, zeros_eq), and the first products agree because their left
    operands are the same means (meanOperand_eq). Rounding to bf16 is the identity here. -/
theorem head2_tail (s : Vec Ideal S256x64 .f32) (cnt : Vec Ideal S256x1 .f32) (w1 : Vec Ideal S64x64 .f32) (r1 : Vec Ideal S1x64 .f32)
    (w2 : Vec Ideal S64x3 .f32) (r2 : Vec Ideal S1x3 .f32)
    (b : (⟨Cert.ReferenceIdeal.S100000, .i32⟩ : BufTy).Contents (Elt Ideal))
    (g1 : (⟨Cert.ReferenceIdeal.S64, .f32⟩ : BufTy).Contents (Elt Ideal)) (g2 : (⟨Cert.ReferenceIdeal.S3, .f32⟩ : BufTy).Contents (Elt Ideal))
    (hcnt : ∀ g : Fin 256, cnt (ix2 g (0 : Fin 1)) = val_main_v114 (F := Ideal) b (ix1 g))
    (hg1 : ∀ j : Fin 64, r1 (ix2 (0 : Fin 1) j) = g1 (ix1 j)) (hg2 : ∀ j : Fin 3, r2 (ix2 (0 : Fin 1) j) = g2 (ix1 j)) :
    head2 (F := Ideal) s cnt w1 r1 w2 r2 = tailFrom s b w1 g1 w2 g2 := by
  rw [head2_eq]
  unfold k2_pay3 tailFrom
  refine congrArg₂ (fun (p q : FVec Ideal S256x3 .f32) => addf p q) ?_ (funext fun i => bias2_eq r2 g2 _ _ hg2 i)
  refine matmul_zero_eq_dot _ _ _ _ _ (fun i => ?_) (fun i => rfl)
  refine congrArg₂ (fun p q : EReal => max p q) (congrArg₂ (fun p q : EReal => p + q) ?_ (bias1_eq r1 g1 _ _ hg1 i)) (zeros_eq i)
  exact congrFun (matmul_zero_eq_dot _ _ _ _ _ (meanOperand_eq s cnt b _ _ hcnt) (fun _ => rfl)) i

end Cert.KernelIdeal.Val

end
-- ==== Proof.Val.Pool.lean ====
/-
  The pool and the head, read as values over the extended reals. Across its ten points region 2 adds into a zeroed scratch,
  for each graph id g and feature f, the sum over the point's 10000 nodes n of [batch(n) = g] * h(n, f): a one-hot entry is
  one or zero, so over all ten points entry (g, f) of the scratch is the sum of h(n, f) over the nodes whose graph id is g,
  which is what a scatter-add of the rows of h at the graph ids leaves in a zero array (an id outside 0..255 matches no
  column and, in the scatter, lands nowhere). The last point then divides by the counts, applies the first dense layer, the
  bias and the clamp at zero, the second dense layer and its bias: the same operations as the reference's tail.
-/
import proofs.«409487_j3324304687518_2_alg».proof.Proof.KI.Region2
import proofs.«409487_j3324304687518_2_alg».proof.Proof.Gen.ReferenceIdeal.Read
import proofs.«409487_j3324304687518_2_alg».proof.Proof.LibScatterRead
import proofs.«409487_j3324304687518_2_alg».proof.Proof.Val.PoolSum
import proofs.«409487_j3324304687518_2_alg».proof.Proof.Val.PoolHead
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators
open Idealize.ShloMosaic.Pipeline (Dat Cfg Window)

variable (V : (c : Dev nD) → (b : Ref sig .tc) → Buf (Elt Ideal) ((c : Thread nD τ).loc b))

open Cert.ReferenceIdeal.Read in
/-- The reference's tail as one function of the second layer's output h, the graph ids, and the head's weights and biases:
    pool by scatter-add into zeros, divide by the clamped counts, dense layer, bias, clamp at zero, dense layer, bias. -/
def tailR (h : (⟨Cert.ReferenceIdeal.S100000x64, .f32⟩ : BufTy).Contents (Elt Ideal))
    (b : (⟨Cert.ReferenceIdeal.S100000, .i32⟩ : BufTy).Contents (Elt Ideal))
    (w1 : (⟨Cert.ReferenceIdeal.S64x64, .f32⟩ : BufTy).Contents (Elt Ideal)) (g1 : (⟨Cert.ReferenceIdeal.S64, .f32⟩ : BufTy).Contents (Elt Ideal))
    (w2 : (⟨Cert.ReferenceIdeal.S64x3, .f32⟩ : BufTy).Contents (Elt Ideal)) (g2 : (⟨Cert.ReferenceIdeal.S3, .f32⟩ : BufTy).Contents (Elt Ideal)) :
    (⟨Cert.ReferenceIdeal.S256x3, .f32⟩ : BufTy).Contents (Elt Ideal) :=
  addf (F := Ideal) (Host.dotGeneral (F := Ideal) (φ₁ := .f32) (φ₂ := .f32) Cert.ReferenceIdeal.dot_S256x64_S64x3_S256x3_1_0_0_1_n_n none
      (maximumf (F := Ideal) (addf (F := Ideal) (Host.dotGeneral (F := Ideal) (φ₁ := .f32) (φ₂ := .f32) Cert.ReferenceIdeal.dot_S256x64_S64x64_S256x64_1_0_0_1_n_n none
          (Host.divf (F := Ideal) (Host.scatterAdd (F := Ideal) Cert.ReferenceIdeal.scatter_S256x64_S100000x1_S100000x64_1_0_0_1
              (val_main_v106 (F := Ideal)) (val_main_v107 (F := Ideal) b) h) (val_main_v116 (F := Ideal) b)) w1)
        (val_main_v120 (F := Ideal) g1)) (val_main_call6_v0 (F := Ideal))) w2) (val_main_v125 (F := Ideal) g2)

/-- The reference's result is its tail applied to its second layer's output. -/
theorem val_main_v126_tail
    (x0 : (⟨Cert.ReferenceIdeal.S100000x22, .f32⟩ : BufTy).Contents (Elt Ideal)) (x1 : (⟨Cert.ReferenceIdeal.S2x1200000, .i32⟩ : BufTy).Contents (Elt Ideal))
    (x2 : (⟨Cert.ReferenceIdeal.S1200000, .f32⟩ : BufTy).Contents (Elt Ideal)) (x3 : (⟨Cert.ReferenceIdeal.S100000, .i32⟩ : BufTy).Contents (Elt Ideal))
    (x4 : (⟨Cert.ReferenceIdeal.S22x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x64, .f32⟩ : BufTy).Contents (Elt Ideal)) (x9 : (⟨Cert.ReferenceIdeal.S64, .f32⟩ : BufTy).Contents (Elt Ideal))
    (x10 : (⟨Cert.ReferenceIdeal.S64x3, .f32⟩ : BufTy).Contents (Elt Ideal)) (x11 : (⟨Cert.ReferenceIdeal.S3, .f32⟩ : BufTy).Contents (Elt Ideal)) :
    Cert.ReferenceIdeal.Read.val_main_v126 (F := Ideal) x0 x1 x2 x3 x4 x5 x6 x7 x8 x9 x10 x11
      = tailR (Cert.ReferenceIdeal.Read.val_main_v105 (F := Ideal) x0 x1 x2 x4 x5 x6 x7) x3 x8 x9 x10 x11 := by
  unfold Cert.ReferenceIdeal.Read.val_main_v126 Cert.ReferenceIdeal.Read.val_main_v123 Cert.ReferenceIdeal.Read.val_main_v122
    Cert.ReferenceIdeal.Read.val_main_v121 Cert.ReferenceIdeal.Read.val_main_v118 Cert.ReferenceIdeal.Read.val_main_v117
    Cert.ReferenceIdeal.Read.val_main_v108 tailR
  rfl

/-! ## The operands that are whole arrays, and the array the run leaves -/

theorem index2_2 : ∀ (t : Fin grid2.N) (a : Fin 2), win2_2.index t a = 0 := by decide +kernel
theorem index2_3 : ∀ (t : Fin grid2.N) (a : Fin 2), win2_3.index t a = 0 := by decide +kernel
theorem index2_4 : ∀ (t : Fin grid2.N) (a : Fin 2), win2_4.index t a = 0 := by decide +kernel
theorem index2_5 : ∀ (t : Fin grid2.N) (a : Fin 2), win2_5.index t a = 0 := by decide +kernel
theorem index2_6 : ∀ (t : Fin grid2.N) (a : Fin 2), win2_6.index t a = 0 := by decide +kernel
theorem index2_7 : ∀ (t : Fin grid2.N) (a : Fin 2), win2_7.index t a = 0 := by decide +kernel

/-- The block of the counts at every point is the whole 256 x 1 array. -/
theorem iblk2_cnt (c : Dev nD) (t : Fin cfg2.N) : (iblk2 (F := Ideal) V c 2 t : Vec Ideal S256x1 .f32) = V c main_v77 := by
  have hz : (fun a => win2_2.index t a * main_v77.ty.shape.size a) = fun _ => 0 := funext fun a => by rw [index2_2 t a, Nat.zero_mul]
  exact Memref.read_access_unit_zero (Elt Ideal) main_v77 hz (fun a => by rw [congrFun hz a]; simp) (V c main_v77)
/-- The first dense layer's weight block is the whole 64 x 64 array. -/
theorem iblk2_w1 (c : Dev nD) (t : Fin cfg2.N) : (iblk2 (F := Ideal) V c 3 t : Vec Ideal S64x64 .f32) = V c main_arg8 := by
  have hz : (fun a => win2_3.index t a * main_arg8.ty.shape.size a) = fun _ => 0 := funext fun a => by rw [index2_3 t a, Nat.zero_mul]
  exact Memref.read_access_unit_zero (Elt Ideal) main_arg8 hz (fun a => by rw [congrFun hz a]; simp) (V c main_arg8)
/-- Its bias block is the whole 1 x 64 array. -/
theorem iblk2_r1 (c : Dev nD) (t : Fin cfg2.N) : (iblk2 (F := Ideal) V c 4 t : Vec Ideal S1x64 .f32) = V c main_v79 := by
  have hz : (fun a => win2_4.index t a * main_v79.ty.shape.size a) = fun _ => 0 := funext fun a => by rw [index2_4 t a, Nat.zero_mul]
  exact Memref.read_access_unit_zero (Elt Ideal) main_v79 hz (fun a => by rw [congrFun hz a]; simp) (V c main_v79)
/-- The second dense layer's weight block is the whole 64 x 3 array. -/
theorem iblk2_w2 (c : Dev nD) (t : Fin cfg2.N) : (iblk2 (F := Ideal) V c 5 t : Vec Ideal S64x3 .f32) = V c main_arg10 := by
  have hz : (fun a => win2_5.index t a * main_arg10.ty.shape.size a) = fun _ => 0 := funext fun a => by rw [index2_5 t a, Nat.zero_mul]
  exact Memref.read_access_unit_zero (Elt Ideal) main_arg10 hz (fun a => by rw [congrFun hz a]; simp) (V c main_arg10)
/-- Its bias block is the whole 1 x 3 array. -/
theorem iblk2_r2 (c : Dev nD) (t : Fin cfg2.N) : (iblk2 (F := Ideal) V c 6 t : Vec Ideal S1x3 .f32) = V c main_v80 := by
  have hz : (fun a => win2_6.index t a * main_v80.ty.shape.size a) = fun _ => 0 := funext fun a => by rw [index2_6 t a, Nat.zero_mul]
  exact Memref.read_access_unit_zero (Elt Ideal) main_v80 hz (fun a => by rw [congrFun hz a]; simp) (V c main_v80)

/-- The head's value at the last point, as contents of the result array (its one block is the array). -/
abbrev result2 (c : Dev nD) : Buf (Elt Ideal) ((c : Thread nD τ).loc main_v81) := fin2 (F := Ideal) V c t2_9

/-- The one write-back, at the last point, writes the head's value: the output block read through zero offsets is the array. -/
theorem flushed2_7 (c : Dev nD) (t : Fin cfg2.N) (hf : (cfg2.win 7).flush t = true) :
    (dat2 (F := Ideal) V c).flushed 7 t = ((cfg2.win 7).blk t).view.read (Elt Ideal) (result2 V c) := by
  have hN : grid2.N = 10 := N_2
  have h9 : t.val = 9 := by have := (flush2_7 t).mp hf; have := lt_of_lt_of_eq t.isLt hN; omega
  obtain rfl : t = t2_9 := Fin.ext h9
  show (cfg2.win 7).cut (grid2.coords t2_9) ((dat2 (F := Ideal) V c).after 7 t2_9) = _
  rw [after2_7]
  have hz : (fun a => win2_7.index t2_9 a * main_v81.ty.shape.size a) = fun _ => 0 := funext fun a => by rw [index2_7 t2_9 a, Nat.zero_mul]
  exact (Memref.read_access_unit_zero (Elt Ideal) main_v81 hz (fun a => by rw [congrFun hz a]; simp) (result2 V c)).symm

/-- So the result array ends holding the head's value at the last point: that point's block covers it. -/
theorem final2 (c : Dev nD) : (dat2 (F := Ideal) V c).arrAt 7 cfg2.N = result2 V c :=
  (dat2 (F := Ideal) V c).arrAt_eq_of_cover 7 (result2 V c) (flushed2_7 V c) fun i =>
    ⟨t2_9, (flush2_7 t2_9).mpr rfl, by
      show i ∈ ((View.whole main_v81).slice (win2_7.rect t2_9)).set
      rw [View.set_slice_whole, Rect.mem_set_unit]
      intro a
      have h0 : (i 0 : Nat) < 256 := (i 0).isLt
      have h1 : (i 1 : Nat) < 3 := (i 1).isLt
      match a with
      | ⟨0, _⟩ =>
        show win2_7.index t2_9 0 * win2_7.size 0 ≤ (i 0 : Nat) ∧ (i 0 : Nat) < win2_7.index t2_9 0 * win2_7.size 0 + win2_7.xsize (grid2.coords t2_9) 0
        rw [index2_7 t2_9 0, show win2_7.xsize (grid2.coords t2_9) 0 = 256 from by decide +kernel]; omega
      | ⟨1, _⟩ =>
        show win2_7.index t2_9 1 * win2_7.size 1 ≤ (i 1 : Nat) ∧ (i 1 : Nat) < win2_7.index t2_9 1 * win2_7.size 1 + win2_7.xsize (grid2.coords t2_9) 1
        rw [index2_7 t2_9 1, show win2_7.xsize (grid2.coords t2_9) 1 = 3 from by decide +kernel]; omega⟩

/-! ## The pooled sums are the reference's scatter-add -/

/-- The scratch after the last point is what the reference's scatter-add of the rows of h at the graph ids leaves in zeros. -/
theorem pooled_eq_scatter (c : Dev nD) (b : (⟨Cert.ReferenceIdeal.S100000, .i32⟩ : BufTy).Contents (Elt Ideal))
    (hb : ∀ n : Fin 100000, (V c main_v78 : (⟨Cert.ReferenceIdeal.S100000x1, .i32⟩ : BufTy).Contents (Elt Ideal)) (ValueIdx.ix2 n (0 : Fin 1)) = b (ValueIdx.ix1 n))
    (h9 : 9 < cfg2.N) :
    (accAt2 (F := Ideal) V c 9 h9 : (⟨Cert.ReferenceIdeal.S256x64, .f32⟩ : BufTy).Contents (Elt Ideal))
      = Host.scatterAdd (F := Ideal) (φ := .f32) Cert.ReferenceIdeal.scatter_S256x64_S100000x1_S100000x64_1_0_0_1
          (Cert.ReferenceIdeal.Read.val_main_v106 (F := Ideal)) (Cert.ReferenceIdeal.Read.val_main_v107 (F := Ideal) b)
          (V c main_v70 : (⟨Cert.ReferenceIdeal.S100000x64, .f32⟩ : BufTy).Contents (Elt Ideal)) := by
  funext y
  obtain ⟨g, f, rfl⟩ : ∃ g f, y = ix2 g f := ⟨y 0, y 1, eq_ix2 y⟩
  rw [pooled, scatterAdd_rows_words Cert.ReferenceIdeal.scatter_S256x64_S100000x1_S100000x64_1_0_0_1 rfl rfl rfl rfl,
    Cert.ReferenceIdeal.Read.val_main_v106_apply]
  show _ = Ideal.ofBits .f32 0x00000000#32 + _
  rw [Ideal.ofBits_zero_f32, zero_add]
  refine Finset.sum_congr rfl fun r _ => ?_
  unfold share
  rw [Cert.ReferenceIdeal.Read.val_main_v107_apply]
  have e : Cert.ReferenceIdeal.Read.idx_main_v107 (ix2 r (0 : Fin 1)) = ix1 r := funext fun a => match a with | ⟨0, _⟩ => rfl
  rw [e, ← hb r]

/-- The array region 2 leaves in the result buffer is the reference's tail of the region's operands, when the four
    reshaped operands the host prepared hold, entry by entry, the graph ids, the clamped counts and the two biases. -/
theorem pool2 (c : Dev nD)
    (b : (⟨Cert.ReferenceIdeal.S100000, .i32⟩ : BufTy).Contents (Elt Ideal))
    (g1 : (⟨Cert.ReferenceIdeal.S64, .f32⟩ : BufTy).Contents (Elt Ideal)) (g2 : (⟨Cert.ReferenceIdeal.S3, .f32⟩ : BufTy).Contents (Elt Ideal))
    (hb : ∀ n : Fin 100000, (V c main_v78 : (⟨Cert.ReferenceIdeal.S100000x1, .i32⟩ : BufTy).Contents (Elt Ideal)) (ValueIdx.ix2 n (0 : Fin 1)) = b (ValueIdx.ix1 n))
    (hcnt : ∀ g : Fin 256, (V c main_v77 : (⟨Cert.ReferenceIdeal.S256x1, .f32⟩ : BufTy).Contents (Elt Ideal)) (ValueIdx.ix2 g (0 : Fin 1))
        = Cert.ReferenceIdeal.Read.val_main_v114 (F := Ideal) b (ValueIdx.ix1 g))
    (hg1 : ∀ j : Fin 64, (V c main_v79 : (⟨Cert.ReferenceIdeal.S1x64, .f32⟩ : BufTy).Contents (Elt Ideal)) (ValueIdx.ix2 (0 : Fin 1) j) = g1 (ValueIdx.ix1 j))
    (hg2 : ∀ j : Fin 3, (V c main_v80 : (⟨Cert.ReferenceIdeal.S1x3, .f32⟩ : BufTy).Contents (Elt Ideal)) (ValueIdx.ix2 (0 : Fin 1) j) = g2 (ValueIdx.ix1 j)) :
    (dat2 (F := Ideal) V c).arrAt 7 cfg2.N
      = tailR (V c main_v70 : (⟨Cert.ReferenceIdeal.S100000x64, .f32⟩ : BufTy).Contents (Elt Ideal)) b
          (V c main_arg8 : (⟨Cert.ReferenceIdeal.S64x64, .f32⟩ : BufTy).Contents (Elt Ideal)) g1
          (V c main_arg10 : (⟨Cert.ReferenceIdeal.S64x3, .f32⟩ : BufTy).Contents (Elt Ideal)) g2 := by
  have e9 : accAt2 (F := Ideal) V c t2_9.val t2_9.isLt = _ := pooled_eq_scatter V c b hb t2_9.isLt
  rw [final2]
  show fin2 (F := Ideal) V c t2_9 = _
  unfold fin2
  rw [iblk2_cnt, iblk2_w1, iblk2_r1, iblk2_w2, iblk2_r2,
    head2_tail _ (V c main_v77) (V c main_arg8) (V c main_v79) (V c main_arg10) (V c main_v80) b g1 g2 hcnt hg1 hg2, e9]
  rfl

end Cert.KernelIdeal.Val

end
-- ==== Proof.Val.RefCopies.lean ====
/-
  The reference prepares the graph twice, once for each of its two layers: it appends the self loops to both rows of the
  edge list and ones to the edge weights, sums the weights at their target ends into the weighted degrees, takes the
  reciprocal square root of the positive degrees, and multiplies each edge's weight by that factor at both of its ends. The
  second preparation reads the same two arguments (the edge list and the edge weights) through the same operations with the
  same constants, so each of its stages is the first preparation's stage, as a function of those arguments. Proved stage by
  stage: each stage's definition is opened once on either side and the earlier stages are rewritten; no operation is opened.
-/
import proofs.«409487_j3324304687518_2_alg».proof.Proof.Gen.ReferenceIdeal.Read

noncomputable section

namespace Cert.KernelIdeal.Val

open Idealize.ShloMosaic Idealize.ShloMosaic.TcCoe Idealize.SL.Sem
open Cert.ReferenceIdeal.Read

section AnyFloat

variable {F : FTy → Type} [FloatOps F]

/-! ## The scalar constants of the second preparation are the first's -/

theorem copy_cst_11 : val_main_cst_11 (F := F) = val_main_cst (F := F) := by
  unfold val_main_cst_11 val_main_cst; rfl
theorem copy_cst_12 : val_main_cst_12 (F := F) = val_main_cst_0 (F := F) := by
  unfold val_main_cst_12 val_main_cst_0; rfl
theorem copy_cst_13 : val_main_cst_13 (F := F) = val_main_cst_1 (F := F) := by
  unfold val_main_cst_13 val_main_cst_1; rfl
theorem copy_cst_14 : val_main_cst_14 (F := F) = val_main_cst_2 (F := F) := by
  unfold val_main_cst_14 val_main_cst_2; rfl
theorem copy_cst_15 : val_main_cst_15 (F := F) = val_main_cst_3 (F := F) := by
  unfold val_main_cst_15 val_main_cst_3; rfl
theorem copy_cst_16 : val_main_cst_16 (F := F) = val_main_cst_4 (F := F) := by
  unfold val_main_cst_16 val_main_cst_4; rfl
theorem copy_c_17 : val_main_c_17 (F := F) = val_main_c (F := F) := by
  unfold val_main_c_17 val_main_c; rfl
theorem copy_c_18 : val_main_c_18 (F := F) = val_main_c_5 (F := F) := by
  unfold val_main_c_18 val_main_c_5; rfl
theorem copy_c_19 : val_main_c_19 (F := F) = val_main_c_6 (F := F) := by
  unfold val_main_c_19 val_main_c_6; rfl
theorem copy_c_20 : val_main_c_20 (F := F) = val_main_c_7 (F := F) := by
  unfold val_main_c_20 val_main_c_7; rfl
theorem copy_call3_v0 : val_main_call3_v0 (F := F) = val_main_call0_v0 (F := F) := by
  unfold val_main_call3_v0 val_main_call0_v0; rw [copy_cst_14]
theorem copy_call3_v1 : val_main_call3_v1 (F := F) = val_main_call0_v1 (F := F) := by
  unfold val_main_call3_v1 val_main_call0_v1; rw [copy_call3_v0]
theorem copy_call4_v0 : val_main_call4_v0 (F := F) = val_main_call1_v0 (F := F) := by
  unfold val_main_call4_v0 val_main_call1_v0; rw [copy_cst_16]
theorem copy_call4_v1 : val_main_call4_v1 (F := F) = val_main_call1_v1 (F := F) := by
  unfold val_main_call4_v1 val_main_call1_v1; rw [copy_call4_v0]

/-! ## Stage by stage -/

/-- The node numbers 0 … 99999, which serve as both ends of the self loops. -/
theorem copy_v53 :
    val_main_v53 (F := F) = val_main_v0 (F := F) := by
  unfold val_main_v53 val_main_v0; rfl
/-- The first row of the edge list (the source ends), as a 1 x 1200000 slice. -/
theorem copy_v54 (x1 : (⟨Cert.ReferenceIdeal.S2x1200000, .i32⟩ : BufTy).Contents (Elt F)) :
    val_main_v54 (F := F) x1 = val_main_v1 (F := F) x1 := by
  unfold val_main_v54 val_main_v1; rfl
/-- The source ends as a flat list. -/
theorem copy_v55 (x1 : (⟨Cert.ReferenceIdeal.S2x1200000, .i32⟩ : BufTy).Contents (Elt F)) :
    val_main_v55 (F := F) x1 = val_main_v2 (F := F) x1 := by
  unfold val_main_v55 val_main_v2; rw [copy_v54]
/-- The source ends with the self loops appended. -/
theorem copy_v56 (x1 : (⟨Cert.ReferenceIdeal.S2x1200000, .i32⟩ : BufTy).Contents (Elt F)) :
    val_main_v56 (F := F) x1 = val_main_v3 (F := F) x1 := by
  unfold val_main_v56 val_main_v3; rw [copy_v55, copy_v53]
/-- The second row of the edge list (the target ends), as a slice. -/
theorem copy_v57 (x1 : (⟨Cert.ReferenceIdeal.S2x1200000, .i32⟩ : BufTy).Contents (Elt F)) :
    val_main_v57 (F := F) x1 = val_main_v4 (F := F) x1 := by
  unfold val_main_v57 val_main_v4; rfl
/-- The target ends as a flat list. -/
theorem copy_v58 (x1 : (⟨Cert.ReferenceIdeal.S2x1200000, .i32⟩ : BufTy).Contents (Elt F)) :
    val_main_v58 (F := F) x1 = val_main_v5 (F := F) x1 := by
  unfold val_main_v58 val_main_v5; rw [copy_v57]
/-- The target ends with the self loops appended. -/
theorem copy_v59 (x1 : (⟨Cert.ReferenceIdeal.S2x1200000, .i32⟩ : BufTy).Contents (Elt F)) :
    val_main_v59 (F := F) x1 = val_main_v6 (F := F) x1 := by
  unfold val_main_v59 val_main_v6; rw [copy_v58, copy_v53]
/-- The self loops' weights: ones. -/
theorem copy_v60 :
    val_main_v60 (F := F) = val_main_v7 (F := F) := by
  unfold val_main_v60 val_main_v7; rw [copy_cst_11]
/-- The edge weights with the self loops' ones appended. -/
theorem copy_v61 (x2 : (⟨Cert.ReferenceIdeal.S1200000, .f32⟩ : BufTy).Contents (Elt F)) :
    val_main_v61 (F := F) x2 = val_main_v8 (F := F) x2 := by
  unfold val_main_v61 val_main_v8; rw [copy_v60]
/-- The zeros the degrees are summed into. -/
theorem copy_v62 :
    val_main_v62 (F := F) = val_main_v9 (F := F) := by
  unfold val_main_v62 val_main_v9; rw [copy_cst_12]
/-- The target ends as a column of scatter indices. -/
theorem copy_v63 (x1 : (⟨Cert.ReferenceIdeal.S2x1200000, .i32⟩ : BufTy).Contents (Elt F)) :
    val_main_v63 (F := F) x1 = val_main_v10 (F := F) x1 := by
  unfold val_main_v63 val_main_v10; rw [copy_v59]
/-- The weighted degree of every node: the edge weights summed at their target ends. -/
theorem copy_v64 (x1 : (⟨Cert.ReferenceIdeal.S2x1200000, .i32⟩ : BufTy).Contents (Elt F)) (x2 : (⟨Cert.ReferenceIdeal.S1200000, .f32⟩ : BufTy).Contents (Elt F)) :
    val_main_v64 (F := F) x1 x2 = val_main_v11 (F := F) x1 x2 := by
  unfold val_main_v64 val_main_v11; rw [copy_v62, copy_v63, copy_v61]
/-- The zeros the degree is compared with. -/
theorem copy_v65 :
    val_main_v65 (F := F) = val_main_v12 (F := F) := by
  unfold val_main_v65 val_main_v12; rw [copy_cst_13]
/-- Where the degree is positive. -/
theorem copy_v66 (x1 : (⟨Cert.ReferenceIdeal.S2x1200000, .i32⟩ : BufTy).Contents (Elt F)) (x2 : (⟨Cert.ReferenceIdeal.S1200000, .f32⟩ : BufTy).Contents (Elt F)) :
    val_main_v66 (F := F) x1 x2 = val_main_v13 (F := F) x1 x2 := by
  unfold val_main_v66 val_main_v13; rw [copy_v64, copy_v65]
/-- The degree, replaced by one where it is not positive. -/
theorem copy_v67 (x1 : (⟨Cert.ReferenceIdeal.S2x1200000, .i32⟩ : BufTy).Contents (Elt F)) (x2 : (⟨Cert.ReferenceIdeal.S1200000, .f32⟩ : BufTy).Contents (Elt F)) :
    val_main_v67 (F := F) x1 x2 = val_main_v14 (F := F) x1 x2 := by
  unfold val_main_v67 val_main_v14; rw [copy_v66, copy_v64, copy_call3_v1]
/-- The zeros of the second comparison. -/
theorem copy_v68 :
    val_main_v68 (F := F) = val_main_v15 (F := F) := by
  unfold val_main_v68 val_main_v15; rw [copy_cst_15]
/-- Where the degree is positive (second comparison). -/
theorem copy_v69 (x1 : (⟨Cert.ReferenceIdeal.S2x1200000, .i32⟩ : BufTy).Contents (Elt F)) (x2 : (⟨Cert.ReferenceIdeal.S1200000, .f32⟩ : BufTy).Contents (Elt F)) :
    val_main_v69 (F := F) x1 x2 = val_main_v16 (F := F) x1 x2 := by
  unfold val_main_v69 val_main_v16; rw [copy_v64, copy_v68]
/-- The reciprocal square root of the guarded degree. -/
theorem copy_v70 (x1 : (⟨Cert.ReferenceIdeal.S2x1200000, .i32⟩ : BufTy).Contents (Elt F)) (x2 : (⟨Cert.ReferenceIdeal.S1200000, .f32⟩ : BufTy).Contents (Elt F)) :
    val_main_v70 (F := F) x1 x2 = val_main_v17 (F := F) x1 x2 := by
  unfold val_main_v70 val_main_v17; rw [copy_v67]
/-- The reciprocal square root of the degree, zero where the degree is not positive. -/
theorem copy_v71 (x1 : (⟨Cert.ReferenceIdeal.S2x1200000, .i32⟩ : BufTy).Contents (Elt F)) (x2 : (⟨Cert.ReferenceIdeal.S1200000, .f32⟩ : BufTy).Contents (Elt F)) :
    val_main_v71 (F := F) x1 x2 = val_main_v18 (F := F) x1 x2 := by
  unfold val_main_v71 val_main_v18; rw [copy_v69, copy_v70, copy_call4_v1]
/-- The zeros the source ends are compared with. -/
theorem copy_v72 :
    val_main_v72 (F := F) = val_main_v19 (F := F) := by
  unfold val_main_v72 val_main_v19; rw [copy_c_17]
/-- Where a source end is negative. -/
theorem copy_v73 (x1 : (⟨Cert.ReferenceIdeal.S2x1200000, .i32⟩ : BufTy).Contents (Elt F)) :
    val_main_v73 (F := F) x1 = val_main_v20 (F := F) x1 := by
  unfold val_main_v73 val_main_v20; rw [copy_v56, copy_v72]
/-- The node count, added to a negative index. -/
theorem copy_v74 :
    val_main_v74 (F := F) = val_main_v21 (F := F) := by
  unfold val_main_v74 val_main_v21; rw [copy_c_18]
/-- The source ends shifted by the node count. -/
theorem copy_v75 (x1 : (⟨Cert.ReferenceIdeal.S2x1200000, .i32⟩ : BufTy).Contents (Elt F)) :
    val_main_v75 (F := F) x1 = val_main_v22 (F := F) x1 := by
  unfold val_main_v75 val_main_v22; rw [copy_v56, copy_v74]
/-- The source ends with negative ones wrapped around. -/
theorem copy_v76 (x1 : (⟨Cert.ReferenceIdeal.S2x1200000, .i32⟩ : BufTy).Contents (Elt F)) :
    val_main_v76 (F := F) x1 = val_main_v23 (F := F) x1 := by
  unfold val_main_v76 val_main_v23; rw [copy_v73, copy_v75, copy_v56]
/-- The wrapped source ends as a column of gather indices. -/
theorem copy_v77 (x1 : (⟨Cert.ReferenceIdeal.S2x1200000, .i32⟩ : BufTy).Contents (Elt F)) :
    val_main_v77 (F := F) x1 = val_main_v24 (F := F) x1 := by
  unfold val_main_v77 val_main_v24; rw [copy_v76]
/-- The degree factor at every edge's source end. -/
theorem copy_v78 (x1 : (⟨Cert.ReferenceIdeal.S2x1200000, .i32⟩ : BufTy).Contents (Elt F)) (x2 : (⟨Cert.ReferenceIdeal.S1200000, .f32⟩ : BufTy).Contents (Elt F)) :
    val_main_v78 (F := F) x1 x2 = val_main_v25 (F := F) x1 x2 := by
  unfold val_main_v78 val_main_v25; rw [copy_v71, copy_v77]
/-- That factor times the edge's weight. -/
theorem copy_v79 (x1 : (⟨Cert.ReferenceIdeal.S2x1200000, .i32⟩ : BufTy).Contents (Elt F)) (x2 : (⟨Cert.ReferenceIdeal.S1200000, .f32⟩ : BufTy).Contents (Elt F)) :
    val_main_v79 (F := F) x1 x2 = val_main_v26 (F := F) x1 x2 := by
  unfold val_main_v79 val_main_v26; rw [copy_v78, copy_v61]
/-- The zeros the target ends are compared with. -/
theorem copy_v80 :
    val_main_v80 (F := F) = val_main_v27 (F := F) := by
  unfold val_main_v80 val_main_v27; rw [copy_c_19]
/-- Where a target end is negative. -/
theorem copy_v81 (x1 : (⟨Cert.ReferenceIdeal.S2x1200000, .i32⟩ : BufTy).Contents (Elt F)) :
    val_main_v81 (F := F) x1 = val_main_v28 (F := F) x1 := by
  unfold val_main_v81 val_main_v28; rw [copy_v59, copy_v80]
/-- The node count again. -/
theorem copy_v82 :
    val_main_v82 (F := F) = val_main_v29 (F := F) := by
  unfold val_main_v82 val_main_v29; rw [copy_c_20]
/-- The target ends shifted by the node count. -/
theorem copy_v83 (x1 : (⟨Cert.ReferenceIdeal.S2x1200000, .i32⟩ : BufTy).Contents (Elt F)) :
    val_main_v83 (F := F) x1 = val_main_v30 (F := F) x1 := by
  unfold val_main_v83 val_main_v30; rw [copy_v59, copy_v82]
/-- The target ends with negative ones wrapped around. -/
theorem copy_v84 (x1 : (⟨Cert.ReferenceIdeal.S2x1200000, .i32⟩ : BufTy).Contents (Elt F)) :
    val_main_v84 (F := F) x1 = val_main_v31 (F := F) x1 := by
  unfold val_main_v84 val_main_v31; rw [copy_v81, copy_v83, copy_v59]
/-- The wrapped target ends as a column of gather indices. -/
theorem copy_v85 (x1 : (⟨Cert.ReferenceIdeal.S2x1200000, .i32⟩ : BufTy).Contents (Elt F)) :
    val_main_v85 (F := F) x1 = val_main_v32 (F := F) x1 := by
  unfold val_main_v85 val_main_v32; rw [copy_v84]
/-- The degree factor at every edge's target end. -/
theorem copy_v86 (x1 : (⟨Cert.ReferenceIdeal.S2x1200000, .i32⟩ : BufTy).Contents (Elt F)) (x2 : (⟨Cert.ReferenceIdeal.S1200000, .f32⟩ : BufTy).Contents (Elt F)) :
    val_main_v86 (F := F) x1 x2 = val_main_v33 (F := F) x1 x2 := by
  unfold val_main_v86 val_main_v33; rw [copy_v71, copy_v85]
/-- The symmetric normalisation of every edge: source factor times weight times target factor. -/
theorem copy_v87 (x1 : (⟨Cert.ReferenceIdeal.S2x1200000, .i32⟩ : BufTy).Contents (Elt F)) (x2 : (⟨Cert.ReferenceIdeal.S1200000, .f32⟩ : BufTy).Contents (Elt F)) :
    val_main_v87 (F := F) x1 x2 = val_main_v34 (F := F) x1 x2 := by
  unfold val_main_v87 val_main_v34; rw [copy_v79, copy_v86]

end AnyFloat

/-! ## The three stages the kernel's single preparation is compared with, over the extended reals -/

/-- The source ends with the self loops: the second layer's list is the first layer's. -/
theorem row_copy (x1 : (⟨Cert.ReferenceIdeal.S2x1200000, .i32⟩ : BufTy).Contents (Elt Ideal)) :
    val_main_v56 (F := Ideal) x1 = val_main_v3 (F := Ideal) x1 := copy_v56 x1

/-- The target ends with the self loops likewise. -/
theorem col_copy (x1 : (⟨Cert.ReferenceIdeal.S2x1200000, .i32⟩ : BufTy).Contents (Elt Ideal)) :
    val_main_v59 (F := Ideal) x1 = val_main_v6 (F := Ideal) x1 := copy_v59 x1

/-- The edges' symmetric normalisation: the second layer's is the first layer's. -/
theorem norm_copy (x1 : (⟨Cert.ReferenceIdeal.S2x1200000, .i32⟩ : BufTy).Contents (Elt Ideal))
    (x2 : (⟨Cert.ReferenceIdeal.S1200000, .f32⟩ : BufTy).Contents (Elt Ideal)) :
    val_main_v87 (F := Ideal) x1 x2 = val_main_v34 (F := Ideal) x1 x2 := copy_v87 x1 x2

end Cert.KernelIdeal.Val

end
-- ==== Proof.Val.PoolHyps.lean ====
/-
  What the last host stretch hands region 2, read entry by entry from the launch memory. Before the pool and the head the
  host reshapes the graph ids to a column, counts the nodes of every graph (ones added up at the ids into 256 zeros),
  clamps the counts at one and reshapes them to a column, and reshapes the head's two biases to rows. These four buffers
  are written from three arguments only (the graph ids and the two biases), and no earlier stretch or region writes those
  arguments, so each buffer is a layout change of launch contents: entry (n, 0) of the id column is node n's id, entry
  (g, 0) of the count column is the reference's clamped count of graph g, entry (0, j) of a bias row is the bias at j.
-/
import proofs.«409487_j3324304687518_2_alg».proof.Proof.KI.Run
import proofs.«409487_j3324304687518_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## Walking an argument back to the launch -/

/-- A buffer that none of the first seven host stretches writes and that regions 0 and 1 leave as they found it holds,
    after region 1, what it was launched with. -/
theorem W9_launch (r : Ref sig .tc)
    (hR1 : W9 m c (Proc.devRef .tc r) = W8 m c (Proc.devRef .tc r))
    (hR0 : W6 m c (Proc.devRef .tc r) = W5 m c (Proc.devRef .tc r))
    (h0 : r ∉ hostOps0_W) (h1 : r ∉ hostOps0_1_W) (h2 : r ∉ hostOps0_2_W) (h3 : r ∉ hostOps0_3_W) (h4 : r ∉ hostOps0_4_W)
    (h6 : r ∉ hostOps1_W) (h7 : r ∉ hostOps1_1_W) :
    W9 m c (Proc.devRef .tc r) = m ((c : Thread nD τ).loc r) :=
  calc W9 m c (Proc.devRef .tc r)
    _ = W8 m c (Proc.devRef .tc r) := hR1
    _ = W7 m c (Proc.devRef .tc r) := StableHlo.after_of_writes_sub hostOps1_1 _ hostOps1_1_writes h7
    _ = W6 m c (Proc.devRef .tc r) := StableHlo.after_of_writes_sub hostOps1 _ hostOps1_writes h6
    _ = W5 m c (Proc.devRef .tc r) := hR0
    _ = m ((c : Thread nD τ).loc r) := W5_launch m c r h0 h1 h2 h3 h4

/-- The graph ids, the first head bias and the second head bias are arguments no region stages and no stretch writes. -/
theorem W9_arg3 : W9 m c (Proc.devRef .tc main_arg3) = m ((c : Thread nD τ).loc main_arg3) :=
  W9_launch m c main_arg3 (W9_of_ne m c _ (by decide)) (W6_of_ne m c _ (by decide))
    (by decide) (by decide) (by decide) (by decide) (by decide) (by decide) (by decide)
theorem W9_arg9 : W9 m c (Proc.devRef .tc main_arg9) = m ((c : Thread nD τ).loc main_arg9) :=
  W9_launch m c main_arg9 (W9_of_ne m c _ (by decide)) (W6_of_ne m c _ (by decide))
    (by decide) (by decide) (by decide) (by decide) (by decide) (by decide) (by decide)
theorem W9_arg11 : W9 m c (Proc.devRef .tc main_arg11) = m ((c : Thread nD τ).loc main_arg11) :=
  W9_launch m c main_arg11 (W9_of_ne m c _ (by decide)) (W6_of_ne m c _ (by decide))
    (by decide) (by decide) (by decide) (by decide) (by decide) (by decide) (by decide)

/-! ## A vector recast as a column -/

/-- A vector of length a recast as an a x 1 column reads, at (i, u), the vector at i. -/
theorem column_of_vector_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The four operands the last host stretch prepares for region 2 -/

/-- The graph ids as a 100000 x 1 column: entry (n, 0) is node n's graph id as launched. -/
theorem hb_run : ∀ n : Fin 100000,
    (E2 m c main_v78 : (⟨Cert.ReferenceIdeal.S100000x1, .i32⟩ : BufTy).Contents (Elt Ideal)) (ValueIdx.ix2 n (0 : Fin 1))
      = (m ((c : Thread nD τ).loc main_arg3) : (⟨Cert.ReferenceIdeal.S100000, .i32⟩ : BufTy).Contents (Elt Ideal)) (ValueIdx.ix1 n) := by
  intro n
  have e : W12 m c (Proc.devRef .tc main_v78)
      = fun i => shapeCast main_v78.ty.shape (m ((c : Thread nD τ).loc main_arg3)) shapeCasts_S100000_S100000x1 i := by
    show StableHlo.after hostOps2_2 _ (Proc.devRef .tc main_v78) = _
    after_results_simp
    rw [W9_arg3]
  show W12 m c (Proc.devRef .tc main_v78) (ValueIdx.ix2 n (0 : Fin 1)) = _
  rw [e]
  exact column_of_vector_apply _ _ n 0

/-- The first head bias as a 1 x 64 row. -/
theorem hg1_run : ∀ j : Fin 64,
    (E2 m c main_v79 : (⟨Cert.ReferenceIdeal.S1x64, .f32⟩ : BufTy).Contents (Elt Ideal)) (ValueIdx.ix2 (0 : Fin 1) j)
      = (m ((c : Thread nD τ).loc main_arg9) : (⟨Cert.ReferenceIdeal.S64, .f32⟩ : BufTy).Contents (Elt Ideal)) (ValueIdx.ix1 j) := by
  intro j
  have e : W12 m c (Proc.devRef .tc main_v79)
      = fun i => shapeCast main_v79.ty.shape (m ((c : Thread nD τ).loc main_arg9)) shapeCasts_S64_S1x64 i := by
    show StableHlo.after hostOps2_2 _ (Proc.devRef .tc main_v79) = _
    after_results_simp
    rw [W9_arg9]
  show W12 m c (Proc.devRef .tc main_v79) (ValueIdx.ix2 (0 : Fin 1) j) = _
  rw [e]
  exact ValueIdx.shapeCast_a_1a_apply _ _ 0 j

/-- The second head bias as a 1 x 3 row. -/
theorem hg2_run : ∀ j : Fin 3,
    (E2 m c main_v80 : (⟨Cert.ReferenceIdeal.S1x3, .f32⟩ : BufTy).Contents (Elt Ideal)) (ValueIdx.ix2 (0 : Fin 1) j)
      = (m ((c : Thread nD τ).loc main_arg11) : (⟨Cert.ReferenceIdeal.S3, .f32⟩ : BufTy).Contents (Elt Ideal)) (ValueIdx.ix1 j) := by
  intro j
  have e : W12 m c (Proc.devRef .tc main_v80)
      = fun i => shapeCast main_v80.ty.shape (m ((c : Thread nD τ).loc main_arg11)) shapeCasts_S3_S1x3 i := by
    show StableHlo.after hostOps2_2 _ (Proc.devRef .tc main_v80) = _
    after_results_simp
    rw [W9_arg11]
  show W12 m c (Proc.devRef .tc main_v80) (ValueIdx.ix2 (0 : Fin 1) j) = _
  rw [e]
  exact ValueIdx.shapeCast_a_1a_apply _ _ 0 j

/-- The clamped node counts as the host stretch computes them from the graph ids b: ones scattered at the ids into 256
    zeros and added up, then the maximum with one. -/
def countsK (b : (⟨S100000, .i32⟩ : BufTy).Contents (Elt Ideal)) : (⟨S256, .f32⟩ : BufTy).Contents (Elt Ideal) :=
  maximumf (F := Ideal)
    (Host.scatterAdd (F := Ideal) scatter_S256_S100000x1_S100000_n_0_0_1
      (broadcastInDim S256 ![] bcast_S_S256 (constant (F := Ideal) S_ .f32 0x00000000#32))
      (broadcastInDim S100000x1 ![0] bcast_S100000_S100000x1_0 b)
      (broadcastInDim S100000 ![] bcast_S_S100000 (constant (F := Ideal) S_ .f32 0x3F800000#32)))
    (broadcastInDim S256 ![] bcast_S_S256 (constant (F := Ideal) S_ .f32 0x3F800000#32))

/-- The reference's stage of the same meaning applies the same operations to the same constants, so the two are one term
    of the graph ids: the reference's definitions are opened down to the operations, and no operation is opened. -/
theorem counts_eq (b : (⟨S100000, .i32⟩ : BufTy).Contents (Elt Ideal)) :
    (countsK b : (⟨Cert.ReferenceIdeal.S256, .f32⟩ : BufTy).Contents (Elt Ideal))
      = Cert.ReferenceIdeal.Read.val_main_v114 (F := Ideal) (b : (⟨Cert.ReferenceIdeal.S100000, .i32⟩ : BufTy).Contents (Elt Ideal)) := by
  unfold countsK Cert.ReferenceIdeal.Read.val_main_v114 Cert.ReferenceIdeal.Read.val_main_v112 Cert.ReferenceIdeal.Read.val_main_v113
    Cert.ReferenceIdeal.Read.val_main_v110 Cert.ReferenceIdeal.Read.val_main_v111 Cert.ReferenceIdeal.Read.val_main_v109
    Cert.ReferenceIdeal.Read.val_main_cst_25 Cert.ReferenceIdeal.Read.val_main_cst_26 Cert.ReferenceIdeal.Read.val_main_cst_27
  rfl

/-- The clamped counts as a 256 x 1 column: entry (g, 0) is the reference's clamped count of graph g. -/
theorem hcnt_run : ∀ g : Fin 256,
    (E2 m c main_v77 : (⟨Cert.ReferenceIdeal.S256x1, .f32⟩ : BufTy).Contents (Elt Ideal)) (ValueIdx.ix2 g (0 : Fin 1))
      = Cert.ReferenceIdeal.Read.val_main_v114 (F := Ideal)
          (m ((c : Thread nD τ).loc main_arg3) : (⟨Cert.ReferenceIdeal.S100000, .i32⟩ : BufTy).Contents (Elt Ideal)) (ValueIdx.ix1 g) := by
  intro g
  have e : W12 m c (Proc.devRef .tc main_v77)
      = fun i => shapeCast main_v77.ty.shape (countsK (m ((c : Thread nD τ).loc main_arg3))) shapeCasts_S256_S256x1 i := by
    show StableHlo.after hostOps2_2 _ (Proc.devRef .tc main_v77) = _
    unfold countsK
    after_results_simp
    rw [W9_arg3]
  show W12 m c (Proc.devRef .tc main_v77) (ValueIdx.ix2 g (0 : Fin 1)) = _
  rw [e]
  refine (column_of_vector_apply _ _ g 0).trans ?_
  exact congrFun (counts_eq (m ((c : Thread nD τ).loc main_arg3))) (ValueIdx.ix1 g)

end Cert.KernelIdeal.Val

end
-- ==== Proof.Val.Chains.lean ====
/-
  From the boundary contents of the run to the reference's stages. Between the regions the kernel's @main applies to its
  buffers the same host operations as the reference applies to its own: the edge lists with the self loops, the weighted
  degrees, the symmetric normalisation, the gather of the transformed rows, their scaling, the scatter-add into the target
  rows, the bias and the clamp at zero. So once a region's array is known to be the reference's matrix product, every buffer
  a later stretch writes is the reference's stage of the same name, by applying one and the same function to equal values;
  the chains are never opened. The reference computes the normalisation once per layer and the kernel once in all: the two
  copies are one term of the edge list and the edge weights.
-/
import proofs.«409487_j3324304687518_2_alg».proof.Proof.KI.Run
import proofs.«409487_j3324304687518_2_alg».proof.Proof.Val.Tiles
import proofs.«409487_j3324304687518_2_alg».proof.Proof.Val.Pool
import proofs.«409487_j3324304687518_2_alg».proof.Proof.Val.RefCopies
import proofs.«409487_j3324304687518_2_alg».proof.Proof.Val.PoolHyps
import proofs.«409487_j3324304687518_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)

open Cert.ReferenceIdeal.Read

-- Contents of a buffer of the given shape and element type, over the extended reals.
set_option quotPrecheck false in
local notation "Cts[" s ", " e "]" => BufTy.Contents (Elt Ideal) (BufTy.mk s e)

/-! ## One host stretch at a time, from any contents

  Each stretch of host operations between two regions is read here once, from ARBITRARY contents V of the core's buffers:
  the buffer a stretch ends on is the reference's stage of the same operation, as soon as the buffers the stretch starts
  from hold the reference's earlier stages. Nothing below depends on what a region computes. -/

section Stretches

variable (V : Valuation τ sig (Elt Ideal))
variable (x0 : Cts[Cert.ReferenceIdeal.S100000x22, .f32]) (x1 : Cts[Cert.ReferenceIdeal.S2x1200000, .i32])
  (x2 : Cts[Cert.ReferenceIdeal.S1200000, .f32]) (x4 : Cts[Cert.ReferenceIdeal.S22x64, .f32]) (x5 : Cts[Cert.ReferenceIdeal.S64, .f32])
  (x6 : Cts[Cert.ReferenceIdeal.S64x64, .f32]) (x7 : Cts[Cert.ReferenceIdeal.S64, .f32])

/-- Source nodes: row 0 of the edge list, then one self loop per node. -/
theorem row_of_args : StableHlo.after hostOps0 V (Proc.devRef .tc main_v3)
    = val_main_v3 (F := Ideal) (V (Proc.devRef .tc main_arg1)) := by
  after_results
  rfl

/-- Target nodes: row 1 of the edge list, then the self loops. -/
theorem col_of_args : StableHlo.after hostOps0 V (Proc.devRef .tc main_v6)
    = val_main_v6 (F := Ideal) (V (Proc.devRef .tc main_arg1)) := by
  after_results
  rfl

/-- Edge weights, a one appended for every self loop. -/
theorem wts_of_args : StableHlo.after hostOps0 V (Proc.devRef .tc main_v8)
    = val_main_v8 (F := Ideal) (V (Proc.devRef .tc main_arg2)) := by
  after_results
  rfl

/-- Weighted in-degree of every node: the weights scatter-added at the targets into zeros. -/
theorem deg_of_args : StableHlo.after hostOps0 V (Proc.devRef .tc main_v11)
    = val_main_v11 (F := Ideal) (V (Proc.devRef .tc main_arg1)) (V (Proc.devRef .tc main_arg2)) := by
  after_results
  rfl

/-- Where the degree is positive (the guard of the first `where`). -/
theorem pos_of_args : StableHlo.after hostOps0 V (Proc.devRef .tc main_v13)
    = val_main_v13 (F := Ideal) (V (Proc.devRef .tc main_arg1)) (V (Proc.devRef .tc main_arg2)) := by
  after_results
  rfl

/-- The scalar one the first `where` falls back to. -/
theorem one_of_args : StableHlo.after hostOps0 V (Proc.devRef .tc main_cst_2) = val_main_cst_2 (F := Ideal) := by
  after_results
  rfl

/-- The degree, replaced by one where it is not positive. -/
theorem safe_deg (h11 : V (Proc.devRef .tc main_v11) = val_main_v11 (F := Ideal) x1 x2)
    (h13 : V (Proc.devRef .tc main_v13) = val_main_v13 (F := Ideal) x1 x2)
    (hc : V (Proc.devRef .tc main_cst_2) = val_main_cst_2 (F := Ideal)) :
    StableHlo.after hostOps0_1 V (Proc.devRef .tc main_v14) = val_main_v14 (F := Ideal) x1 x2 := by
  after_results
  simp only [StableHlo.TRef.ofBuf, StableHlo.TRef.toBuf, cast_eq]
  rw [h11, h13, hc]
  rfl

/-- The guard of the second `where`: again where the degree is positive. -/
theorem pos_again (h11 : V (Proc.devRef .tc main_v11) = val_main_v11 (F := Ideal) x1 x2) :
    StableHlo.after hostOps0_2 V (Proc.devRef .tc main_v16) = val_main_v16 (F := Ideal) x1 x2 := by
  after_results
  rw [h11]
  rfl

/-- Inverse square root of the guarded degree. -/
theorem rsqrt_deg (h14 : V (Proc.devRef .tc main_v14) = val_main_v14 (F := Ideal) x1 x2) :
    StableHlo.after hostOps0_2 V (Proc.devRef .tc main_v17) = val_main_v17 (F := Ideal) x1 x2 := by
  after_results
  rw [h14]
  rfl

/-- The scalar zero the second `where` falls back to. -/
theorem zero_of_args : StableHlo.after hostOps0_2 V (Proc.devRef .tc main_cst_4) = val_main_cst_4 (F := Ideal) := by
  after_results
  rfl

/-- d^(-1/2) per node, zero where the degree is not positive. -/
theorem inv_sqrt_deg (h16 : V (Proc.devRef .tc main_v16) = val_main_v16 (F := Ideal) x1 x2)
    (h17 : V (Proc.devRef .tc main_v17) = val_main_v17 (F := Ideal) x1 x2)
    (hc : V (Proc.devRef .tc main_cst_4) = val_main_cst_4 (F := Ideal)) :
    StableHlo.after hostOps0_3 V (Proc.devRef .tc main_v18) = val_main_v18 (F := Ideal) x1 x2 := by
  after_results
  simp only [StableHlo.TRef.ofBuf, StableHlo.TRef.toBuf, cast_eq]
  rw [h16, h17, hc]
  rfl

/-- The symmetric normalisation of every edge: d^(-1/2) at the source, times the weight, times d^(-1/2) at the target
    (before each gather a negative node id has the node count added to it once, on both sides alike). -/
theorem norm_of_graph (h3 : V (Proc.devRef .tc main_v3) = val_main_v3 (F := Ideal) x1)
    (h6 : V (Proc.devRef .tc main_v6) = val_main_v6 (F := Ideal) x1)
    (h8 : V (Proc.devRef .tc main_v8) = val_main_v8 (F := Ideal) x2)
    (h18 : V (Proc.devRef .tc main_v18) = val_main_v18 (F := Ideal) x1 x2) :
    StableHlo.after hostOps0_4 V (Proc.devRef .tc main_v34) = val_main_v34 (F := Ideal) x1 x2 := by
  after_results_simp
  rw [h3, h6, h8, h18]
  rfl

/-- First layer before the clamp: the transformed rows gathered at the sources, scaled edge by edge, scatter-added at the
    targets into zeros, plus the bias on every row. -/
theorem layer1_pre (h3 : V (Proc.devRef .tc main_v3) = val_main_v3 (F := Ideal) x1)
    (h6 : V (Proc.devRef .tc main_v6) = val_main_v6 (F := Ideal) x1)
    (h34 : V (Proc.devRef .tc main_v34) = val_main_v34 (F := Ideal) x1 x2)
    (h35 : V (Proc.devRef .tc main_v35) = val_main_v35 (F := Ideal) x0 x4)
    (h5 : V (Proc.devRef .tc main_arg5) = x5) :
    StableHlo.after hostOps1 V (Proc.devRef .tc main_v51) = val_main_v51 (F := Ideal) x0 x1 x2 x4 x5 := by
  after_results_simp
  rw [h3, h6, h34, h35, h5]
  rfl

/-- First layer's activations: the clamp at zero. -/
theorem layer1_act (h51 : V (Proc.devRef .tc main_v51) = val_main_v51 (F := Ideal) x0 x1 x2 x4 x5) :
    StableHlo.after hostOps1_1 V (Proc.devRef .tc main_v52) = val_main_v52 (F := Ideal) x0 x1 x2 x4 x5 := by
  after_results
  simp only [StableHlo.TRef.ofBuf, StableHlo.TRef.toBuf, cast_eq]
  rw [h51]
  rfl

/-- Second layer before the clamp: the same aggregation of the second product's rows, with the second bias. The reference
    reads ITS second copies of the edge list and of the normalisation here. -/
theorem layer2_pre (h56 : V (Proc.devRef .tc main_v3) = val_main_v56 (F := Ideal) x1)
    (h59 : V (Proc.devRef .tc main_v6) = val_main_v59 (F := Ideal) x1)
    (h87 : V (Proc.devRef .tc main_v34) = val_main_v87 (F := Ideal) x1 x2)
    (h88 : V (Proc.devRef .tc main_v53) = val_main_v88 (F := Ideal) x0 x1 x2 x4 x5 x6)
    (h7 : V (Proc.devRef .tc main_arg7) = x7) :
    StableHlo.after hostOps2 V (Proc.devRef .tc main_v69) = val_main_v104 (F := Ideal) x0 x1 x2 x4 x5 x6 x7 := by
  after_results_simp
  rw [h56, h59, h87, h88, h7]
  rfl

/-- Second layer's activations. -/
theorem layer2_act (h69 : V (Proc.devRef .tc main_v69) = val_main_v104 (F := Ideal) x0 x1 x2 x4 x5 x6 x7) :
    StableHlo.after hostOps2_1 V (Proc.devRef .tc main_v70) = val_main_v105 (F := Ideal) x0 x1 x2 x4 x5 x6 x7 := by
  after_results
  simp only [StableHlo.TRef.ofBuf, StableHlo.TRef.toBuf, cast_eq]
  rw [h69]
  rfl

end Stretches

/-! ## The launch arguments, and the walk of the run's boundaries -/

variable (m : (ℓ : Loc nD τ sig) → Buf (Elt Ideal) ℓ) (c : Dev nD)

/-- The node features x. -/
abbrev arg0 : Cts[Cert.ReferenceIdeal.S100000x22, .f32] := m ((c : Thread nD τ).loc main_arg0)
/-- The edge list (two rows of node ids). -/
abbrev arg1 : Cts[Cert.ReferenceIdeal.S2x1200000, .i32] := m ((c : Thread nD τ).loc main_arg1)
/-- The edge weights. -/
abbrev arg2 : Cts[Cert.ReferenceIdeal.S1200000, .f32] := m ((c : Thread nD τ).loc main_arg2)
/-- First layer: weight and bias. -/
abbrev arg4 : Cts[Cert.ReferenceIdeal.S22x64, .f32] := m ((c : Thread nD τ).loc main_arg4)
abbrev arg5 : Cts[Cert.ReferenceIdeal.S64, .f32] := m ((c : Thread nD τ).loc main_arg5)
/-- Second layer: weight and bias. -/
abbrev arg6 : Cts[Cert.ReferenceIdeal.S64x64, .f32] := m ((c : Thread nD τ).loc main_arg6)
abbrev arg7 : Cts[Cert.ReferenceIdeal.S64, .f32] := m ((c : Thread nD τ).loc main_arg7)

/-- What both layers read of the graph, held by contents V: the sources, the targets and the normalisation of the edges,
    each the reference's stage of the edge list x1 and the weights x2. -/
structure Graph (V : Valuation τ sig (Elt Ideal)) (x1 : Cts[Cert.ReferenceIdeal.S2x1200000, .i32])
    (x2 : Cts[Cert.ReferenceIdeal.S1200000, .f32]) : Prop where
  row : V (Proc.devRef .tc main_v3) = val_main_v3 (F := Ideal) x1
  col : V (Proc.devRef .tc main_v6) = val_main_v6 (F := Ideal) x1
  nrm : V (Proc.devRef .tc main_v34) = val_main_v34 (F := Ideal) x1 x2

/-- A host stretch that writes none of the three buffers keeps them. -/
theorem Graph.host {V : Valuation τ sig (Elt Ideal)} {x1 : Cts[Cert.ReferenceIdeal.S2x1200000, .i32]}
    {x2 : Cts[Cert.ReferenceIdeal.S1200000, .f32]} (g : Graph V x1 x2)
    (ops : List (HloOp τ sig (Elt Ideal))) {W : List (Ref sig .tc)}
    (hW : ops.Forall fun op => op.writes ⊆ (W.map (Proc.devRef (τ := τ) .tc)).toFinset)
    (h3 : main_v3 ∉ W) (h6 : main_v6 ∉ W) (h34 : main_v34 ∉ W) : Graph (StableHlo.after ops V) x1 x2 :=
  ⟨(StableHlo.after_of_writes_sub ops V hW h3).trans g.row, (StableHlo.after_of_writes_sub ops V hW h6).trans g.col,
    (StableHlo.after_of_writes_sub ops V hW h34).trans g.nrm⟩

/-! ### Up to region 0: the graph's three buffers, stretch by stretch from the launch memory -/

theorem V1_row : Gen.V1 m c (Proc.devRef .tc main_v3) = val_main_v3 (F := Ideal) (arg1 m c) := row_of_args (Gen.V0 m c)
theorem V1_col : Gen.V1 m c (Proc.devRef .tc main_v6) = val_main_v6 (F := Ideal) (arg1 m c) := col_of_args (Gen.V0 m c)
theorem V1_wts : Gen.V1 m c (Proc.devRef .tc main_v8) = val_main_v8 (F := Ideal) (arg2 m c) := wts_of_args (Gen.V0 m c)
theorem V1_deg : Gen.V1 m c (Proc.devRef .tc main_v11) = val_main_v11 (F := Ideal) (arg1 m c) (arg2 m c) :=
  deg_of_args (Gen.V0 m c)
theorem V1_pos : Gen.V1 m c (Proc.devRef .tc main_v13) = val_main_v13 (F := Ideal) (arg1 m c) (arg2 m c) :=
  pos_of_args (Gen.V0 m c)
theorem V1_one : Gen.V1 m c (Proc.devRef .tc main_cst_2) = val_main_cst_2 (F := Ideal) := one_of_args (Gen.V0 m c)

/-- A buffer the three stretches of the two `where`s do not write is, before the last stretch, what the first left. -/
theorem V4_back (r : Ref sig .tc) (h1 : r ∉ hostOps0_1_W) (h2 : r ∉ hostOps0_2_W) (h3 : r ∉ hostOps0_3_W) :
    Gen.V4 m c (Proc.devRef .tc r) = Gen.V1 m c (Proc.devRef .tc r) :=
  (Gen.V4_of m c r h3).trans ((Gen.V3_of m c r h2).trans (Gen.V2_of m c r h1))

theorem V2_safe : Gen.V2 m c (Proc.devRef .tc main_v14) = val_main_v14 (F := Ideal) (arg1 m c) (arg2 m c) :=
  safe_deg (Gen.V1 m c) _ _ (V1_deg m c) (V1_pos m c) (V1_one m c)
theorem V2_deg : Gen.V2 m c (Proc.devRef .tc main_v11) = val_main_v11 (F := Ideal) (arg1 m c) (arg2 m c) :=
  (Gen.V2_of m c main_v11 (by decide)).trans (V1_deg m c)
theorem V3_pos : Gen.V3 m c (Proc.devRef .tc main_v16) = val_main_v16 (F := Ideal) (arg1 m c) (arg2 m c) :=
  pos_again (Gen.V2 m c) _ _ (V2_deg m c)
theorem V3_rsqrt : Gen.V3 m c (Proc.devRef .tc main_v17) = val_main_v17 (F := Ideal) (arg1 m c) (arg2 m c) :=
  rsqrt_deg (Gen.V2 m c) _ _ (V2_safe m c)
theorem V3_zero : Gen.V3 m c (Proc.devRef .tc main_cst_4) = val_main_cst_4 (F := Ideal) := zero_of_args (Gen.V2 m c)
theorem V4_inv : Gen.V4 m c (Proc.devRef .tc main_v18) = val_main_v18 (F := Ideal) (arg1 m c) (arg2 m c) :=
  inv_sqrt_deg (Gen.V3 m c) _ _ (V3_pos m c) (V3_rsqrt m c) (V3_zero m c)

/-- Region 0 is entered with the graph's three buffers at the reference's stages. -/
theorem graph5 : Graph (W5 m c) (arg1 m c) (arg2 m c) where
  row := (Gen.V5_of m c main_v3 (by decide)).trans
    ((V4_back m c main_v3 (by decide) (by decide) (by decide)).trans (V1_row m c))
  col := (Gen.V5_of m c main_v6 (by decide)).trans
    ((V4_back m c main_v6 (by decide) (by decide) (by decide)).trans (V1_col m c))
  nrm := norm_of_graph (Gen.V4 m c) _ _
    ((V4_back m c main_v3 (by decide) (by decide) (by decide)).trans (V1_row m c))
    ((V4_back m c main_v6 (by decide) (by decide) (by decide)).trans (V1_col m c))
    ((V4_back m c main_v8 (by decide) (by decide) (by decide)).trans (V1_wts m c))
    (V4_inv m c)

/-! ### Through the regions: a region changes its output array only -/

theorem graph6 : Graph (W6 m c) (arg1 m c) (arg2 m c) where
  row := (W6_of_ne m c main_v3 (by decide)).trans (graph5 m c).row
  col := (W6_of_ne m c main_v6 (by decide)).trans (graph5 m c).col
  nrm := (W6_of_ne m c main_v34 (by decide)).trans (graph5 m c).nrm

/-- Region 0 leaves the reference's first matrix product x W1. -/
theorem prod6 : W6 m c (Proc.devRef .tc main_v35) = val_main_v35 (F := Ideal) (arg0 m c) (arg4 m c) := by
  have e0 : E0 m c main_arg0 = arg0 m c :=
    W5_launch m c main_arg0 (by decide) (by decide) (by decide) (by decide) (by decide)
  have e4 : E0 m c main_arg4 = arg4 m c :=
    W5_launch m c main_arg4 (by decide) (by decide) (by decide) (by decide) (by decide)
  refine (W6_arr m c 2).trans ((tiles0 (E0 m) c).trans ?_)
  rw [e0, e4]
  rfl

/-- The first bias is an argument nothing writes. -/
theorem bias6 : W6 m c (Proc.devRef .tc main_arg5) = arg5 m c :=
  (W6_of_ne m c main_arg5 (by decide)).trans
    (W5_launch m c main_arg5 (by decide) (by decide) (by decide) (by decide) (by decide))

/-- A buffer the first layer's two stretches do not write is, before region 1, what region 0 left. -/
theorem W8_back (r : Ref sig .tc) (h6 : r ∉ hostOps1_W) (h7 : r ∉ hostOps1_1_W) :
    W8 m c (Proc.devRef .tc r) = W6 m c (Proc.devRef .tc r) :=
  (StableHlo.after_of_writes_sub hostOps1_1 _ hostOps1_1_writes h7).trans
    (StableHlo.after_of_writes_sub hostOps1 _ hostOps1_writes h6)

theorem h1_eq' : W8 m c (Proc.devRef .tc main_v52)
    = val_main_v52 (F := Ideal) (arg0 m c) (arg1 m c) (arg2 m c) (arg4 m c) (arg5 m c) :=
  layer1_act (W7 m c) _ _ _ _ _
    (layer1_pre (W6 m c) _ _ _ _ _ (graph6 m c).row (graph6 m c).col (graph6 m c).nrm (prod6 m c) (bias6 m c))

theorem graph8 : Graph (W8 m c) (arg1 m c) (arg2 m c) :=
  ((graph6 m c).host hostOps1 hostOps1_writes (by decide) (by decide) (by decide)).host hostOps1_1 hostOps1_1_writes
    (by decide) (by decide) (by decide)

theorem graph9 : Graph (W9 m c) (arg1 m c) (arg2 m c) where
  row := (W9_of_ne m c main_v3 (by decide)).trans (graph8 m c).row
  col := (W9_of_ne m c main_v6 (by decide)).trans (graph8 m c).col
  nrm := (W9_of_ne m c main_v34 (by decide)).trans (graph8 m c).nrm

/-- The second weight, before region 1, is the launch's. -/
theorem weight8 : E1 m c main_arg6 = arg6 m c :=
  (W8_back m c main_arg6 (by decide) (by decide)).trans ((W6_of_ne m c main_arg6 (by decide)).trans
    (W5_launch m c main_arg6 (by decide) (by decide) (by decide) (by decide) (by decide)))

/-- Region 1 leaves the reference's second matrix product h1 W2. -/
theorem prod9 : W9 m c (Proc.devRef .tc main_v53)
    = val_main_v88 (F := Ideal) (arg0 m c) (arg1 m c) (arg2 m c) (arg4 m c) (arg5 m c) (arg6 m c) := by
  have e52 : E1 m c main_v52 = val_main_v52 (F := Ideal) (arg0 m c) (arg1 m c) (arg2 m c) (arg4 m c) (arg5 m c) := h1_eq' m c
  have e6 : E1 m c main_arg6 = arg6 m c := weight8 m c
  refine (W9_arr m c 2).trans ((tiles1 (E1 m) c).trans ?_)
  rw [e52, e6]
  rfl

/-- The second bias is an argument nothing writes. -/
theorem bias9 : W9 m c (Proc.devRef .tc main_arg7) = arg7 m c :=
  (W9_of_ne m c main_arg7 (by decide)).trans ((W8_back m c main_arg7 (by decide) (by decide)).trans
    ((W6_of_ne m c main_arg7 (by decide)).trans
      (W5_launch m c main_arg7 (by decide) (by decide) (by decide) (by decide) (by decide))))

/-! ### The second layer -/

/-- A buffer the second layer's three stretches do not write is, before region 2, what region 1 left. -/
theorem W12_back (r : Ref sig .tc) (h9 : r ∉ hostOps2_W) (h10 : r ∉ hostOps2_1_W) (h11 : r ∉ hostOps2_2_W) :
    W12 m c (Proc.devRef .tc r) = W9 m c (Proc.devRef .tc r) :=
  (StableHlo.after_of_writes_sub hostOps2_2 _ hostOps2_2_writes h11).trans
    ((StableHlo.after_of_writes_sub hostOps2_1 _ hostOps2_1_writes h10).trans
      (StableHlo.after_of_writes_sub hostOps2 _ hostOps2_writes h9))

theorem h2_eq' : W12 m c (Proc.devRef .tc main_v70)
    = val_main_v105 (F := Ideal) (arg0 m c) (arg1 m c) (arg2 m c) (arg4 m c) (arg5 m c) (arg6 m c) (arg7 m c) :=
  (StableHlo.after_of_writes_sub hostOps2_2 _ hostOps2_2_writes (by decide)).trans
    (layer2_act (W10 m c) _ _ _ _ _ _ _
      (layer2_pre (W9 m c) _ _ _ _ _ _ _ ((graph9 m c).row.trans (row_copy _).symm)
        ((graph9 m c).col.trans (col_copy _).symm) ((graph9 m c).nrm.trans (norm_copy _ _).symm)
        (prod9 m c) (bias9 m c)))

/-! ## The pool and the head -/

/-- The graph id of every node. -/
abbrev arg3 : Cts[Cert.ReferenceIdeal.S100000, .i32] := m ((c : Thread nD τ).loc main_arg3)
/-- The head's first dense layer: weight and bias. -/
abbrev arg8 : Cts[Cert.ReferenceIdeal.S64x64, .f32] := m ((c : Thread nD τ).loc main_arg8)
abbrev arg9 : Cts[Cert.ReferenceIdeal.S64, .f32] := m ((c : Thread nD τ).loc main_arg9)
/-- The head's second dense layer: weight and bias. -/
abbrev arg10 : Cts[Cert.ReferenceIdeal.S64x3, .f32] := m ((c : Thread nD τ).loc main_arg10)
abbrev arg11 : Cts[Cert.ReferenceIdeal.S3, .f32] := m ((c : Thread nD τ).loc main_arg11)

/-- An argument that is no array of the two transform regions is, before region 2, as launched: no host stretch writes it. -/
theorem W12_launch (r : Ref sig .tc) (hR1 : ∀ w, Pipeline.arrRef spec1 w ≠ r) (hR0 : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W)
    (h6 : r ∉ hostOps1_W) (h7 : r ∉ hostOps1_1_W) (h9 : r ∉ hostOps2_W) (h10 : r ∉ hostOps2_1_W) (h11 : r ∉ hostOps2_2_W) :
    W12 m c (Proc.devRef .tc r) = m ((c : Thread nD τ).loc r) :=
  (W12_back m c r h9 h10 h11).trans ((W9_of_ne m c r hR1).trans ((W8_back m c r h6 h7).trans
    ((W6_of_ne m c r hR0).trans (W5_launch m c r h0 h1 h2 h3 h4))))

/-- The head's two weight matrices, as region 2 is entered with them, are the launch's. -/
theorem head_w1 : E2 m c main_arg8 = arg8 m c :=
  W12_launch m c main_arg8 (by decide) (by decide) (by decide) (by decide) (by decide) (by decide) (by decide)
    (by decide) (by decide) (by decide) (by decide) (by decide)
theorem head_w2 : E2 m c main_arg10 = arg10 m c :=
  W12_launch m c main_arg10 (by decide) (by decide) (by decide) (by decide) (by decide) (by decide) (by decide)
    (by decide) (by decide) (by decide) (by decide) (by decide)

/-- Region 2's result from its four reshaped operands: with the graph ids, the clamped counts and the two biases in place,
    the pool and the head of the second layer's activations are the reference's tail of the reference's second layer. -/
theorem value_of_operands
    (hb : ∀ n : Fin 100000, (E2 m c main_v78 : Cts[Cert.ReferenceIdeal.S100000x1, .i32]) (ValueIdx.ix2 n (0 : Fin 1)) = arg3 m c (ValueIdx.ix1 n))
    (hcnt : ∀ g : Fin 256, (E2 m c main_v77 : Cts[Cert.ReferenceIdeal.S256x1, .f32]) (ValueIdx.ix2 g (0 : Fin 1))
        = val_main_v114 (F := Ideal) (arg3 m c) (ValueIdx.ix1 g))
    (hg1 : ∀ j : Fin 64, (E2 m c main_v79 : Cts[Cert.ReferenceIdeal.S1x64, .f32]) (ValueIdx.ix2 (0 : Fin 1) j) = arg9 m c (ValueIdx.ix1 j))
    (hg2 : ∀ j : Fin 3, (E2 m c main_v80 : Cts[Cert.ReferenceIdeal.S1x3, .f32]) (ValueIdx.ix2 (0 : Fin 1) j) = arg11 m c (ValueIdx.ix1 j)) :
    (dat2 (F := Ideal) (E2 m) c).arrAt 7 cfg2.N
      = val_main_v126 (F := Ideal) (arg0 m c) (arg1 m c) (arg2 m c) (arg3 m c) (arg4 m c) (arg5 m c) (arg6 m c) (arg7 m c)
          (arg8 m c) (arg9 m c) (arg10 m c) (arg11 m c) := by
  have e70 : E2 m c main_v70
      = val_main_v105 (F := Ideal) (arg0 m c) (arg1 m c) (arg2 m c) (arg4 m c) (arg5 m c) (arg6 m c) (arg7 m c) := h2_eq' m c
  refine (pool2 (E2 m) c (arg3 m c) (arg9 m c) (arg11 m c) hb hcnt hg1 hg2).trans ?_
  rw [e70, head_w1 m c, head_w2 m c]
  exact (val_main_v126_tail _ _ _ _ _ _ _ _ _ _ _ _).symm

/-- The first layer's activations, as the run holds them before region 1, are the reference's. -/
theorem h1_eq : (W8 m c main_v52 : (⟨Cert.ReferenceIdeal.S100000x64, .f32⟩ : BufTy).Contents (Elt Ideal))
    = val_main_v52 (F := Ideal) (m ((c : Thread nD τ).loc main_arg0) : (⟨Cert.ReferenceIdeal.S100000x22, .f32⟩ : BufTy).Contents (Elt Ideal)) (m ((c : Thread nD τ).loc main_arg1) : (⟨Cert.ReferenceIdeal.S2x1200000, .i32⟩ : BufTy).Contents (Elt Ideal)) (m ((c : Thread nD τ).loc main_arg2) : (⟨Cert.ReferenceIdeal.S1200000, .f32⟩ : BufTy).Contents (Elt Ideal)) (m ((c : Thread nD τ).loc main_arg4) : (⟨Cert.ReferenceIdeal.S22x64, .f32⟩ : BufTy).Contents (Elt Ideal)) (m ((c : Thread nD τ).loc main_arg5) : (⟨Cert.ReferenceIdeal.S64, .f32⟩ : BufTy).Contents (Elt Ideal)) :=
  h1_eq' m c

/-- The second layer's activations, as the run holds them before region 2, are the reference's. -/
theorem h2_eq : (W12 m c main_v70 : (⟨Cert.ReferenceIdeal.S100000x64, .f32⟩ : BufTy).Contents (Elt Ideal))
    = val_main_v105 (F := Ideal) (m ((c : Thread nD τ).loc main_arg0) : (⟨Cert.ReferenceIdeal.S100000x22, .f32⟩ : BufTy).Contents (Elt Ideal)) (m ((c : Thread nD τ).loc main_arg1) : (⟨Cert.ReferenceIdeal.S2x1200000, .i32⟩ : BufTy).Contents (Elt Ideal)) (m ((c : Thread nD τ).loc main_arg2) : (⟨Cert.ReferenceIdeal.S1200000, .f32⟩ : BufTy).Contents (Elt Ideal)) (m ((c : Thread nD τ).loc main_arg4) : (⟨Cert.ReferenceIdeal.S22x64, .f32⟩ : BufTy).Contents (Elt Ideal)) (m ((c : Thread nD τ).loc main_arg5) : (⟨Cert.ReferenceIdeal.S64, .f32⟩ : BufTy).Contents (Elt Ideal)) (m ((c : Thread nD τ).loc main_arg6) : (⟨Cert.ReferenceIdeal.S64x64, .f32⟩ : BufTy).Contents (Elt Ideal)) (m ((c : Thread nD τ).loc main_arg7) : (⟨Cert.ReferenceIdeal.S64, .f32⟩ : BufTy).Contents (Elt Ideal)) :=
  h2_eq' m c

/-- THE KERNEL'S VALUE: the array region 2 leaves in the result buffer is the reference's result stage of the launch
    arguments. -/
theorem kernel_value : (dat2 (F := Ideal) (E2 m) c).arrAt 7 cfg2.N
    = val_main_v126 (F := Ideal) (m ((c : Thread nD τ).loc main_arg0) : (⟨Cert.ReferenceIdeal.S100000x22, .f32⟩ : BufTy).Contents (Elt Ideal)) (m ((c : Thread nD τ).loc main_arg1) : (⟨Cert.ReferenceIdeal.S2x1200000, .i32⟩ : BufTy).Contents (Elt Ideal)) (m ((c : Thread nD τ).loc main_arg2) : (⟨Cert.ReferenceIdeal.S1200000, .f32⟩ : BufTy).Contents (Elt Ideal)) (m ((c : Thread nD τ).loc main_arg3) : (⟨Cert.ReferenceIdeal.S100000, .i32⟩ : BufTy).Contents (Elt Ideal)) (m ((c : Thread nD τ).loc main_arg4) : (⟨Cert.ReferenceIdeal.S22x64, .f32⟩ : BufTy).Contents (Elt Ideal)) (m ((c : Thread nD τ).loc main_arg5) : (⟨Cert.ReferenceIdeal.S64, .f32⟩ : BufTy).Contents (Elt Ideal)) (m ((c : Thread nD τ).loc main_arg6) : (⟨Cert.ReferenceIdeal.S64x64, .f32⟩ : BufTy).Contents (Elt Ideal)) (m ((c : Thread nD τ).loc main_arg7) : (⟨Cert.ReferenceIdeal.S64, .f32⟩ : BufTy).Contents (Elt Ideal)) (m ((c : Thread nD τ).loc main_arg8) : (⟨Cert.ReferenceIdeal.S64x64, .f32⟩ : BufTy).Contents (Elt Ideal)) (m ((c : Thread nD τ).loc main_arg9) : (⟨Cert.ReferenceIdeal.S64, .f32⟩ : BufTy).Contents (Elt Ideal)) (m ((c : Thread nD τ).loc main_arg10) : (⟨Cert.ReferenceIdeal.S64x3, .f32⟩ : BufTy).Contents (Elt Ideal)) (m ((c : Thread nD τ).loc main_arg11) : (⟨Cert.ReferenceIdeal.S3, .f32⟩ : BufTy).Contents (Elt Ideal)) :=
  value_of_operands m c (hb_run m c) (hcnt_run m c) (hg1_run m c) (hg2_run m c)

end Cert.KernelIdeal.Val

end
-- ==== Proof.lean ====
/-
  A two-layer graph convolution, a mean pool over the graphs of the batch and a two-layer head, computed once with three
  tiled kernels among host operations and once by host operations alone.

  Both programs build the same edge lists with self loops, the same weighted degrees and the same symmetric normalisation,
  and in each layer gather the transformed rows, scale them, add them into their target rows, add the bias and clamp at
  zero, by the same host operations. They differ in three places. The two dense transforms x W1 and h W2 are ten row tiles
  each in the kernel program, one whole matrix product in the reference: over the extended reals a change of float format
  is the identity and a product into a zero accumulator is the plain sum of products, so the ten tiles are the rows of the
  whole product. The pool is, in the kernel program, a scratch that ten grid points increase by the product of the
  transposed one-hot matrix of the graph ids with a tile of the activations, and in the reference a scatter-add of the
  rows at the graph ids into zeros: a one-hot entry is one or zero, zero times anything is zero also at the infinities,
  and a graph id outside 0..255 matches no column in the one and lands nowhere in the other, so both are, entry by entry,
  the sum of the rows with that id, for every integer id; only commutativity and associativity of the sum are used, so the
  inputs' finiteness is never opened. The head is the same division by the clamped counts, the same two dense layers,
  biases and clamp in both.

  The frames: no host operation and no kernel region writes an argument. For the two kernel programs the run is laid out
  as thirteen items over named contents at each boundary, each region's body run once per control case, the pool's scratch
  carried through the region's invariant; the reference's is its generated run with the result dropped. No rewrite of the
  idealisation applies to this kernel, so the preservation claim has nothing to state.
-/
import proofs.«409487_j3324304687518_2_alg».proof.Defs
import proofs.«409487_j3324304687518_2_alg».proof.Proof.Gen.Kernel
import proofs.«409487_j3324304687518_2_alg».proof.Proof.Gen.KernelIdeal
import proofs.«409487_j3324304687518_2_alg».proof.Proof.Gen.ReferenceIdeal
import proofs.«409487_j3324304687518_2_alg».proof.Proof.Gen.Pre_finite_inputs
import proofs.«409487_j3324304687518_2_alg».proof.Proof.Gen.ReferenceIdeal.Run
import proofs.«409487_j3324304687518_2_alg».proof.Proof.Gen.ReferenceIdeal.Read
import proofs.«409487_j3324304687518_2_alg».proof.Proof.K.Run
import proofs.«409487_j3324304687518_2_alg».proof.Proof.KI.Run
import proofs.«409487_j3324304687518_2_alg».proof.Proof.Val.Chains
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_word : Cert.frame_Kernel := fun m ρ _ => Cert.Kernel.Hand.frame (F := Bits) m ρ

/-- So does the idealized kernel program. -/
theorem frame_ideal : Cert.frame_KernelIdeal := fun m ρ _ => Cert.KernelIdeal.Hand.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite of the idealisation applies to this kernel. -/
theorem preserves : Cert.preserves_Kernel_KernelIdeal := trivial

/-- From memories that agree on the arguments the idealized kernel program and the idealized reference end with the same
    result: the reference's result stage of the arguments. -/
theorem algebraic : Cert.algebraic_KernelIdeal_ReferenceIdeal := by
  intro m ρ m' ρ' _ hagree
  refine ⟨fun c => Cert.ReferenceIdeal.Read.val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v126_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
